-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) (main_arg1 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  main_v8
-- ==== Kernel.lean ====
abbrev S4x4096x4096 : Shape := ⟨3, ![4, 4096, 4096]⟩
abbrev S16384x4096 : Shape := ⟨2, ![16384, 4096]⟩
abbrev S1x32 : Shape := ⟨2, ![1, 32]⟩
abbrev S512x4096 : Shape := ⟨2, ![512, 4096]⟩
abbrev S512x32x128 : Shape := ⟨3, ![512, 32, 128]⟩
abbrev S512x32 : Shape := ⟨2, ![512, 32]⟩
abbrev S32 : Shape := ⟨1, ![32]⟩
abbrev S_ : Shape := ⟨0, ![]⟩
abbrev S256x4096 : Shape := ⟨2, ![256, 4096]⟩
abbrev S256x32x128 : Shape := ⟨3, ![256, 32, 128]⟩
abbrev S1x32x1 : Shape := ⟨3, ![1, 32, 1]⟩

abbrev nBuf : Space → Nat
  | .hbm => 40
  | .vmem => 24
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16384x4096, .f32⟩
  | .hbm, ⟨3, _⟩ => ⟨S1x32, .f32⟩
  | .hbm, ⟨4, _⟩ => ⟨S1x32, .f32⟩
  | .hbm, ⟨5, _⟩ => ⟨S1x32, .i1⟩
  | .hbm, ⟨6, _⟩ => ⟨S_, .f32⟩
  | .hbm, ⟨7, _⟩ => ⟨S1x32, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S_, .f32⟩
  | .hbm, ⟨17, _⟩ => ⟨S1x32, .f32⟩
  | .hbm, ⟨18, _⟩ => ⟨S1x32, .f32⟩
  | .hbm, ⟨19, _⟩ => ⟨S16384x4096, .f32⟩
  | .hbm, ⟨20, _⟩ => ⟨S4x4096x4096, .f32⟩
  | .hbm, ⟨21, _⟩ => ⟨S16384x4096, .f32⟩
  | .hbm, ⟨22, _⟩ => ⟨S1x32, .f32⟩
  | .hbm, ⟨23, _⟩ => ⟨S1x32, .f32⟩
  | .hbm, ⟨24, _⟩ => ⟨S1x32, .i1⟩
  | .hbm, ⟨25, _⟩ => ⟨S_, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S_, .f32⟩
  | .hbm, ⟨36, _⟩ => ⟨S1x32, .f32⟩
  | .hbm, ⟨37, _⟩ => ⟨S1x32, .f32⟩
  | .hbm, ⟨38, _⟩ => ⟨S16384x4096, .f32⟩
  | .hbm, ⟨39, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S256x4096, .f32⟩
  | .local _ .vmem, ⟨7, _⟩ => ⟨S256x4096, .f32⟩
  | .local _ .vmem, ⟨8, _⟩ => ⟨S1x32, .f32⟩
  | .local _ .vmem, ⟨9, _⟩ => ⟨S1x32, .f32⟩
  | .local _ .vmem, ⟨10, _⟩ => ⟨S256x4096, .f32⟩
  | .local _ .vmem, ⟨11, _⟩ => ⟨S256x4096, .f32⟩
  | .local _ .vmem, ⟨12, _⟩ => ⟨S512x4096, .f32⟩
  | .local _ .vmem, ⟨13, _⟩ => ⟨S512x4096, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S256x4096, .f32⟩
  | .local _ .vmem, ⟨19, _⟩ => ⟨S256x4096, .f32⟩
  | .local _ .vmem, ⟨20, _⟩ => ⟨S1x32, .f32⟩
  | .local _ .vmem, ⟨21, _⟩ => ⟨S1x32, .f32⟩
  | .local _ .vmem, ⟨22, _⟩ => ⟨S256x4096, .f32⟩
  | .local _ .vmem, ⟨23, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4x4096x4096_S16384x4096 : S4x4096x4096.ShapeCasts S16384x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S512x4096_S512x32x128 : S512x4096.ShapeCasts S512x32x128
  reduces_S512x32x128_S512x32 : S512x32x128.Reduces [2] S512x32
  reduces_S512x32_S32 : S512x32.Reduces [0] S32
  shapeCasts_S32_S1x32 : S32.ShapeCasts S1x32
  bcast_S_S1x32 : S_.BroadcastsInDim S1x32 (![] : Fin 0 → Fin S1x32.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x32x128 : S256x4096.ShapeCasts S256x32x128
  shapeCasts_S1x32_S1x32x1 : S1x32.ShapeCasts S1x32x1
  broadcasts_S1x32x1_S256x32x128 : S1x32x1.Broadcasts S256x32x128
  shapeCasts_S256x32x128_S256x4096 : S256x32x128.ShapeCasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S16384x4096.size a
  hwx1_0 : ∀ i : grid1.Coords, EltTy.bits .f32 = 32 ∨ (Rect.block (s := S16384x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x4096.size a
  hwx2_0 : ∀ i : grid2.Coords, EltTy.bits .f32 = 32 ∨ (Rect.block (s := S16384x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S16384x4096.size a
  hwx3_0 : ∀ i : grid3.Coords, EltTy.bits .f32 = 32 ∨ (Rect.block (s := S16384x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S16384x4096.size a
  hwx3_3 : ∀ i : grid3.Coords, EltTy.bits .f32 = 32 ∨ (Rect.block (s := S16384x4096) S256x4096.size (cc3_transform_3 i) (hinb3_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x32.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S1x32.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S1x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S256x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x4096x4096 : Shape := ⟨3, ![4, 4096, 4096]⟩
abbrev S16384x4096 : Shape := ⟨2, ![16384, 4096]⟩
abbrev S16384x32x128 : Shape := ⟨3, ![16384, 32, 128]⟩
abbrev S_ : Shape := ⟨0, ![]⟩
abbrev S32 : Shape := ⟨1, ![32]⟩
abbrev S1x32x1 : Shape := ⟨3, ![1, 32, 1]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16384x4096, .f32⟩
  | .hbm, ⟨3, _⟩ => ⟨S16384x32x128, .f32⟩
  | .hbm, ⟨4, _⟩ => ⟨S_, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .i1⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x32x1, .f32⟩
  | .hbm, ⟨23, _⟩ => ⟨S1x32x1, .f32⟩
  | .hbm, ⟨24, _⟩ => ⟨S16384x32x128, .f32⟩
  | .hbm, ⟨25, _⟩ => ⟨S16384x32x128, .f32⟩
  | .hbm, ⟨26, _⟩ => ⟨S16384x32x128, .f32⟩
  | .hbm, ⟨27, _⟩ => ⟨S16384x32x128, .f32⟩
  | .hbm, ⟨28, _⟩ => ⟨S16384x32x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16384x32x128, .f32⟩
  | .hbm, ⟨33, _⟩ => ⟨S16384x32x128, .f32⟩
  | .hbm, ⟨34, _⟩ => ⟨S_, .f32⟩
  | .hbm, ⟨35, _⟩ => ⟨S16384x32x128, .f32⟩
  | .hbm, ⟨36, _⟩ => ⟨S16384x32x128, .f32⟩
  | .hbm, ⟨37, _⟩ => ⟨S16384x32x128, .f32⟩
  | .hbm, ⟨38, _⟩ => ⟨S16384x32x128, .f32⟩
  | .hbm, ⟨39, _⟩ => ⟨S16384x32x128, .f32⟩
  | .hbm, ⟨40, _⟩ => ⟨S16384x32x128, .f32⟩
  | .hbm, ⟨41, _⟩ => ⟨S16384x4096, .f32⟩
  | .hbm, ⟨42, _⟩ => ⟨S4x4096x4096, .f32⟩
  | .hbm, ⟨43, _⟩ => ⟨S16384x4096, .f32⟩
  | .hbm, ⟨44, _⟩ => ⟨S16384x32x128, .f32⟩
  | .hbm, ⟨45, _⟩ => ⟨S_, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .i1⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S1x32x1, .f32⟩
  | .hbm, ⟨64, _⟩ => ⟨S1x32x1, .f32⟩
  | .hbm, ⟨65, _⟩ => ⟨S16384x32x128, .f32⟩
  | .hbm, ⟨66, _⟩ => ⟨S16384x32x128, .f32⟩
  | .hbm, ⟨67, _⟩ => ⟨S16384x32x128, .f32⟩
  | .hbm, ⟨68, _⟩ => ⟨S16384x32x128, .f32⟩
  | .hbm, ⟨69, _⟩ => ⟨S16384x32x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S16384x32x128, .f32⟩
  | .hbm, ⟨74, _⟩ => ⟨S16384x32x128, .f32⟩
  | .hbm, ⟨75, _⟩ => ⟨S_, .f32⟩
  | .hbm, ⟨76, _⟩ => ⟨S16384x32x128, .f32⟩
  | .hbm, ⟨77, _⟩ => ⟨S16384x32x128, .f32⟩
  | .hbm, ⟨78, _⟩ => ⟨S16384x32x128, .f32⟩
  | .hbm, ⟨79, _⟩ => ⟨S16384x32x128, .f32⟩
  | .hbm, ⟨80, _⟩ => ⟨S16384x32x128, .f32⟩
  | .hbm, ⟨81, _⟩ => ⟨S16384x32x128, .f32⟩
  | .hbm, ⟨82, _⟩ => ⟨S16384x4096, .f32⟩
  | .hbm, ⟨83, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_cst_12 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  shapeCasts_S4x4096x4096_S16384x4096 : S4x4096x4096.ShapeCasts S16384x4096
  shapeCasts_S16384x4096_S16384x32x128 : S16384x4096.ShapeCasts S16384x32x128
  reducesTo_S16384x32x128_S32_d0_2 : S16384x32x128.ReducesTo [0, 2] S32
  h_S_ : 0 < S_.numel
  bcast_S_S32 : S_.BroadcastsInDim S32 (![] : Fin 0 → Fin S32.rank)
  bcast_S32_S1x32x1_1 : S32.BroadcastsInDim S1x32x1 (![1] : Fin 1 → Fin S1x32x1.rank)
  bcast_S1x32x1_S16384x32x128_0_1_2 : S1x32x1.BroadcastsInDim S16384x32x128 (![0, 1, 2] : Fin 3 → Fin S16384x32x128.rank)
  bcast_S_S16384x32x128 : S_.BroadcastsInDim S16384x32x128 (![] : Fin 0 → Fin S16384x32x128.rank)
  shapeCasts_S16384x32x128_S16384x4096 : S16384x32x128.ShapeCasts S16384x4096
  shapeCasts_S16384x4096_S4x4096x4096 : S16384x4096.ShapeCasts S4x4096x4096

variable [Facts₀]

class Facts : Prop extends Facts₀ where

variable [Facts]
-- ==== Proof.K.Common.lean ====
/-
  Facts about whole-buffer rectangles that the regions' body runs share: a rectangle that starts at the origin and has
  the buffer's extents holds every index, and a load through it after stores of which the last went through it reads
  that store's payload.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_x : (![0, 0] : Fin S512x4096.rank → Nat) = fun _ => 0 :=
  funext fun a => by match a with | ⟨0, _⟩ => rfl | ⟨1, _⟩ => rfl
theorem hz_g : (![0, 0] : Fin S1x32.rank → Nat) = fun _ => 0 :=
  funext fun a => by match a with | ⟨0, _⟩ => rfl | ⟨1, _⟩ => rfl

/-- Every index lies in a rectangle that starts at the origin and has the buffer's extents. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A load through the whole-buffer rectangle, after stores of which the LAST went through that rectangle, reads that
    store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.Kernel.Gen

end
-- ==== Proof.K.R0.lean ====
/-
  Region 0 of the quantizer: the running minimum and maximum of each group of 128 columns over all rows.  One grid point
  reads a block of 512 rows (512 × 4096, seen as 512 × 32 groups × 128 lanes), reduces it over the lanes and then over the
  rows to one value per group, and folds that into two accumulators kept in scratch (1 × 32 each): at the first point the
  accumulators are first set to +∞ and −∞.  After every point the accumulators are copied into the two output blocks, which
  are the same block at every point and are written back once, after the last point.
  So the scratch carries a value from point to point, and the region's invariant has to name it: `accAt0 n` is the pair of
  accumulators after point `n`, by recursion on `n`.  Everything is stated at a parameter `V`, the buffers' contents when
  the region is entered, and at any float instance.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import proofs.«128145_j1211180777498_1_alg».proof.Proof.K.Common
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's branch: taken exactly when the grid coordinate is 0. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The two scratch accumulators as memrefs. -/
abbrev scM0_0 : Memref sig .tc .vmem S1x32 .f32 := Memref.whole cc0_scratch0
abbrev scM0_1 : Memref sig .tc .vmem S1x32 .f32 := Memref.whole cc0_scratch1

/-- One point's update of the pair of accumulators by a block: the running minimum and the running maximum. -/
def step0 (x : Vec F S512x4096 .f32) (a : Vec F S1x32 .f32 × Vec F S1x32 .f32) : Vec F S1x32 .f32 × Vec F S1x32 .f32 :=
  (k0_pay4 x a.1, k0_pay5 x a.2)

/-- The accumulators after point `n`: from (+∞, −∞) at the first point, from the point before afterwards. -/
def accAt0 (c : Dev nD) : (n : ℕ) → n < cfg0.N → Vec F S1x32 .f32 × Vec F S1x32 .f32
  | 0, hn => step0 (iblk0 V c 0 ⟨0, hn⟩) (k0_pay1, k0_pay2)
  | n + 1, hn => step0 (iblk0 V c 0 ⟨n + 1, hn⟩) (accAt0 c n (Nat.lt_of_succ_lt hn))

theorem accAt0_zero (c : Dev nD) (hn : 0 < cfg0.N) :
    accAt0 V c 0 hn = step0 (iblk0 V c 0 ⟨0, hn⟩) (k0_pay1, k0_pay2) := rfl
theorem accAt0_succ (c : Dev nD) (n : ℕ) (hn : n + 1 < cfg0.N) :
    accAt0 V c (n + 1) hn = step0 (iblk0 V c 0 ⟨n + 1, hn⟩) (accAt0 V c n (Nat.lt_of_succ_lt hn)) := rfl

/-- The region's invariant before position `n`: before the first point the plain one (every scoped buffer no window
    stages at anything, the generator register at some state); afterwards the two scratch accumulators at what the point
    before left, beside what gives the plain invariant back once they are returned at any contents. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ (iprop((∃ d, owns (c : Thread nD τ) scM0_0 fullShare d) ∗ (∃ d, owns (c : Thread nD τ) scM0_1 fullShare d)) -∗ Pipeline.ΦA spec0 c))

/-- The proof data of pipeline 0 on core `c`: the arrays as the region finds them; after the body at point `t` the input's
    buffer at its block and the two outputs' at the accumulators after `t`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (accAt0 V c t.val t.isLt).1
    | ⟨2, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (accAt0 V c t.val t.isLt).1 := by dsimp only [dat0]
theorem after0_2 (c : Dev nD) (t : Fin cfg0.N) : (dat0 V c).after 2 t = (accAt0 V c t.val t.isLt).2 := by dsimp only [dat0]

/-! ## The invariant's two forms -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ (iprop((∃ d, owns (c : Thread nD τ) scM0_0 fullShare d) ∗ (∃ d, owns (c : Thread nD τ) scM0_1 fullShare d)) -∗ Pipeline.ΦA spec0 c)) := rfl

theorem PhiS0_pos (c : Dev nD) (n : ℕ) (h : n ≤ cfg0.N) (hz : n ≠ 0) :
    PhiS0 V c n h = iprop(owns (c : Thread nD τ) scM0_0 fullShare (accAt0 V c (n - 1) (by omega)).1 ∗ owns (c : Thread nD τ) scM0_1 fullShare (accAt0 V c (n - 1) (by omega)).2
      ∗ (iprop((∃ d, owns (c : Thread nD τ) scM0_0 fullShare d) ∗ (∃ d, owns (c : Thread nD τ) scM0_1 fullShare d)) -∗ Pipeline.ΦA spec0 c)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The scoped buffers that no window of this region stages, split at the region's own two scratch buffers: those two
    whole at some contents each, and all the others unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The plain invariant holds the two scratch buffers at some contents, beside what rebuilds it from them. -/
theorem phi_split0 (c : Dev nD) :
    (Pipeline.ΦA spec0 c : sProp 𝕄) ⊢ iprop((∃ d, owns (c : Thread nD τ) scM0_0 fullShare d) ∗ (∃ d, owns (c : Thread nD τ) scM0_1 fullShare d)
      ∗ (iprop((∃ d, owns (c : Thread nD τ) scM0_0 fullShare d) ∗ (∃ d, owns (c : Thread nD τ) scM0_1 fullShare d)) -∗ Pipeline.ΦA spec0 c)) := by
  unfold Pipeline.ΦA; rw [scopedRest0_split]; simp only [scM0_0, scM0_1, owns_whole]
  iintro ⟨⟨⟨HA, HB⟩, HT⟩, HG⟩
  isplitl [HA]; · iexact HA
  isplitl [HB]; · iexact HB
  iintro ⟨HA, HB⟩
  isplitr [HG]
  · isplitr [HT]
    · isplitl [HA]; · iexact HA
      iexact HB
    · iexact HT
  · iexact HG

/-! ## The body's two runs -/

abbrev r0_g : Rect S1x32 := Rect.unit (s := S1x32) ![0, 0] S1x32.size inb_S1x32_S1x32_0_0

/-- One store through the whole-buffer rectangle covers a 1 × 32 buffer; so does a list whose last store did. -/
theorem cover0_g1 (p0 : Vec F S1x32 .f32) (y : S1x32.Idx) :
    ∃ pc ∈ ([⟨r0_g, p0⟩] : List (View.Piece (Elt F) S1x32 .f32)), y ∈ pc.1.set :=
  ⟨⟨r0_g, p0⟩, List.mem_singleton_self _, mem_unit_zero hz_g inb_S1x32_S1x32_0_0 y⟩
theorem cover0_g2 (p0 p1 : Vec F S1x32 .f32) (y : S1x32.Idx) :
    ∃ pc ∈ ([⟨r0_g, p0⟩, ⟨r0_g, p1⟩] : List (View.Piece (Elt F) S1x32 .f32)), y ∈ pc.1.set :=
  ⟨⟨r0_g, p0⟩, List.mem_cons_self, mem_unit_zero hz_g inb_S1x32_S1x32_0_0 y⟩

set_option maxHeartbeats 2000000 in
/-- The body at a point that is not the first: the accumulators at `a4`, `a5` and the input block at `x0` run to the
    accumulators, and both output buffers, at the updated pair. -/
theorem sound_kernel0_later (c : Dev nD) (E : Set ℕ) (i : grid0.Coords) (hc : ¬cond0 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (a4 a5 : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare a4 ∗ owns (c : Thread nD τ) arg5 fullShare a5
        ∗ (iprop(owns (c : Thread nD τ) arg1 fullShare x0 ∗ owns (c : Thread nD τ) arg2 fullShare (k0_pay4 x0 a4) ∗ owns (c : Thread nD τ) arg3 fullShare (k0_pay5 x0 a5)
            ∗ owns (c : Thread nD τ) arg4 fullShare (k0_pay4 x0 a4) ∗ owns (c : Thread nD τ) arg5 fullShare (k0_pay5 x0 a5)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover0_g1 _), View.canon_unit_zero hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover0_g1 _), View.canon_unit_zero hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover0_g1 _), View.canon_unit_zero hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover0_g1 _), View.canon_unit_zero hz_g]
  simp only [View.readAt_eq_ld, View.ld_unit_zero (S := S512x4096) hz_x, View.ld_unit_zero (S := S1x32) hz_g]

set_option maxHeartbeats 2000000 in
/-- The body at the first point: the accumulators, at anything, are first set to +∞ and −∞, then updated by the block. -/
theorem sound_kernel0_first (c : Dev nD) (E : Set ℕ) (i : grid0.Coords) (hc : cond0 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k0_pay4 x0 k0_pay1) ∗ owns (c : Thread nD τ) arg3 fullShare (k0_pay5 x0 k0_pay2)
            ∗ owns (c : Thread nD τ) arg4 fullShare (k0_pay4 x0 k0_pay1) ∗ owns (c : Thread nD τ) arg5 fullShare (k0_pay5 x0 k0_pay2)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%d2, %f2, -, H2⟩, ⟨%d3, %f3, -, H3⟩, ⟨%d4, %f4, -, H4⟩, ⟨%d5, %f5, -, H5⟩, Hk⟩
  subst hf0
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover0_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover0_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover0_g2 _ _), View.canon_cons_unit_zero hz_g, readCov_cons_unit_zero _ hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover0_g2 _ _), View.canon_cons_unit_zero hz_g, readCov_cons_unit_zero _ hz_g]
  simp only [View.readAt_eq_ld, View.ld_unit_zero (S := S512x4096) hz_x, View.ld_unit_zero (S := S1x32) hz_g]

/-! ## The body obligation -/

/-- The input window's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The accumulators after the first point, and after a later one over the point before. -/
theorem accAt0_first (c : Dev nD) (t : Fin cfg0.N) (hz : t.val = 0) :
    accAt0 V c t.val t.isLt = (k0_pay4 (iblk0 V c 0 t) k0_pay1, k0_pay5 (iblk0 V c 0 t) k0_pay2) := by
  obtain ⟨n, hn⟩ := t
  cases n with
  | zero => rfl
  | succ n => exact absurd hz (Nat.succ_ne_zero n)
theorem accAt0_later (c : Dev nD) (t : Fin cfg0.N) (hz : t.val ≠ 0) :
    accAt0 V c t.val t.isLt = (k0_pay4 (iblk0 V c 0 t) (accAt0 V c (t.val - 1) (Nat.lt_of_le_of_lt (Nat.sub_le _ _) t.isLt)).1,
      k0_pay5 (iblk0 V c 0 t) (accAt0 V c (t.val - 1) (Nat.lt_of_le_of_lt (Nat.sub_le _ _) t.isLt)).2) := by
  obtain ⟨n, hn⟩ := t
  cases n with
  | zero => exact absurd rfl hz
  | succ n => rfl

set_option maxHeartbeats 1600000 in
/-- The body at any point. At the first point the invariant is the plain one: it yields the two scratch buffers at
    anything, and the run sets and updates them. At a later point the invariant holds them at what the point before left.
    Either way they come back at this point's accumulators, beside what rebuilds the plain invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS0 V c (t.val + 1) t.isLt from rfl, PhiS0_succ, after0_0, after0_1, after0_2, PhiS0_castSucc]
  by_cases hz : t.val = 0
  · have hc : cond0 (grid0.coords t) := (hcond0 t).mpr hz
    rw [PhiS0_zero V c _ _ hz, accAt0_first V c t hz]
    iintro ⟨HΦ, Ho, ⟨%d0, H0⟩, ⟨%d1, H1⟩, ⟨%d2, H2⟩⟩
    ihave HS := (phi_split0 c) $$ HΦ
    icases HS with ⟨HA, HB, Hw⟩
    iapply (sound_kernel0_first c Set.univ _ hc _ _ _ _ _ _ _ _ _ _ (iblk0 V c 0 t) _)
    isplitl [H0]; · iexact H0
    isplitl [H1]; · iexists _; iexact H1
    isplitl [H2]; · iexists _; iexact H2
    isplitl [HA]; · iexact HA
    isplitl [HB]; · iexact HB
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2
  · have hc : ¬cond0 (grid0.coords t) := fun h => hz ((hcond0 t).mp h)
    rw [PhiS0_pos V c _ _ hz, accAt0_later V c t hz]
    iintro ⟨⟨H4, H5, Hw⟩, Ho, ⟨%d0, H0⟩, ⟨%d1, H1⟩, ⟨%d2, H2⟩⟩
    iapply (sound_kernel0_later c Set.univ _ hc _ _ _ _ _ _ _ _ _ _ (iblk0 V c 0 t) _ _ _)
    isplitl [H0]; · iexact H0
    isplitl [H1]; · iexists _; iexact H1
    isplitl [H2]; · iexists _; iexact H2
    isplitl [H4]; · iexact H4
    isplitl [H5]; · iexact H5
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the plain one back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have hN : cfg0.N = 32 := N_0; omega)]
  iintro ⟨H4, H5, Hw⟩
  iapply Hw
  isplitl [H4]; · iexists _; iexact H4
  iexists _; iexact H5

end Cert.Kernel.Gen

end
-- ==== Proof.K.R1.lean ====
/-
  Region 1 of the quantizer: one grid point reads a block of 256 rows of the reshaped input (256 × 4096, seen as
  256 × 32 groups × 128 lanes), the per-group scale `s` and zero point `z` (1 × 32 each, the same block at every point),
  and stores  (min(255, max(0, roundeven(x / s + z))) − z) · s  over the whole output block.  The body is one load per
  operand and one covering store, so what the output's staging buffer holds after the body is a function of the three
  input blocks alone, and the region's invariant is the plain one (nothing is carried from point to point).
  Everything is stated at a parameter `V`, the buffers' contents when the region is entered, and at any float instance.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S256x4096 := Rect.unit (s := S256x4096) ![0, 0] S256x4096.size inb_S256x4096_S256x4096_0_0
abbrev r1_g : Rect S1x32 := Rect.unit (s := S1x32) ![0, 0] S1x32.size inb_S1x32_S1x32_0_0

/-- The output block after the body: the body's one store, over the three input blocks. -/
def out1_3 (x0 : Vec F S256x4096 .f32) (x1 : Vec F S1x32 .f32) (x2 : Vec F S1x32 .f32) : Vec F S256x4096 .f32 :=
  View.canon [⟨r1_x, k1_pay1 (View.ld x0 r1_x) (View.ld x1 r1_g) (View.ld x2 r1_g)⟩]

/-- The one store covers the output block. -/
theorem cover1_3 (p0 : Vec F S256x4096 .f32) (y : S256x4096.Idx) :
    ∃ pc ∈ ([⟨r1_x, p0⟩] : List (View.Piece (Elt F) S256x4096 .f32)), y ∈ pc.1.set :=
  View.cover_of_tiled [⟨r1_x, p0⟩] S256x4096.size (by rfl) y

set_option maxHeartbeats 1000000 in
/-- The body on whole staging memrefs: the three inputs at known contents and the output at anything run to the
    inputs unchanged and the output at `out1_3` of them. -/
theorem sound_kernel1 (c : Dev nD) (E : Set ℕ) (i : grid1.Coords)
    (arg1 : Memref sig .tc .vmem S256x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S256x4096 .f32) (harg4 : arg4.IsWhole)
    (x0 : Vec F S256x4096 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer
    at its block and the output's at `out1_3` of the three blocks; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input window's current staging buffer holds its block at every point: fetched there, or not fetched because
    the block index has not moved since the fetch (the scale and the zero point are fetched once, at the first point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.R2.lean ====
/-
  Region 2 of the quantizer: the running minimum and maximum of each group of 128 columns over all rows.  One grid point
  reads a block of 512 rows (512 × 4096, seen as 512 × 32 groups × 128 lanes), reduces it over the lanes and then over the
  rows to one value per group, and folds that into two accumulators kept in scratch (1 × 32 each): at the first point the
  accumulators are first set to +∞ and −∞.  After every point the accumulators are copied into the two output blocks, which
  are the same block at every point and are written back once, after the last point.
  So the scratch carries a value from point to point, and the region's invariant has to name it: `accAt2 n` is the pair of
  accumulators after point `n`, by recursion on `n`.  Everything is stated at a parameter `V`, the buffers' contents when
  the region is entered, and at any float instance.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import proofs.«128145_j1211180777498_1_alg».proof.Proof.K.Common
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's branch: taken exactly when the grid coordinate is 0. -/
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- The two scratch accumulators as memrefs. -/
abbrev scM2_0 : Memref sig .tc .vmem S1x32 .f32 := Memref.whole cc2_scratch0
abbrev scM2_1 : Memref sig .tc .vmem S1x32 .f32 := Memref.whole cc2_scratch1

/-- One point's update of the pair of accumulators by a block: the running minimum and the running maximum. -/
def step2 (x : Vec F S512x4096 .f32) (a : Vec F S1x32 .f32 × Vec F S1x32 .f32) : Vec F S1x32 .f32 × Vec F S1x32 .f32 :=
  (k2_pay4 x a.1, k2_pay5 x a.2)

/-- The accumulators after point `n`: from (+∞, −∞) at the first point, from the point before afterwards. -/
def accAt2 (c : Dev nD) : (n : ℕ) → n < cfg2.N → Vec F S1x32 .f32 × Vec F S1x32 .f32
  | 0, hn => step2 (iblk2 V c 0 ⟨0, hn⟩) (k2_pay1, k2_pay2)
  | n + 1, hn => step2 (iblk2 V c 0 ⟨n + 1, hn⟩) (accAt2 c n (Nat.lt_of_succ_lt hn))

theorem accAt2_zero (c : Dev nD) (hn : 0 < cfg2.N) :
    accAt2 V c 0 hn = step2 (iblk2 V c 0 ⟨0, hn⟩) (k2_pay1, k2_pay2) := rfl
theorem accAt2_succ (c : Dev nD) (n : ℕ) (hn : n + 1 < cfg2.N) :
    accAt2 V c (n + 1) hn = step2 (iblk2 V c 0 ⟨n + 1, hn⟩) (accAt2 V c n (Nat.lt_of_succ_lt hn)) := rfl

/-- The region's invariant before position `n`: before the first point the plain one (every scoped buffer no window
    stages at anything, the generator register at some state); afterwards the two scratch accumulators at what the point
    before left, beside what gives the plain invariant back once they are returned at any contents. -/
def PhiS2 (c : Dev nD) : (n : ℕ) → n ≤ cfg2.N → sProp 𝕄
  | 0, _ => Pipeline.ΦA spec2 c
  | n + 1, hn => iprop(owns (c : Thread nD τ) scM2_0 fullShare (accAt2 V c n hn).1 ∗ owns (c : Thread nD τ) scM2_1 fullShare (accAt2 V c n hn).2
      ∗ (iprop((∃ d, owns (c : Thread nD τ) scM2_0 fullShare d) ∗ (∃ d, owns (c : Thread nD τ) scM2_1 fullShare d)) -∗ Pipeline.ΦA spec2 c))

/-- The proof data of pipeline 2 on core `c`: the arrays as the region finds them; after the body at point `t` the input's
    buffer at its block and the two outputs' at the accumulators after `t`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (accAt2 V c t.val t.isLt).1
    | ⟨2, _⟩ => (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = (accAt2 V c t.val t.isLt).1 := by dsimp only [dat2]
theorem after2_2 (c : Dev nD) (t : Fin cfg2.N) : (dat2 V c).after 2 t = (accAt2 V c t.val t.isLt).2 := by dsimp only [dat2]

/-! ## The invariant's two forms -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (accAt2 V c n hn).1 ∗ owns (c : Thread nD τ) scM2_1 fullShare (accAt2 V c n hn).2
      ∗ (iprop((∃ d, owns (c : Thread nD τ) scM2_0 fullShare d) ∗ (∃ d, owns (c : Thread nD τ) scM2_1 fullShare d)) -∗ Pipeline.ΦA spec2 c)) := rfl

theorem PhiS2_pos (c : Dev nD) (n : ℕ) (h : n ≤ cfg2.N) (hz : n ≠ 0) :
    PhiS2 V c n h = iprop(owns (c : Thread nD τ) scM2_0 fullShare (accAt2 V c (n - 1) (by omega)).1 ∗ owns (c : Thread nD τ) scM2_1 fullShare (accAt2 V c (n - 1) (by omega)).2
      ∗ (iprop((∃ d, owns (c : Thread nD τ) scM2_0 fullShare d) ∗ (∃ d, owns (c : Thread nD τ) scM2_1 fullShare d)) -∗ Pipeline.ΦA spec2 c)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The scoped buffers that no window of this region stages, split at the region's own two scratch buffers: those two
    whole at some contents each, and all the others unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The plain invariant holds the two scratch buffers at some contents, beside what rebuilds it from them. -/
theorem phi_split2 (c : Dev nD) :
    (Pipeline.ΦA spec2 c : sProp 𝕄) ⊢ iprop((∃ d, owns (c : Thread nD τ) scM2_0 fullShare d) ∗ (∃ d, owns (c : Thread nD τ) scM2_1 fullShare d)
      ∗ (iprop((∃ d, owns (c : Thread nD τ) scM2_0 fullShare d) ∗ (∃ d, owns (c : Thread nD τ) scM2_1 fullShare d)) -∗ Pipeline.ΦA spec2 c)) := by
  unfold Pipeline.ΦA; rw [scopedRest2_split]; simp only [scM2_0, scM2_1, owns_whole]
  iintro ⟨⟨⟨HA, HB⟩, HT⟩, HG⟩
  isplitl [HA]; · iexact HA
  isplitl [HB]; · iexact HB
  iintro ⟨HA, HB⟩
  isplitr [HG]
  · isplitr [HT]
    · isplitl [HA]; · iexact HA
      iexact HB
    · iexact HT
  · iexact HG

/-! ## The body's two runs -/

abbrev r2_g : Rect S1x32 := Rect.unit (s := S1x32) ![0, 0] S1x32.size inb_S1x32_S1x32_0_0

/-- One store through the whole-buffer rectangle covers a 1 × 32 buffer; so does a list whose last store did. -/
theorem cover2_g1 (p0 : Vec F S1x32 .f32) (y : S1x32.Idx) :
    ∃ pc ∈ ([⟨r2_g, p0⟩] : List (View.Piece (Elt F) S1x32 .f32)), y ∈ pc.1.set :=
  ⟨⟨r2_g, p0⟩, List.mem_singleton_self _, mem_unit_zero hz_g inb_S1x32_S1x32_0_0 y⟩
theorem cover2_g2 (p0 p1 : Vec F S1x32 .f32) (y : S1x32.Idx) :
    ∃ pc ∈ ([⟨r2_g, p0⟩, ⟨r2_g, p1⟩] : List (View.Piece (Elt F) S1x32 .f32)), y ∈ pc.1.set :=
  ⟨⟨r2_g, p0⟩, List.mem_cons_self, mem_unit_zero hz_g inb_S1x32_S1x32_0_0 y⟩

set_option maxHeartbeats 2000000 in
/-- The body at a point that is not the first: the accumulators at `a4`, `a5` and the input block at `x0` run to the
    accumulators, and both output buffers, at the updated pair. -/
theorem sound_kernel2_later (c : Dev nD) (E : Set ℕ) (i : grid2.Coords) (hc : ¬cond2 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (a4 a5 : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare a4 ∗ owns (c : Thread nD τ) arg5 fullShare a5
        ∗ (iprop(owns (c : Thread nD τ) arg1 fullShare x0 ∗ owns (c : Thread nD τ) arg2 fullShare (k2_pay4 x0 a4) ∗ owns (c : Thread nD τ) arg3 fullShare (k2_pay5 x0 a5)
            ∗ owns (c : Thread nD τ) arg4 fullShare (k2_pay4 x0 a4) ∗ owns (c : Thread nD τ) arg5 fullShare (k2_pay5 x0 a5)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover2_g1 _), View.canon_unit_zero hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover2_g1 _), View.canon_unit_zero hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover2_g1 _), View.canon_unit_zero hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover2_g1 _), View.canon_unit_zero hz_g]
  simp only [View.readAt_eq_ld, View.ld_unit_zero (S := S512x4096) hz_x, View.ld_unit_zero (S := S1x32) hz_g]

set_option maxHeartbeats 2000000 in
/-- The body at the first point: the accumulators, at anything, are first set to +∞ and −∞, then updated by the block. -/
theorem sound_kernel2_first (c : Dev nD) (E : Set ℕ) (i : grid2.Coords) (hc : cond2 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k2_pay4 x0 k2_pay1) ∗ owns (c : Thread nD τ) arg3 fullShare (k2_pay5 x0 k2_pay2)
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%d2, %f2, -, H2⟩, ⟨%d3, %f3, -, H3⟩, ⟨%d4, %f4, -, H4⟩, ⟨%d5, %f5, -, H5⟩, Hk⟩
  subst hf0
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover2_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover2_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover2_g2 _ _), View.canon_cons_unit_zero hz_g, readCov_cons_unit_zero _ hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover2_g2 _ _), View.canon_cons_unit_zero hz_g, readCov_cons_unit_zero _ hz_g]
  simp only [View.readAt_eq_ld, View.ld_unit_zero (S := S512x4096) hz_x, View.ld_unit_zero (S := S1x32) hz_g]

/-! ## The body obligation -/

/-- The input window's current staging buffer holds its block at every point (it is fetched at every point). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The accumulators after the first point, and after a later one over the point before. -/
theorem accAt2_first (c : Dev nD) (t : Fin cfg2.N) (hz : t.val = 0) :
    accAt2 V c t.val t.isLt = (k2_pay4 (iblk2 V c 0 t) k2_pay1, k2_pay5 (iblk2 V c 0 t) k2_pay2) := by
  obtain ⟨n, hn⟩ := t
  cases n with
  | zero => rfl
  | succ n => exact absurd hz (Nat.succ_ne_zero n)
theorem accAt2_later (c : Dev nD) (t : Fin cfg2.N) (hz : t.val ≠ 0) :
    accAt2 V c t.val t.isLt = (k2_pay4 (iblk2 V c 0 t) (accAt2 V c (t.val - 1) (Nat.lt_of_le_of_lt (Nat.sub_le _ _) t.isLt)).1,
      k2_pay5 (iblk2 V c 0 t) (accAt2 V c (t.val - 1) (Nat.lt_of_le_of_lt (Nat.sub_le _ _) t.isLt)).2) := by
  obtain ⟨n, hn⟩ := t
  cases n with
  | zero => exact absurd rfl hz
  | succ n => rfl

set_option maxHeartbeats 1600000 in
/-- The body at any point. At the first point the invariant is the plain one: it yields the two scratch buffers at
    anything, and the run sets and updates them. At a later point the invariant holds them at what the point before left.
    Either way they come back at this point's accumulators, beside what rebuilds the plain invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl,
    show (dat2 V c).Φ t.succ = PhiS2 V c (t.val + 1) t.isLt from rfl, PhiS2_succ, after2_0, after2_1, after2_2, PhiS2_castSucc]
  by_cases hz : t.val = 0
  · have hc : cond2 (grid2.coords t) := (hcond2 t).mpr hz
    rw [PhiS2_zero V c _ _ hz, accAt2_first V c t hz]
    iintro ⟨HΦ, Ho, ⟨%d0, H0⟩, ⟨%d1, H1⟩, ⟨%d2, H2⟩⟩
    ihave HS := (phi_split2 c) $$ HΦ
    icases HS with ⟨HA, HB, Hw⟩
    iapply (sound_kernel2_first c Set.univ _ hc _ _ _ _ _ _ _ _ _ _ (iblk2 V c 0 t) _)
    isplitl [H0]; · iexact H0
    isplitl [H1]; · iexists _; iexact H1
    isplitl [H2]; · iexists _; iexact H2
    isplitl [HA]; · iexact HA
    isplitl [HB]; · iexact HB
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2
  · have hc : ¬cond2 (grid2.coords t) := fun h => hz ((hcond2 t).mp h)
    rw [PhiS2_pos V c _ _ hz, accAt2_later V c t hz]
    iintro ⟨⟨H4, H5, Hw⟩, Ho, ⟨%d0, H0⟩, ⟨%d1, H1⟩, ⟨%d2, H2⟩⟩
    iapply (sound_kernel2_later c Set.univ _ hc _ _ _ _ _ _ _ _ _ _ (iblk2 V c 0 t) _ _ _)
    isplitl [H0]; · iexact H0
    isplitl [H1]; · iexists _; iexact H1
    isplitl [H2]; · iexists _; iexact H2
    isplitl [H4]; · iexact H4
    isplitl [H5]; · iexact H5
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the plain one back: the accumulators' named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have hN : cfg2.N = 32 := N_2; omega)]
  iintro ⟨H4, H5, Hw⟩
  iapply Hw
  isplitl [H4]; · iexists _; iexact H4
  iexists _; iexact H5

end Cert.Kernel.Gen

end
-- ==== Proof.K.R3.lean ====
/-
  Region 3 of the quantizer: one grid point reads a block of 256 rows of the reshaped input (256 × 4096, seen as
  256 × 32 groups × 128 lanes), the per-group scale `s` and zero point `z` (1 × 32 each, the same block at every point),
  and stores  (min(255, max(0, roundeven(x / s + z))) − z) · s  over the whole output block.  The body is one load per
  operand and one covering store, so what the output's staging buffer holds after the body is a function of the three
  input blocks alone, and the region's invariant is the plain one (nothing is carried from point to point).
  Everything is stated at a parameter `V`, the buffers' contents when the region is entered, and at any float instance.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S256x4096 := Rect.unit (s := S256x4096) ![0, 0] S256x4096.size inb_S256x4096_S256x4096_0_0
abbrev r3_g : Rect S1x32 := Rect.unit (s := S1x32) ![0, 0] S1x32.size inb_S1x32_S1x32_0_0

/-- The output block after the body: the body's one store, over the three input blocks. -/
def out3_3 (x0 : Vec F S256x4096 .f32) (x1 : Vec F S1x32 .f32) (x2 : Vec F S1x32 .f32) : Vec F S256x4096 .f32 :=
  View.canon [⟨r3_x, k3_pay1 (View.ld x0 r3_x) (View.ld x1 r3_g) (View.ld x2 r3_g)⟩]

/-- The one store covers the output block. -/
theorem cover3_3 (p0 : Vec F S256x4096 .f32) (y : S256x4096.Idx) :
    ∃ pc ∈ ([⟨r3_x, p0⟩] : List (View.Piece (Elt F) S256x4096 .f32)), y ∈ pc.1.set :=
  View.cover_of_tiled [⟨r3_x, p0⟩] S256x4096.size (by rfl) y

set_option maxHeartbeats 1000000 in
/-- The body on whole staging memrefs: the three inputs at known contents and the output at anything run to the
    inputs unchanged and the output at `out3_3` of them. -/
theorem sound_kernel3 (c : Dev nD) (E : Set ℕ) (i : grid3.Coords)
    (arg1 : Memref sig .tc .vmem S256x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S256x4096 .f32) (harg4 : arg4.IsWhole)
    (x0 : Vec F S256x4096 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body each input's buffer
    at its block and the output's at `out3_3` of the three blocks; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- An input window's current staging buffer holds its block at every point: fetched there, or not fetched because
    the block index has not moved since the fetch (the scale and the zero point are fetched once, at the first point). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Run.lean ====
/-
  The run of the quantizer's @main, item by item.  @main is 17 items: four kernel regions among thirteen stretches of
  host operations.  The buffers' contents at each boundary between two items are written as a fold from the launch
  memory: a host stretch leaves its valuation's image under the stretch's semantics, a kernel region leaves its windows'
  arrays at what the pipeline's write-backs make of them and every other buffer as it was.  Each region is then a
  segment from "every unscoped buffer at the boundary's contents" to the same at the next boundary, and the whole run
  ends with every unscoped buffer at the last valuation of the fold.  Neither argument array is written by any item, so
  both end holding their launch contents.
-/
import proofs.«128145_j1211180777498_1_alg».proof.Proof.Gen.Kernel.Launch
import proofs.«128145_j1211180777498_1_alg».proof.Proof.Gen.Kernel.Skeleton
import proofs.«128145_j1211180777498_1_alg».proof.Proof.Gen.Kernel.Points
import proofs.«128145_j1211180777498_1_alg».proof.Proof.Gen.Kernel.Regions
import proofs.«128145_j1211180777498_1_alg».proof.Proof.K.R0
import proofs.«128145_j1211180777498_1_alg».proof.Proof.K.R1
import proofs.«128145_j1211180777498_1_alg».proof.Proof.K.R2
import proofs.«128145_j1211180777498_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => m (c, b)
/-- After the first host stretch: region 0 is entered from here. -/
abbrev W1 : Dev nD → Valuation τ sig (Elt F) := fun c => StableHlo.after hostOps0 (W0 m c)
/-- The same, read at the TensorCore's references: region 0's entry contents. -/
abbrev V1 : (c : Dev nD) → (b : Ref sig .tc) → Buf (Elt F) ((c : Thread nD τ).loc b) := fun c b => W1 m c b
/-- At region 0's exit: its windows' arrays at what the pipeline leaves (the input as entered, each accumulator's
    array at its write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m c b
/-- At region 0's exit each of its arrays holds what the pipeline leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the five host stretches between regions 0 and 1, one by one. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
/-- Region 1's entry contents at the TensorCore's references. -/
abbrev V7 : (c : Dev nD) → (b : Ref sig .tc) → Buf (Elt F) ((c : Thread nD τ).loc b) := fun c b => W7 m c b
/-- At region 1's exit: the quantized array at its write-backs folded, every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- Region 1's exit contents at the TensorCore's references. -/
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

/-- After the host stretch between regions 1 and 2: region 2 is entered from here. -/
abbrev W9 : Dev nD → Valuation τ sig (Elt F) := fun c => StableHlo.after hostOps2 (W8 m c)
/-- Region 2's entry contents at the TensorCore's references. -/
abbrev V9 : (c : Dev nD) → (b : Ref sig .tc) → Buf (Elt F) ((c : Thread nD τ).loc b) := fun c b => W9 m c b
/-- At region 2's exit: its two accumulators' arrays at their write-backs folded, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- Region 2's exit contents at the TensorCore's references. -/
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the five host stretches between regions 2 and 3, one by one. -/
abbrev W11 : Dev nD → Valuation τ sig (Elt F) := fun c => StableHlo.after hostOps3 (W10 m c)
abbrev W12 : Dev nD → Valuation τ sig (Elt F) := fun c => StableHlo.after hostOps3_1 (W11 m c)
abbrev W13 : Dev nD → Valuation τ sig (Elt F) := fun c => StableHlo.after hostOps3_2 (W12 m c)
abbrev W14 : Dev nD → Valuation τ sig (Elt F) := fun c => StableHlo.after hostOps3_3 (W13 m c)
abbrev W15 : Dev nD → Valuation τ sig (Elt F) := fun c => StableHlo.after hostOps3_4 (W14 m c)
/-- Region 3's entry contents at the TensorCore's references. -/
abbrev V15 : (c : Dev nD) → (b : Ref sig .tc) → Buf (Elt F) ((c : Thread nD τ).loc b) := fun c b => W15 m c b
/-- At region 3's exit: the second quantized array at its write-backs folded, every other buffer as entered. -/
def W16 (c : Dev nD) : Valuation τ sig (Elt F) :=
  Pipeline.withArrays spec3 c (W15 m c) fun w => (dat3 (V15 m) c).arrAt w cfg3.N
theorem W16_arr (c : Dev nD) (w : Fin cfg3.W) :
    W16 m c (Proc.devRef .tc (Pipeline.arrRef spec3 w)) = (dat3 (V15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
/-- Region 3's exit contents at the TensorCore's references. -/
abbrev V16 : (c : Dev nD) → (b : Ref sig .tc) → Buf (Elt F) ((c : Thread nD τ).loc b) := fun c b => W16 m c b
theorem hF3 (c : Dev nD) (w : Fin cfg3.W) : (dat3 (V15 m) c).arrAt w cfg3.N = V16 m c (Pipeline.arrRef spec3 w) :=
  (W16_arr m c w).symm
theorem hrest3 (c : Dev nD) : ∀ b, b ∉ Finset.univ.image (Pipeline.arrRef spec3) → V16 m c b = V15 m c b :=
  fun b hb => W16_of_ne m c b fun w e => hb (Finset.mem_image.mpr ⟨w, Finset.mem_univ _, e⟩)

/-- After the last host stretch: what @main returns from. -/
abbrev W17 : Dev nD → Valuation τ sig (Elt F) := fun c => StableHlo.after hostOps4 (W16 m c)

/-! ## The arguments end as launched

No host stretch writes an argument (each stretch's written references are listed, and neither argument is among
them), and no region has an argument among its windows' arrays, so the fold at an argument's buffer walks back to the
launch memory. -/

/-- A reference that no item writes holds at the end what it held at launch. -/
theorem W17_of_untouched (c : Dev nD) (r : Ref sig .tc)
    (h0 : r ∉ hostOps0_W) (hr0 : ∀ w, Pipeline.arrRef spec0 w ≠ r)
    (h1 : r ∉ hostOps1_W) (h1_1 : r ∉ hostOps1_1_W) (h1_2 : r ∉ hostOps1_2_W) (h1_3 : r ∉ hostOps1_3_W) (h1_4 : r ∉ hostOps1_4_W)
    (hr1 : ∀ w, Pipeline.arrRef spec1 w ≠ r)
    (h2 : r ∉ hostOps2_W) (hr2 : ∀ w, Pipeline.arrRef spec2 w ≠ r)
    (h3 : r ∉ hostOps3_W) (h3_1 : r ∉ hostOps3_1_W) (h3_2 : r ∉ hostOps3_2_W) (h3_3 : r ∉ hostOps3_3_W) (h3_4 : r ∉ hostOps3_4_W)
    (hr3 : ∀ w, Pipeline.arrRef spec3 w ≠ r)
    (h4 : r ∉ hostOps4_W) :
    W17 m c (Proc.devRef .tc r) = m ((c : Thread nD τ).loc r) :=
  calc W17 m c (Proc.devRef .tc r)
    _ = W16 m c (Proc.devRef .tc r) := StableHlo.after_of_writes_sub hostOps4 _ hostOps4_writes h4
    _ = W15 m c (Proc.devRef .tc r) := W16_of_ne m c r hr3
    _ = W14 m c (Proc.devRef .tc r) := StableHlo.after_of_writes_sub hostOps3_4 _ hostOps3_4_writes h3_4
    _ = W13 m c (Proc.devRef .tc r) := StableHlo.after_of_writes_sub hostOps3_3 _ hostOps3_3_writes h3_3
    _ = W12 m c (Proc.devRef .tc r) := StableHlo.after_of_writes_sub hostOps3_2 _ hostOps3_2_writes h3_2
    _ = W11 m c (Proc.devRef .tc r) := StableHlo.after_of_writes_sub hostOps3_1 _ hostOps3_1_writes h3_1
    _ = W10 m c (Proc.devRef .tc r) := StableHlo.after_of_writes_sub hostOps3 _ hostOps3_writes h3
    _ = W9 m c (Proc.devRef .tc r) := W10_of_ne m c r hr2
    _ = W8 m c (Proc.devRef .tc r) := StableHlo.after_of_writes_sub hostOps2 _ hostOps2_writes h2
    _ = W7 m c (Proc.devRef .tc r) := W8_of_ne m c r hr1
    _ = W6 m c (Proc.devRef .tc r) := StableHlo.after_of_writes_sub hostOps1_4 _ hostOps1_4_writes h1_4
    _ = W5 m c (Proc.devRef .tc r) := StableHlo.after_of_writes_sub hostOps1_3 _ hostOps1_3_writes h1_3
    _ = W4 m c (Proc.devRef .tc r) := StableHlo.after_of_writes_sub hostOps1_2 _ hostOps1_2_writes h1_2
    _ = W3 m c (Proc.devRef .tc r) := StableHlo.after_of_writes_sub hostOps1_1 _ hostOps1_1_writes h1_1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W17_main_arg0 (c : Dev nD) : W17 m c (Proc.devRef .tc main_arg0) = m ((c : Thread nD τ).loc main_arg0) :=
  W17_of_untouched m c main_arg0 (by decide) (by decide) (by decide) (by decide) (by decide) (by decide) (by decide) (by decide)
    (by decide) (by decide) (by decide) (by decide) (by decide) (by decide) (by decide) (by decide) (by decide)
theorem W17_main_arg1 (c : Dev nD) : W17 m c (Proc.devRef .tc main_arg1) = m ((c : Thread nD τ).loc main_arg1) :=
  W17_of_untouched m c main_arg1 (by decide) (by decide) (by decide) (by decide) (by decide) (by decide) (by decide) (by decide)
    (by decide) (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
  | ⟨2, _⟩ => fun c => dat2 (V9 m) c
  | ⟨3, _⟩ => fun c => dat3 (V15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it
    ends at those references at the stretch's image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W17 m c) ∗ ∃ r, prngReg c r)

/-! ## The regions as segments

Each region is entered from every unscoped buffer at its entry boundary's contents and left with them at its exit
boundary's.  Its windows' arrays are split out of the unscoped buffers and put back at the exit contents; the
generator register goes into the region's invariant and comes back; nothing is owed; the kernel has no semaphore of
its own.  In regions 0 and 2 the invariant before the first point and after the last is reached from, and gives
back, the plain one through the region's two end lemmas. -/

set_option backward.isDefEq.respectTransparency.types false in
/-- REGION 0: from every unscoped buffer at `W1` to the same at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: from every unscoped buffer at `W7` to the same at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: from every unscoped buffer at `W9` to the same at `W10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V9 m) c).Φ 0 from rfl]
    refine BIBase.Entails.trans ?_ (hin2 (V9 m) c)
    unfold Pipeline.ΦA
    iintro ⟨Hp, -, Hr⟩
    isplitl [Hr]; · iexact Hr
    iexact Hp
  hout c := by
    rw [Pipeline.ownSems0_none, show (pdats m 2 c).Φ (Fin.last _) = (dat2 (V9 m) c).Φ (Fin.last cfg2.N) from rfl]
    refine BIBase.Entails.trans (hout2 (V9 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: from every unscoped buffer at `W15` to the same at `W16`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (V15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V15 m c) (V16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 17 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .host (hseg hostOps3_3 hostOps3_3_sub hostOps3_3_fresh (W13 m)),
    .host (hseg hostOps3_4 hostOps3_4_sub hostOps3_4_fresh (W14 m)),
    .region (reg3 m),
    .host (hseg hostOps4 hostOps4_sub hostOps4_fresh (W16 m)) ]

/-- @main is the run of the segments: it is the chain of its items, and so is the segments' run, fragment for
    fragment. -/
theorem main_run (c : Dev nD) : main (F := F) c = Pipeline.Seg.run (segs m) := by
  rw [main_chain c, Pipeline.Seg.run_eq_chain]
  rfl

/-- The last host stretch ends at the last thread state beside the core owing nothing: a regrouping. -/
theorem hlast (c : Dev nD) : (iprop(StableHlo.held (c : Thread nD τ) (Pipeline.ucRefs τ sig) (W17 m c) ∗ R c) : sProp 𝕄)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN.  At the compiled mesh, from any memory with zero counters, every weakly fair execution of @main on the
    TensorCores terminates, nothing faulting, and in every final state each core's unscoped buffers hold the last
    valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun _ h => h)

/-- THE FRAME: every final state has both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W17_main_arg0 m c),
     (h c _ (mem_uc main_arg1 (by decide))).trans (W17_main_arg1 m c)⟩) (run_all m ρ)

end Cert.Kernel.Run

end
-- ==== Proof.KI.Common.lean ====
/-
  Facts about whole-buffer rectangles that the regions' body runs share: a rectangle that starts at the origin and has
  the buffer's extents holds every index, and a load through it after stores of which the last went through it reads
  that store's payload.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_x : (![0, 0] : Fin S512x4096.rank → Nat) = fun _ => 0 :=
  funext fun a => by match a with | ⟨0, _⟩ => rfl | ⟨1, _⟩ => rfl
theorem hz_g : (![0, 0] : Fin S1x32.rank → Nat) = fun _ => 0 :=
  funext fun a => by match a with | ⟨0, _⟩ => rfl | ⟨1, _⟩ => rfl

/-- Every index lies in a rectangle that starts at the origin and has the buffer's extents. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A load through the whole-buffer rectangle, after stores of which the LAST went through that rectangle, reads that
    store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.KernelIdeal.Gen

end
-- ==== Proof.KI.R0.lean ====
/-
  Region 0 of the quantizer: the running minimum and maximum of each group of 128 columns over all rows.  One grid point
  reads a block of 512 rows (512 × 4096, seen as 512 × 32 groups × 128 lanes), reduces it over the lanes and then over the
  rows to one value per group, and folds that into two accumulators kept in scratch (1 × 32 each): at the first point the
  accumulators are first set to +∞ and −∞.  After every point the accumulators are copied into the two output blocks, which
  are the same block at every point and are written back once, after the last point.
  So the scratch carries a value from point to point, and the region's invariant has to name it: `accAt0 n` is the pair of
  accumulators after point `n`, by recursion on `n`.  Everything is stated at a parameter `V`, the buffers' contents when
  the region is entered, and at any float instance.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import proofs.«128145_j1211180777498_1_alg».proof.Proof.KI.Common
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's branch: taken exactly when the grid coordinate is 0. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The two scratch accumulators as memrefs. -/
abbrev scM0_0 : Memref sig .tc .vmem S1x32 .f32 := Memref.whole cc0_scratch0
abbrev scM0_1 : Memref sig .tc .vmem S1x32 .f32 := Memref.whole cc0_scratch1

/-- One point's update of the pair of accumulators by a block: the running minimum and the running maximum. -/
def step0 (x : Vec F S512x4096 .f32) (a : Vec F S1x32 .f32 × Vec F S1x32 .f32) : Vec F S1x32 .f32 × Vec F S1x32 .f32 :=
  (k0_pay4 x a.1, k0_pay5 x a.2)

/-- The accumulators after point `n`: from (+∞, −∞) at the first point, from the point before afterwards. -/
def accAt0 (c : Dev nD) : (n : ℕ) → n < cfg0.N → Vec F S1x32 .f32 × Vec F S1x32 .f32
  | 0, hn => step0 (iblk0 V c 0 ⟨0, hn⟩) (k0_pay1, k0_pay2)
  | n + 1, hn => step0 (iblk0 V c 0 ⟨n + 1, hn⟩) (accAt0 c n (Nat.lt_of_succ_lt hn))

theorem accAt0_zero (c : Dev nD) (hn : 0 < cfg0.N) :
    accAt0 V c 0 hn = step0 (iblk0 V c 0 ⟨0, hn⟩) (k0_pay1, k0_pay2) := rfl
theorem accAt0_succ (c : Dev nD) (n : ℕ) (hn : n + 1 < cfg0.N) :
    accAt0 V c (n + 1) hn = step0 (iblk0 V c 0 ⟨n + 1, hn⟩) (accAt0 V c n (Nat.lt_of_succ_lt hn)) := rfl

/-- The region's invariant before position `n`: before the first point the plain one (every scoped buffer no window
    stages at anything, the generator register at some state); afterwards the two scratch accumulators at what the point
    before left, beside what gives the plain invariant back once they are returned at any contents. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ (iprop((∃ d, owns (c : Thread nD τ) scM0_0 fullShare d) ∗ (∃ d, owns (c : Thread nD τ) scM0_1 fullShare d)) -∗ Pipeline.ΦA spec0 c))

/-- The proof data of pipeline 0 on core `c`: the arrays as the region finds them; after the body at point `t` the input's
    buffer at its block and the two outputs' at the accumulators after `t`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (accAt0 V c t.val t.isLt).1
    | ⟨2, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (accAt0 V c t.val t.isLt).1 := by dsimp only [dat0]
theorem after0_2 (c : Dev nD) (t : Fin cfg0.N) : (dat0 V c).after 2 t = (accAt0 V c t.val t.isLt).2 := by dsimp only [dat0]

/-! ## The invariant's two forms -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ (iprop((∃ d, owns (c : Thread nD τ) scM0_0 fullShare d) ∗ (∃ d, owns (c : Thread nD τ) scM0_1 fullShare d)) -∗ Pipeline.ΦA spec0 c)) := rfl

theorem PhiS0_pos (c : Dev nD) (n : ℕ) (h : n ≤ cfg0.N) (hz : n ≠ 0) :
    PhiS0 V c n h = iprop(owns (c : Thread nD τ) scM0_0 fullShare (accAt0 V c (n - 1) (by omega)).1 ∗ owns (c : Thread nD τ) scM0_1 fullShare (accAt0 V c (n - 1) (by omega)).2
      ∗ (iprop((∃ d, owns (c : Thread nD τ) scM0_0 fullShare d) ∗ (∃ d, owns (c : Thread nD τ) scM0_1 fullShare d)) -∗ Pipeline.ΦA spec0 c)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The scoped buffers that no window of this region stages, split at the region's own two scratch buffers: those two
    whole at some contents each, and all the others unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The plain invariant holds the two scratch buffers at some contents, beside what rebuilds it from them. -/
theorem phi_split0 (c : Dev nD) :
    (Pipeline.ΦA spec0 c : sProp 𝕄) ⊢ iprop((∃ d, owns (c : Thread nD τ) scM0_0 fullShare d) ∗ (∃ d, owns (c : Thread nD τ) scM0_1 fullShare d)
      ∗ (iprop((∃ d, owns (c : Thread nD τ) scM0_0 fullShare d) ∗ (∃ d, owns (c : Thread nD τ) scM0_1 fullShare d)) -∗ Pipeline.ΦA spec0 c)) := by
  unfold Pipeline.ΦA; rw [scopedRest0_split]; simp only [scM0_0, scM0_1, owns_whole]
  iintro ⟨⟨⟨HA, HB⟩, HT⟩, HG⟩
  isplitl [HA]; · iexact HA
  isplitl [HB]; · iexact HB
  iintro ⟨HA, HB⟩
  isplitr [HG]
  · isplitr [HT]
    · isplitl [HA]; · iexact HA
      iexact HB
    · iexact HT
  · iexact HG

/-! ## The body's two runs -/

abbrev r0_g : Rect S1x32 := Rect.unit (s := S1x32) ![0, 0] S1x32.size inb_S1x32_S1x32_0_0

/-- One store through the whole-buffer rectangle covers a 1 × 32 buffer; so does a list whose last store did. -/
theorem cover0_g1 (p0 : Vec F S1x32 .f32) (y : S1x32.Idx) :
    ∃ pc ∈ ([⟨r0_g, p0⟩] : List (View.Piece (Elt F) S1x32 .f32)), y ∈ pc.1.set :=
  ⟨⟨r0_g, p0⟩, List.mem_singleton_self _, mem_unit_zero hz_g inb_S1x32_S1x32_0_0 y⟩
theorem cover0_g2 (p0 p1 : Vec F S1x32 .f32) (y : S1x32.Idx) :
    ∃ pc ∈ ([⟨r0_g, p0⟩, ⟨r0_g, p1⟩] : List (View.Piece (Elt F) S1x32 .f32)), y ∈ pc.1.set :=
  ⟨⟨r0_g, p0⟩, List.mem_cons_self, mem_unit_zero hz_g inb_S1x32_S1x32_0_0 y⟩

set_option maxHeartbeats 2000000 in
/-- The body at a point that is not the first: the accumulators at `a4`, `a5` and the input block at `x0` run to the
    accumulators, and both output buffers, at the updated pair. -/
theorem sound_kernel0_later (c : Dev nD) (E : Set ℕ) (i : grid0.Coords) (hc : ¬cond0 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (a4 a5 : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare a4 ∗ owns (c : Thread nD τ) arg5 fullShare a5
        ∗ (iprop(owns (c : Thread nD τ) arg1 fullShare x0 ∗ owns (c : Thread nD τ) arg2 fullShare (k0_pay4 x0 a4) ∗ owns (c : Thread nD τ) arg3 fullShare (k0_pay5 x0 a5)
            ∗ owns (c : Thread nD τ) arg4 fullShare (k0_pay4 x0 a4) ∗ owns (c : Thread nD τ) arg5 fullShare (k0_pay5 x0 a5)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover0_g1 _), View.canon_unit_zero hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover0_g1 _), View.canon_unit_zero hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover0_g1 _), View.canon_unit_zero hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover0_g1 _), View.canon_unit_zero hz_g]
  simp only [View.readAt_eq_ld, View.ld_unit_zero (S := S512x4096) hz_x, View.ld_unit_zero (S := S1x32) hz_g]

set_option maxHeartbeats 2000000 in
/-- The body at the first point: the accumulators, at anything, are first set to +∞ and −∞, then updated by the block. -/
theorem sound_kernel0_first (c : Dev nD) (E : Set ℕ) (i : grid0.Coords) (hc : cond0 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k0_pay4 x0 k0_pay1) ∗ owns (c : Thread nD τ) arg3 fullShare (k0_pay5 x0 k0_pay2)
            ∗ owns (c : Thread nD τ) arg4 fullShare (k0_pay4 x0 k0_pay1) ∗ owns (c : Thread nD τ) arg5 fullShare (k0_pay5 x0 k0_pay2)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%d2, %f2, -, H2⟩, ⟨%d3, %f3, -, H3⟩, ⟨%d4, %f4, -, H4⟩, ⟨%d5, %f5, -, H5⟩, Hk⟩
  subst hf0
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover0_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover0_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover0_g2 _ _), View.canon_cons_unit_zero hz_g, readCov_cons_unit_zero _ hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover0_g2 _ _), View.canon_cons_unit_zero hz_g, readCov_cons_unit_zero _ hz_g]
  simp only [View.readAt_eq_ld, View.ld_unit_zero (S := S512x4096) hz_x, View.ld_unit_zero (S := S1x32) hz_g]

/-! ## The body obligation -/

/-- The input window's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The accumulators after the first point, and after a later one over the point before. -/
theorem accAt0_first (c : Dev nD) (t : Fin cfg0.N) (hz : t.val = 0) :
    accAt0 V c t.val t.isLt = (k0_pay4 (iblk0 V c 0 t) k0_pay1, k0_pay5 (iblk0 V c 0 t) k0_pay2) := by
  obtain ⟨n, hn⟩ := t
  cases n with
  | zero => rfl
  | succ n => exact absurd hz (Nat.succ_ne_zero n)
theorem accAt0_later (c : Dev nD) (t : Fin cfg0.N) (hz : t.val ≠ 0) :
    accAt0 V c t.val t.isLt = (k0_pay4 (iblk0 V c 0 t) (accAt0 V c (t.val - 1) (Nat.lt_of_le_of_lt (Nat.sub_le _ _) t.isLt)).1,
      k0_pay5 (iblk0 V c 0 t) (accAt0 V c (t.val - 1) (Nat.lt_of_le_of_lt (Nat.sub_le _ _) t.isLt)).2) := by
  obtain ⟨n, hn⟩ := t
  cases n with
  | zero => exact absurd rfl hz
  | succ n => rfl

set_option maxHeartbeats 1600000 in
/-- The body at any point. At the first point the invariant is the plain one: it yields the two scratch buffers at
    anything, and the run sets and updates them. At a later point the invariant holds them at what the point before left.
    Either way they come back at this point's accumulators, beside what rebuilds the plain invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS0 V c (t.val + 1) t.isLt from rfl, PhiS0_succ, after0_0, after0_1, after0_2, PhiS0_castSucc]
  by_cases hz : t.val = 0
  · have hc : cond0 (grid0.coords t) := (hcond0 t).mpr hz
    rw [PhiS0_zero V c _ _ hz, accAt0_first V c t hz]
    iintro ⟨HΦ, Ho, ⟨%d0, H0⟩, ⟨%d1, H1⟩, ⟨%d2, H2⟩⟩
    ihave HS := (phi_split0 c) $$ HΦ
    icases HS with ⟨HA, HB, Hw⟩
    iapply (sound_kernel0_first c Set.univ _ hc _ _ _ _ _ _ _ _ _ _ (iblk0 V c 0 t) _)
    isplitl [H0]; · iexact H0
    isplitl [H1]; · iexists _; iexact H1
    isplitl [H2]; · iexists _; iexact H2
    isplitl [HA]; · iexact HA
    isplitl [HB]; · iexact HB
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2
  · have hc : ¬cond0 (grid0.coords t) := fun h => hz ((hcond0 t).mp h)
    rw [PhiS0_pos V c _ _ hz, accAt0_later V c t hz]
    iintro ⟨⟨H4, H5, Hw⟩, Ho, ⟨%d0, H0⟩, ⟨%d1, H1⟩, ⟨%d2, H2⟩⟩
    iapply (sound_kernel0_later c Set.univ _ hc _ _ _ _ _ _ _ _ _ _ (iblk0 V c 0 t) _ _ _)
    isplitl [H0]; · iexact H0
    isplitl [H1]; · iexists _; iexact H1
    isplitl [H2]; · iexists _; iexact H2
    isplitl [H4]; · iexact H4
    isplitl [H5]; · iexact H5
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the plain one back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have hN : cfg0.N = 32 := N_0; omega)]
  iintro ⟨H4, H5, Hw⟩
  iapply Hw
  isplitl [H4]; · iexists _; iexact H4
  iexists _; iexact H5

end Cert.KernelIdeal.Gen

end
-- ==== Proof.KI.R1.lean ====
/-
  Region 1 of the quantizer: one grid point reads a block of 256 rows of the reshaped input (256 × 4096, seen as
  256 × 32 groups × 128 lanes), the per-group scale `s` and zero point `z` (1 × 32 each, the same block at every point),
  and stores  (min(255, max(0, roundeven(x / s + z))) − z) · s  over the whole output block.  The body is one load per
  operand and one covering store, so what the output's staging buffer holds after the body is a function of the three
  input blocks alone, and the region's invariant is the plain one (nothing is carried from point to point).
  Everything is stated at a parameter `V`, the buffers' contents when the region is entered, and at any float instance.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S256x4096 := Rect.unit (s := S256x4096) ![0, 0] S256x4096.size inb_S256x4096_S256x4096_0_0
abbrev r1_g : Rect S1x32 := Rect.unit (s := S1x32) ![0, 0] S1x32.size inb_S1x32_S1x32_0_0

/-- The output block after the body: the body's one store, over the three input blocks. -/
def out1_3 (x0 : Vec F S256x4096 .f32) (x1 : Vec F S1x32 .f32) (x2 : Vec F S1x32 .f32) : Vec F S256x4096 .f32 :=
  View.canon [⟨r1_x, k1_pay1 (View.ld x0 r1_x) (View.ld x1 r1_g) (View.ld x2 r1_g)⟩]

/-- The one store covers the output block. -/
theorem cover1_3 (p0 : Vec F S256x4096 .f32) (y : S256x4096.Idx) :
    ∃ pc ∈ ([⟨r1_x, p0⟩] : List (View.Piece (Elt F) S256x4096 .f32)), y ∈ pc.1.set :=
  View.cover_of_tiled [⟨r1_x, p0⟩] S256x4096.size (by rfl) y

set_option maxHeartbeats 1000000 in
/-- The body on whole staging memrefs: the three inputs at known contents and the output at anything run to the
    inputs unchanged and the output at `out1_3` of them. -/
theorem sound_kernel1 (c : Dev nD) (E : Set ℕ) (i : grid1.Coords)
    (arg1 : Memref sig .tc .vmem S256x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S256x4096 .f32) (harg4 : arg4.IsWhole)
    (x0 : Vec F S256x4096 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer
    at its block and the output's at `out1_3` of the three blocks; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input window's current staging buffer holds its block at every point: fetched there, or not fetched because
    the block index has not moved since the fetch (the scale and the zero point are fetched once, at the first point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.R2.lean ====
/-
  Region 2 of the quantizer: the running minimum and maximum of each group of 128 columns over all rows.  One grid point
  reads a block of 512 rows (512 × 4096, seen as 512 × 32 groups × 128 lanes), reduces it over the lanes and then over the
  rows to one value per group, and folds that into two accumulators kept in scratch (1 × 32 each): at the first point the
  accumulators are first set to +∞ and −∞.  After every point the accumulators are copied into the two output blocks, which
  are the same block at every point and are written back once, after the last point.
  So the scratch carries a value from point to point, and the region's invariant has to name it: `accAt2 n` is the pair of
  accumulators after point `n`, by recursion on `n`.  Everything is stated at a parameter `V`, the buffers' contents when
  the region is entered, and at any float instance.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import proofs.«128145_j1211180777498_1_alg».proof.Proof.KI.Common
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's branch: taken exactly when the grid coordinate is 0. -/
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- The two scratch accumulators as memrefs. -/
abbrev scM2_0 : Memref sig .tc .vmem S1x32 .f32 := Memref.whole cc2_scratch0
abbrev scM2_1 : Memref sig .tc .vmem S1x32 .f32 := Memref.whole cc2_scratch1

/-- One point's update of the pair of accumulators by a block: the running minimum and the running maximum. -/
def step2 (x : Vec F S512x4096 .f32) (a : Vec F S1x32 .f32 × Vec F S1x32 .f32) : Vec F S1x32 .f32 × Vec F S1x32 .f32 :=
  (k2_pay4 x a.1, k2_pay5 x a.2)

/-- The accumulators after point `n`: from (+∞, −∞) at the first point, from the point before afterwards. -/
def accAt2 (c : Dev nD) : (n : ℕ) → n < cfg2.N → Vec F S1x32 .f32 × Vec F S1x32 .f32
  | 0, hn => step2 (iblk2 V c 0 ⟨0, hn⟩) (k2_pay1, k2_pay2)
  | n + 1, hn => step2 (iblk2 V c 0 ⟨n + 1, hn⟩) (accAt2 c n (Nat.lt_of_succ_lt hn))

theorem accAt2_zero (c : Dev nD) (hn : 0 < cfg2.N) :
    accAt2 V c 0 hn = step2 (iblk2 V c 0 ⟨0, hn⟩) (k2_pay1, k2_pay2) := rfl
theorem accAt2_succ (c : Dev nD) (n : ℕ) (hn : n + 1 < cfg2.N) :
    accAt2 V c (n + 1) hn = step2 (iblk2 V c 0 ⟨n + 1, hn⟩) (accAt2 V c n (Nat.lt_of_succ_lt hn)) := rfl

/-- The region's invariant before position `n`: before the first point the plain one (every scoped buffer no window
    stages at anything, the generator register at some state); afterwards the two scratch accumulators at what the point
    before left, beside what gives the plain invariant back once they are returned at any contents. -/
def PhiS2 (c : Dev nD) : (n : ℕ) → n ≤ cfg2.N → sProp 𝕄
  | 0, _ => Pipeline.ΦA spec2 c
  | n + 1, hn => iprop(owns (c : Thread nD τ) scM2_0 fullShare (accAt2 V c n hn).1 ∗ owns (c : Thread nD τ) scM2_1 fullShare (accAt2 V c n hn).2
      ∗ (iprop((∃ d, owns (c : Thread nD τ) scM2_0 fullShare d) ∗ (∃ d, owns (c : Thread nD τ) scM2_1 fullShare d)) -∗ Pipeline.ΦA spec2 c))

/-- The proof data of pipeline 2 on core `c`: the arrays as the region finds them; after the body at point `t` the input's
    buffer at its block and the two outputs' at the accumulators after `t`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (accAt2 V c t.val t.isLt).1
    | ⟨2, _⟩ => (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = (accAt2 V c t.val t.isLt).1 := by dsimp only [dat2]
theorem after2_2 (c : Dev nD) (t : Fin cfg2.N) : (dat2 V c).after 2 t = (accAt2 V c t.val t.isLt).2 := by dsimp only [dat2]

/-! ## The invariant's two forms -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (accAt2 V c n hn).1 ∗ owns (c : Thread nD τ) scM2_1 fullShare (accAt2 V c n hn).2
      ∗ (iprop((∃ d, owns (c : Thread nD τ) scM2_0 fullShare d) ∗ (∃ d, owns (c : Thread nD τ) scM2_1 fullShare d)) -∗ Pipeline.ΦA spec2 c)) := rfl

theorem PhiS2_pos (c : Dev nD) (n : ℕ) (h : n ≤ cfg2.N) (hz : n ≠ 0) :
    PhiS2 V c n h = iprop(owns (c : Thread nD τ) scM2_0 fullShare (accAt2 V c (n - 1) (by omega)).1 ∗ owns (c : Thread nD τ) scM2_1 fullShare (accAt2 V c (n - 1) (by omega)).2
      ∗ (iprop((∃ d, owns (c : Thread nD τ) scM2_0 fullShare d) ∗ (∃ d, owns (c : Thread nD τ) scM2_1 fullShare d)) -∗ Pipeline.ΦA spec2 c)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The scoped buffers that no window of this region stages, split at the region's own two scratch buffers: those two
    whole at some contents each, and all the others unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The plain invariant holds the two scratch buffers at some contents, beside what rebuilds it from them. -/
theorem phi_split2 (c : Dev nD) :
    (Pipeline.ΦA spec2 c : sProp 𝕄) ⊢ iprop((∃ d, owns (c : Thread nD τ) scM2_0 fullShare d) ∗ (∃ d, owns (c : Thread nD τ) scM2_1 fullShare d)
      ∗ (iprop((∃ d, owns (c : Thread nD τ) scM2_0 fullShare d) ∗ (∃ d, owns (c : Thread nD τ) scM2_1 fullShare d)) -∗ Pipeline.ΦA spec2 c)) := by
  unfold Pipeline.ΦA; rw [scopedRest2_split]; simp only [scM2_0, scM2_1, owns_whole]
  iintro ⟨⟨⟨HA, HB⟩, HT⟩, HG⟩
  isplitl [HA]; · iexact HA
  isplitl [HB]; · iexact HB
  iintro ⟨HA, HB⟩
  isplitr [HG]
  · isplitr [HT]
    · isplitl [HA]; · iexact HA
      iexact HB
    · iexact HT
  · iexact HG

/-! ## The body's two runs -/

abbrev r2_g : Rect S1x32 := Rect.unit (s := S1x32) ![0, 0] S1x32.size inb_S1x32_S1x32_0_0

/-- One store through the whole-buffer rectangle covers a 1 × 32 buffer; so does a list whose last store did. -/
theorem cover2_g1 (p0 : Vec F S1x32 .f32) (y : S1x32.Idx) :
    ∃ pc ∈ ([⟨r2_g, p0⟩] : List (View.Piece (Elt F) S1x32 .f32)), y ∈ pc.1.set :=
  ⟨⟨r2_g, p0⟩, List.mem_singleton_self _, mem_unit_zero hz_g inb_S1x32_S1x32_0_0 y⟩
theorem cover2_g2 (p0 p1 : Vec F S1x32 .f32) (y : S1x32.Idx) :
    ∃ pc ∈ ([⟨r2_g, p0⟩, ⟨r2_g, p1⟩] : List (View.Piece (Elt F) S1x32 .f32)), y ∈ pc.1.set :=
  ⟨⟨r2_g, p0⟩, List.mem_cons_self, mem_unit_zero hz_g inb_S1x32_S1x32_0_0 y⟩

set_option maxHeartbeats 2000000 in
/-- The body at a point that is not the first: the accumulators at `a4`, `a5` and the input block at `x0` run to the
    accumulators, and both output buffers, at the updated pair. -/
theorem sound_kernel2_later (c : Dev nD) (E : Set ℕ) (i : grid2.Coords) (hc : ¬cond2 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (a4 a5 : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare a4 ∗ owns (c : Thread nD τ) arg5 fullShare a5
        ∗ (iprop(owns (c : Thread nD τ) arg1 fullShare x0 ∗ owns (c : Thread nD τ) arg2 fullShare (k2_pay4 x0 a4) ∗ owns (c : Thread nD τ) arg3 fullShare (k2_pay5 x0 a5)
            ∗ owns (c : Thread nD τ) arg4 fullShare (k2_pay4 x0 a4) ∗ owns (c : Thread nD τ) arg5 fullShare (k2_pay5 x0 a5)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover2_g1 _), View.canon_unit_zero hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover2_g1 _), View.canon_unit_zero hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover2_g1 _), View.canon_unit_zero hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover2_g1 _), View.canon_unit_zero hz_g]
  simp only [View.readAt_eq_ld, View.ld_unit_zero (S := S512x4096) hz_x, View.ld_unit_zero (S := S1x32) hz_g]

set_option maxHeartbeats 2000000 in
/-- The body at the first point: the accumulators, at anything, are first set to +∞ and −∞, then updated by the block. -/
theorem sound_kernel2_first (c : Dev nD) (E : Set ℕ) (i : grid2.Coords) (hc : cond2 i)
    (arg1 : Memref sig .tc .vmem S512x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k2_pay4 x0 k2_pay1) ∗ owns (c : Thread nD τ) arg3 fullShare (k2_pay5 x0 k2_pay2)
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%d2, %f2, -, H2⟩, ⟨%d3, %f3, -, H3⟩, ⟨%d4, %f4, -, H4⟩, ⟨%d5, %f5, -, H5⟩, Hk⟩
  subst hf0
  sl_exec (disch := exact hc)
  sl_step
  iapply Hk
  isplitl [H0]
  · iexists f0; isplitr; · ipureintro; rfl
    iexact H0
  isplitl [H2]
  · iexists _; isplitr
    swap; · iexact H2
    ipureintro; sl_unfold_words
    rw [View.read_writes_eq_canon _ _ _ (cover2_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H3]
  · iexists _; isplitr
    swap; · iexact H3
    ipureintro; sl_unfold_words
    rw [View.read_writes_eq_canon _ _ _ (cover2_g1 _), View.canon_unit_zero hz_g, readCov_cons_unit_zero _ hz_g, readCov_cons_unit_zero _ hz_g]
    simp only [View.readAt_eq_ld, View.ld_unit_zero (S := S512x4096) hz_x, View.ld_unit_zero (S := S1x32) hz_g]
  isplitl [H4]
  · iexists _; isplitr
    swap; · iexact H4
    ipureintro; sl_unfold_words
    rw [View.read_writes_eq_canon _ _ _ (cover2_g2 _ _), View.canon_cons_unit_zero hz_g, readCov_cons_unit_zero _ hz_g]
    simp only [View.readAt_eq_ld, View.ld_unit_zero (S := S512x4096) hz_x, View.ld_unit_zero (S := S1x32) hz_g]
  iexists _; isplitr
  swap; · iexact H5
  ipureintro; sl_unfold_words
  rw [View.read_writes_eq_canon _ _ _ (cover2_g2 _ _), View.canon_cons_unit_zero hz_g, readCov_cons_unit_zero _ hz_g]
  simp only [View.readAt_eq_ld, View.ld_unit_zero (S := S512x4096) hz_x, View.ld_unit_zero (S := S1x32) hz_g]

/-! ## The body obligation -/

/-- The input window's current staging buffer holds its block at every point (it is fetched at every point). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The accumulators after the first point, and after a later one over the point before. -/
theorem accAt2_first (c : Dev nD) (t : Fin cfg2.N) (hz : t.val = 0) :
    accAt2 V c t.val t.isLt = (k2_pay4 (iblk2 V c 0 t) k2_pay1, k2_pay5 (iblk2 V c 0 t) k2_pay2) := by
  obtain ⟨n, hn⟩ := t
  cases n with
  | zero => rfl
  | succ n => exact absurd hz (Nat.succ_ne_zero n)
theorem accAt2_later (c : Dev nD) (t : Fin cfg2.N) (hz : t.val ≠ 0) :
    accAt2 V c t.val t.isLt = (k2_pay4 (iblk2 V c 0 t) (accAt2 V c (t.val - 1) (Nat.lt_of_le_of_lt (Nat.sub_le _ _) t.isLt)).1,
      k2_pay5 (iblk2 V c 0 t) (accAt2 V c (t.val - 1) (Nat.lt_of_le_of_lt (Nat.sub_le _ _) t.isLt)).2) := by
  obtain ⟨n, hn⟩ := t
  cases n with
  | zero => exact absurd rfl hz
  | succ n => rfl

set_option maxHeartbeats 1600000 in
/-- The body at any point. At the first point the invariant is the plain one: it yields the two scratch buffers at
    anything, and the run sets and updates them. At a later point the invariant holds them at what the point before left.
    Either way they come back at this point's accumulators, beside what rebuilds the plain invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl,
    show (dat2 V c).Φ t.succ = PhiS2 V c (t.val + 1) t.isLt from rfl, PhiS2_succ, after2_0, after2_1, after2_2, PhiS2_castSucc]
  by_cases hz : t.val = 0
  · have hc : cond2 (grid2.coords t) := (hcond2 t).mpr hz
    rw [PhiS2_zero V c _ _ hz, accAt2_first V c t hz]
    iintro ⟨HΦ, Ho, ⟨%d0, H0⟩, ⟨%d1, H1⟩, ⟨%d2, H2⟩⟩
    ihave HS := (phi_split2 c) $$ HΦ
    icases HS with ⟨HA, HB, Hw⟩
    iapply (sound_kernel2_first c Set.univ _ hc _ _ _ _ _ _ _ _ _ _ (iblk2 V c 0 t) _)
    isplitl [H0]; · iexact H0
    isplitl [H1]; · iexists _; iexact H1
    isplitl [H2]; · iexists _; iexact H2
    isplitl [HA]; · iexact HA
    isplitl [HB]; · iexact HB
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2
  · have hc : ¬cond2 (grid2.coords t) := fun h => hz ((hcond2 t).mp h)
    rw [PhiS2_pos V c _ _ hz, accAt2_later V c t hz]
    iintro ⟨⟨H4, H5, Hw⟩, Ho, ⟨%d0, H0⟩, ⟨%d1, H1⟩, ⟨%d2, H2⟩⟩
    iapply (sound_kernel2_later c Set.univ _ hc _ _ _ _ _ _ _ _ _ _ (iblk2 V c 0 t) _ _ _)
    isplitl [H0]; · iexact H0
    isplitl [H1]; · iexists _; iexact H1
    isplitl [H2]; · iexists _; iexact H2
    isplitl [H4]; · iexact H4
    isplitl [H5]; · iexact H5
    iintro ⟨H0, H1, H2, H4, H5⟩
    isplitl [H4 H5 Hw]
    · isplitl [H4]; · iexact H4
      isplitl [H5]; · iexact H5
      iexact Hw
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the plain one back: the accumulators' named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have hN : cfg2.N = 32 := N_2; omega)]
  iintro ⟨H4, H5, Hw⟩
  iapply Hw
  isplitl [H4]; · iexists _; iexact H4
  iexists _; iexact H5

end Cert.KernelIdeal.Gen

end
-- ==== Proof.KI.R3.lean ====
/-
  Region 3 of the quantizer: one grid point reads a block of 256 rows of the reshaped input (256 × 4096, seen as
  256 × 32 groups × 128 lanes), the per-group scale `s` and zero point `z` (1 × 32 each, the same block at every point),
  and stores  (min(255, max(0, roundeven(x / s + z))) − z) · s  over the whole output block.  The body is one load per
  operand and one covering store, so what the output's staging buffer holds after the body is a function of the three
  input blocks alone, and the region's invariant is the plain one (nothing is carried from point to point).
  Everything is stated at a parameter `V`, the buffers' contents when the region is entered, and at any float instance.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S256x4096 := Rect.unit (s := S256x4096) ![0, 0] S256x4096.size inb_S256x4096_S256x4096_0_0
abbrev r3_g : Rect S1x32 := Rect.unit (s := S1x32) ![0, 0] S1x32.size inb_S1x32_S1x32_0_0

/-- The output block after the body: the body's one store, over the three input blocks. -/
def out3_3 (x0 : Vec F S256x4096 .f32) (x1 : Vec F S1x32 .f32) (x2 : Vec F S1x32 .f32) : Vec F S256x4096 .f32 :=
  View.canon [⟨r3_x, k3_pay1 (View.ld x0 r3_x) (View.ld x1 r3_g) (View.ld x2 r3_g)⟩]

/-- The one store covers the output block. -/
theorem cover3_3 (p0 : Vec F S256x4096 .f32) (y : S256x4096.Idx) :
    ∃ pc ∈ ([⟨r3_x, p0⟩] : List (View.Piece (Elt F) S256x4096 .f32)), y ∈ pc.1.set :=
  View.cover_of_tiled [⟨r3_x, p0⟩] S256x4096.size (by rfl) y

set_option maxHeartbeats 1000000 in
/-- The body on whole staging memrefs: the three inputs at known contents and the output at anything run to the
    inputs unchanged and the output at `out3_3` of them. -/
theorem sound_kernel3 (c : Dev nD) (E : Set ℕ) (i : grid3.Coords)
    (arg1 : Memref sig .tc .vmem S256x4096 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S256x4096 .f32) (harg4 : arg4.IsWhole)
    (x0 : Vec F S256x4096 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body each input's buffer
    at its block and the output's at `out3_3` of the three blocks; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- An input window's current staging buffer holds its block at every point: fetched there, or not fetched because
    the block index has not moved since the fetch (the scale and the zero point are fetched once, at the first point). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Run.lean ====
/-
  The run of the quantizer's @main, item by item.  @main is 17 items: four kernel regions among thirteen stretches of
  host operations.  The buffers' contents at each boundary between two items are written as a fold from the launch
  memory: a host stretch leaves its valuation's image under the stretch's semantics, a kernel region leaves its windows'
  arrays at what the pipeline's write-backs make of them and every other buffer as it was.  Each region is then a
  segment from "every unscoped buffer at the boundary's contents" to the same at the next boundary, and the whole run
  ends with every unscoped buffer at the last valuation of the fold.  Neither argument array is written by any item, so
  both end holding their launch contents.
-/
import proofs.«128145_j1211180777498_1_alg».proof.Proof.Gen.KernelIdeal.Launch
import proofs.«128145_j1211180777498_1_alg».proof.Proof.Gen.KernelIdeal.Skeleton
import proofs.«128145_j1211180777498_1_alg».proof.Proof.Gen.KernelIdeal.Points
import proofs.«128145_j1211180777498_1_alg».proof.Proof.Gen.KernelIdeal.Regions
import proofs.«128145_j1211180777498_1_alg».proof.Proof.KI.R0
import proofs.«128145_j1211180777498_1_alg».proof.Proof.KI.R1
import proofs.«128145_j1211180777498_1_alg».proof.Proof.KI.R2
import proofs.«128145_j1211180777498_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => m (c, b)
/-- After the first host stretch: region 0 is entered from here. -/
abbrev W1 : Dev nD → Valuation τ sig (Elt F) := fun c => StableHlo.after hostOps0 (W0 m c)
/-- The same, read at the TensorCore's references: region 0's entry contents. -/
abbrev V1 : (c : Dev nD) → (b : Ref sig .tc) → Buf (Elt F) ((c : Thread nD τ).loc b) := fun c b => W1 m c b
/-- At region 0's exit: its windows' arrays at what the pipeline leaves (the input as entered, each accumulator's
    array at its write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m c b
/-- At region 0's exit each of its arrays holds what the pipeline leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the five host stretches between regions 0 and 1, one by one. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
/-- Region 1's entry contents at the TensorCore's references. -/
abbrev V7 : (c : Dev nD) → (b : Ref sig .tc) → Buf (Elt F) ((c : Thread nD τ).loc b) := fun c b => W7 m c b
/-- At region 1's exit: the quantized array at its write-backs folded, every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- Region 1's exit contents at the TensorCore's references. -/
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

/-- After the host stretch between regions 1 and 2: region 2 is entered from here. -/
abbrev W9 : Dev nD → Valuation τ sig (Elt F) := fun c => StableHlo.after hostOps2 (W8 m c)
/-- Region 2's entry contents at the TensorCore's references. -/
abbrev V9 : (c : Dev nD) → (b : Ref sig .tc) → Buf (Elt F) ((c : Thread nD τ).loc b) := fun c b => W9 m c b
/-- At region 2's exit: its two accumulators' arrays at their write-backs folded, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- Region 2's exit contents at the TensorCore's references. -/
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the five host stretches between regions 2 and 3, one by one. -/
abbrev W11 : Dev nD → Valuation τ sig (Elt F) := fun c => StableHlo.after hostOps3 (W10 m c)
abbrev W12 : Dev nD → Valuation τ sig (Elt F) := fun c => StableHlo.after hostOps3_1 (W11 m c)
abbrev W13 : Dev nD → Valuation τ sig (Elt F) := fun c => StableHlo.after hostOps3_2 (W12 m c)
abbrev W14 : Dev nD → Valuation τ sig (Elt F) := fun c => StableHlo.after hostOps3_3 (W13 m c)
abbrev W15 : Dev nD → Valuation τ sig (Elt F) := fun c => StableHlo.after hostOps3_4 (W14 m c)
/-- Region 3's entry contents at the TensorCore's references. -/
abbrev V15 : (c : Dev nD) → (b : Ref sig .tc) → Buf (Elt F) ((c : Thread nD τ).loc b) := fun c b => W15 m c b
/-- At region 3's exit: the second quantized array at its write-backs folded, every other buffer as entered. -/
def W16 (c : Dev nD) : Valuation τ sig (Elt F) :=
  Pipeline.withArrays spec3 c (W15 m c) fun w => (dat3 (V15 m) c).arrAt w cfg3.N
theorem W16_arr (c : Dev nD) (w : Fin cfg3.W) :
    W16 m c (Proc.devRef .tc (Pipeline.arrRef spec3 w)) = (dat3 (V15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
/-- Region 3's exit contents at the TensorCore's references. -/
abbrev V16 : (c : Dev nD) → (b : Ref sig .tc) → Buf (Elt F) ((c : Thread nD τ).loc b) := fun c b => W16 m c b
theorem hF3 (c : Dev nD) (w : Fin cfg3.W) : (dat3 (V15 m) c).arrAt w cfg3.N = V16 m c (Pipeline.arrRef spec3 w) :=
  (W16_arr m c w).symm
theorem hrest3 (c : Dev nD) : ∀ b, b ∉ Finset.univ.image (Pipeline.arrRef spec3) → V16 m c b = V15 m c b :=
  fun b hb => W16_of_ne m c b fun w e => hb (Finset.mem_image.mpr ⟨w, Finset.mem_univ _, e⟩)

/-- After the last host stretch: what @main returns from. -/
abbrev W17 : Dev nD → Valuation τ sig (Elt F) := fun c => StableHlo.after hostOps4 (W16 m c)

/-! ## The arguments end as launched

No host stretch writes an argument (each stretch's written references are listed, and neither argument is among
them), and no region has an argument among its windows' arrays, so the fold at an argument's buffer walks back to the
launch memory. -/

/-- A reference that no item writes holds at the end what it held at launch. -/
theorem W17_of_untouched (c : Dev nD) (r : Ref sig .tc)
    (h0 : r ∉ hostOps0_W) (hr0 : ∀ w, Pipeline.arrRef spec0 w ≠ r)
    (h1 : r ∉ hostOps1_W) (h1_1 : r ∉ hostOps1_1_W) (h1_2 : r ∉ hostOps1_2_W) (h1_3 : r ∉ hostOps1_3_W) (h1_4 : r ∉ hostOps1_4_W)
    (hr1 : ∀ w, Pipeline.arrRef spec1 w ≠ r)
    (h2 : r ∉ hostOps2_W) (hr2 : ∀ w, Pipeline.arrRef spec2 w ≠ r)
    (h3 : r ∉ hostOps3_W) (h3_1 : r ∉ hostOps3_1_W) (h3_2 : r ∉ hostOps3_2_W) (h3_3 : r ∉ hostOps3_3_W) (h3_4 : r ∉ hostOps3_4_W)
    (hr3 : ∀ w, Pipeline.arrRef spec3 w ≠ r)
    (h4 : r ∉ hostOps4_W) :
    W17 m c (Proc.devRef .tc r) = m ((c : Thread nD τ).loc r) :=
  calc W17 m c (Proc.devRef .tc r)
    _ = W16 m c (Proc.devRef .tc r) := StableHlo.after_of_writes_sub hostOps4 _ hostOps4_writes h4
    _ = W15 m c (Proc.devRef .tc r) := W16_of_ne m c r hr3
    _ = W14 m c (Proc.devRef .tc r) := StableHlo.after_of_writes_sub hostOps3_4 _ hostOps3_4_writes h3_4
    _ = W13 m c (Proc.devRef .tc r) := StableHlo.after_of_writes_sub hostOps3_3 _ hostOps3_3_writes h3_3
    _ = W12 m c (Proc.devRef .tc r) := StableHlo.after_of_writes_sub hostOps3_2 _ hostOps3_2_writes h3_2
    _ = W11 m c (Proc.devRef .tc r) := StableHlo.after_of_writes_sub hostOps3_1 _ hostOps3_1_writes h3_1
    _ = W10 m c (Proc.devRef .tc r) := StableHlo.after_of_writes_sub hostOps3 _ hostOps3_writes h3
    _ = W9 m c (Proc.devRef .tc r) := W10_of_ne m c r hr2
    _ = W8 m c (Proc.devRef .tc r) := StableHlo.after_of_writes_sub hostOps2 _ hostOps2_writes h2
    _ = W7 m c (Proc.devRef .tc r) := W8_of_ne m c r hr1
    _ = W6 m c (Proc.devRef .tc r) := StableHlo.after_of_writes_sub hostOps1_4 _ hostOps1_4_writes h1_4
    _ = W5 m c (Proc.devRef .tc r) := StableHlo.after_of_writes_sub hostOps1_3 _ hostOps1_3_writes h1_3
    _ = W4 m c (Proc.devRef .tc r) := StableHlo.after_of_writes_sub hostOps1_2 _ hostOps1_2_writes h1_2
    _ = W3 m c (Proc.devRef .tc r) := StableHlo.after_of_writes_sub hostOps1_1 _ hostOps1_1_writes h1_1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W17_main_arg0 (c : Dev nD) : W17 m c (Proc.devRef .tc main_arg0) = m ((c : Thread nD τ).loc main_arg0) :=
  W17_of_untouched m c main_arg0 (by decide) (by decide) (by decide) (by decide) (by decide) (by decide) (by decide) (by decide)
    (by decide) (by decide) (by decide) (by decide) (by decide) (by decide) (by decide) (by decide) (by decide)
theorem W17_main_arg1 (c : Dev nD) : W17 m c (Proc.devRef .tc main_arg1) = m ((c : Thread nD τ).loc main_arg1) :=
  W17_of_untouched m c main_arg1 (by decide) (by decide) (by decide) (by decide) (by decide) (by decide) (by decide) (by decide)
    (by decide) (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
  | ⟨2, _⟩ => fun c => dat2 (V9 m) c
  | ⟨3, _⟩ => fun c => dat3 (V15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it
    ends at those references at the stretch's image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W17 m c) ∗ ∃ r, prngReg c r)

/-! ## The regions as segments

Each region is entered from every unscoped buffer at its entry boundary's contents and left with them at its exit
boundary's.  Its windows' arrays are split out of the unscoped buffers and put back at the exit contents; the
generator register goes into the region's invariant and comes back; nothing is owed; the kernel has no semaphore of
its own.  In regions 0 and 2 the invariant before the first point and after the last is reached from, and gives
back, the plain one through the region's two end lemmas. -/

set_option backward.isDefEq.respectTransparency.types false in
/-- REGION 0: from every unscoped buffer at `W1` to the same at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: from every unscoped buffer at `W7` to the same at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: from every unscoped buffer at `W9` to the same at `W10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V9 m) c).Φ 0 from rfl]
    refine BIBase.Entails.trans ?_ (hin2 (V9 m) c)
    unfold Pipeline.ΦA
    iintro ⟨Hp, -, Hr⟩
    isplitl [Hr]; · iexact Hr
    iexact Hp
  hout c := by
    rw [Pipeline.ownSems0_none, show (pdats m 2 c).Φ (Fin.last _) = (dat2 (V9 m) c).Φ (Fin.last cfg2.N) from rfl]
    refine BIBase.Entails.trans (hout2 (V9 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: from every unscoped buffer at `W15` to the same at `W16`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (V15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V15 m c) (V16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 17 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .host (hseg hostOps3_3 hostOps3_3_sub hostOps3_3_fresh (W13 m)),
    .host (hseg hostOps3_4 hostOps3_4_sub hostOps3_4_fresh (W14 m)),
    .region (reg3 m),
    .host (hseg hostOps4 hostOps4_sub hostOps4_fresh (W16 m)) ]

/-- @main is the run of the segments: it is the chain of its items, and so is the segments' run, fragment for
    fragment. -/
theorem main_run (c : Dev nD) : main (F := F) c = Pipeline.Seg.run (segs m) := by
  rw [main_chain c, Pipeline.Seg.run_eq_chain]
  rfl

/-- The last host stretch ends at the last thread state beside the core owing nothing: a regrouping. -/
theorem hlast (c : Dev nD) : (iprop(StableHlo.held (c : Thread nD τ) (Pipeline.ucRefs τ sig) (W17 m c) ∗ R c) : sProp 𝕄)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN.  At the compiled mesh, from any memory with zero counters, every weakly fair execution of @main on the
    TensorCores terminates, nothing faulting, and in every final state each core's unscoped buffers hold the last
    valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun _ h => h)

/-- THE FRAME: every final state has both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W17_main_arg0 m c),
     (h c _ (mem_uc main_arg1 (by decide))).trans (W17_main_arg1 m c)⟩) (run_all m ρ)

end Cert.KernelIdeal.Run

end
-- ==== Proof.KI.Host.lean ====
/-
  What the host stretches between the regions compute, read off the run's fold of buffer contents: the reshaped inputs,
  each group's scale  (max' − min) / 255  (max' = min + ε where max = min) and zero point  0 − roundeven(min / scale)
  from the two arrays a min/max region leaves, and the results' final reshapes.  At any float instance.
-/
import proofs.«128145_j1211180777498_1_alg».proof.Proof.KI.Run
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-- A group's scale from the arrays of group minima and maxima. -/
def scaleOf (mn mx : FVec F S1x32 .f32) : FVec F S1x32 .f32 :=
  Host.divf (subf (select (cmpf .oeq mx mn) (addf mn (broadcastInDim S1x32 ![] bcast_S_S1x32 (constant S_ .f32 0x3727C5AC#32))) mx) mn)
    (broadcastInDim S1x32 ![] bcast_S_S1x32 (constant S_ .f32 0x437F0000#32))
/-- A group's zero point from the same two arrays. -/
def zpOf (mn mx : FVec F S1x32 .f32) : FVec F S1x32 .f32 :=
  subf (broadcastInDim S1x32 ![] bcast_S_S1x32 (constant S_ .f32 0x00000000#32)) (Host.roundeven (Host.divf mn (scaleOf mn mx)))

/-! ## The first input -/

/-- The first stretch reshapes the first argument to 16384 × 4096. -/
theorem W1_main_v0 (c : Dev nD) :
    W1 m c (Proc.devRef .tc main_v0) = shapeCast S16384x4096 (m ((c : Thread nD τ).loc main_arg0)) shapeCasts_S4x4096x4096_S16384x4096 := by
  show StableHlo.after hostOps0 (fun b => m (c, b)) (Proc.devRef .tc main_v0) = _
  after_results
  rfl

/-- Region 0 reads that array and leaves it as it found it. -/
theorem W2_main_v0 (c : Dev nD) : W2 m c (Proc.devRef .tc main_v0) = W1 m c (Proc.devRef .tc main_v0) :=
  (W2_arr m c 0).trans (((dat0 (V1 m) c).arrAt_in 0 rfl _).trans (A_eq0 (V1 m) c 0))

/-- The stretches between regions 0 and 1 do not write it. -/
theorem W7_main_v0 (c : Dev nD) : W7 m c (Proc.devRef .tc main_v0) = W2 m c (Proc.devRef .tc main_v0) :=
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide))

/-- Region 1's scale operand is the scale of what region 0 left. -/
theorem W7_main_v8 (c : Dev nD) :
    W7 m c (Proc.devRef .tc main_v8) = scaleOf (W2 m c (Proc.devRef .tc main_v1_0)) (W2 m c (Proc.devRef .tc main_v1_1)) := by
  show StableHlo.after hostOps1_4 (StableHlo.after hostOps1_3 (StableHlo.after hostOps1_2 (StableHlo.after hostOps1_1 (StableHlo.after hostOps1 (W2 m c))))) (Proc.devRef .tc main_v8) = _
  after_results
  (try simp only [TRef.ofBuf, TRef.toBuf, cast_eq])
  rfl

/-- Region 1's zero-point operand likewise. -/
theorem W7_main_v12 (c : Dev nD) :
    W7 m c (Proc.devRef .tc main_v12) = zpOf (W2 m c (Proc.devRef .tc main_v1_0)) (W2 m c (Proc.devRef .tc main_v1_1)) := by
  show StableHlo.after hostOps1_4 (StableHlo.after hostOps1_3 (StableHlo.after hostOps1_2 (StableHlo.after hostOps1_1 (StableHlo.after hostOps1 (W2 m c))))) (Proc.devRef .tc main_v12) = _
  after_results
  (try simp only [TRef.ofBuf, TRef.toBuf, cast_eq])
  rfl

/-- The first result is region 1's output array reshaped to 4 × 4096 × 4096, -/
theorem W9_main_v14 (c : Dev nD) :
    W9 m c (Proc.devRef .tc main_v14) = shapeCast S4x4096x4096 (W8 m c (Proc.devRef .tc main_v13)) shapeCasts_S16384x4096_S4x4096x4096 := by
  show StableHlo.after hostOps2 (W8 m c) (Proc.devRef .tc main_v14) = _
  after_results
  rfl

/-- and nothing after that writes it. -/
theorem W17_main_v14 (c : Dev nD) : W17 m c (Proc.devRef .tc main_v14) = W9 m c (Proc.devRef .tc main_v14) :=
  (StableHlo.after_of_writes_sub hostOps4 _ hostOps4_writes (by decide)).trans <|
  (W16_of_ne m c main_v14 (by decide)).trans <|
  (StableHlo.after_of_writes_sub hostOps3_4 _ hostOps3_4_writes (by decide)).trans <|
  (StableHlo.after_of_writes_sub hostOps3_3 _ hostOps3_3_writes (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W10_of_ne m c main_v14 (by decide))

/-! ## The second input -/

/-- Up to the stretch that reshapes it, nothing writes the second argument. -/
theorem W8_main_arg1 (c : Dev nD) : W8 m c (Proc.devRef .tc main_arg1) = m ((c : Thread nD τ).loc main_arg1) :=
  (W8_of_ne m c main_arg1 (by decide)).trans <|
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (W2_of_ne m c main_arg1 (by decide)).trans <|
  (StableHlo.after_of_writes_sub hostOps0 _ hostOps0_writes (by decide))

/-- The stretch after region 1 reshapes the second argument to 16384 × 4096. -/
theorem W9_main_v15 (c : Dev nD) :
    W9 m c (Proc.devRef .tc main_v15) = shapeCast S16384x4096 (m ((c : Thread nD τ).loc main_arg1)) shapeCasts_S4x4096x4096_S16384x4096 := by
  have h : W9 m c (Proc.devRef .tc main_v15) = shapeCast S16384x4096 (W8 m c (Proc.devRef .tc main_arg1)) shapeCasts_S4x4096x4096_S16384x4096 := by
    show StableHlo.after hostOps2 (W8 m c) (Proc.devRef .tc main_v15) = _
    after_results
    rfl
  rw [h, W8_main_arg1]

/-- Region 2 reads that array and leaves it as it found it. -/
theorem W10_main_v15 (c : Dev nD) : W10 m c (Proc.devRef .tc main_v15) = W9 m c (Proc.devRef .tc main_v15) :=
  (W10_arr m c 0).trans (((dat2 (V9 m) c).arrAt_in 0 rfl _).trans (A_eq2 (V9 m) c 0))

/-- The stretches between regions 2 and 3 do not write it. -/
theorem W15_main_v15 (c : Dev nD) : W15 m c (Proc.devRef .tc main_v15) = W10 m c (Proc.devRef .tc main_v15) :=
  (StableHlo.after_of_writes_sub hostOps3_4 _ hostOps3_4_writes (by decide)).trans <|
  (StableHlo.after_of_writes_sub hostOps3_3 _ hostOps3_3_writes (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide))

/-- Region 3's scale operand is the scale of what region 2 left. -/
theorem W15_main_v23 (c : Dev nD) :
    W15 m c (Proc.devRef .tc main_v23) = scaleOf (W10 m c (Proc.devRef .tc main_v16_0)) (W10 m c (Proc.devRef .tc main_v16_1)) := by
  show StableHlo.after hostOps3_4 (StableHlo.after hostOps3_3 (StableHlo.after hostOps3_2 (StableHlo.after hostOps3_1 (StableHlo.after hostOps3 (W10 m c))))) (Proc.devRef .tc main_v23) = _
  after_results
  (try simp only [TRef.ofBuf, TRef.toBuf, cast_eq])
  rfl

/-- Region 3's zero-point operand likewise. -/
theorem W15_main_v27 (c : Dev nD) :
    W15 m c (Proc.devRef .tc main_v27) = zpOf (W10 m c (Proc.devRef .tc main_v16_0)) (W10 m c (Proc.devRef .tc main_v16_1)) := by
  show StableHlo.after hostOps3_4 (StableHlo.after hostOps3_3 (StableHlo.after hostOps3_2 (StableHlo.after hostOps3_1 (StableHlo.after hostOps3 (W10 m c))))) (Proc.devRef .tc main_v27) = _
  after_results
  (try simp only [TRef.ofBuf, TRef.toBuf, cast_eq])
  rfl

/-- The second result is region 3's output array reshaped to 4 × 4096 × 4096. -/
theorem W17_main_v29 (c : Dev nD) :
    W17 m c (Proc.devRef .tc main_v29) = shapeCast S4x4096x4096 (W16 m c (Proc.devRef .tc main_v28)) shapeCasts_S16384x4096_S4x4096x4096 := by
  show StableHlo.after hostOps4 (W16 m c) (Proc.devRef .tc main_v29) = _
  after_results
  rfl

end Cert.KernelIdeal.Run

end
-- ==== Proof.KI.MinMax.lean ====
/-
  The minimum and maximum of each group of 128 adjacent columns, taken block of rows by block of rows
  and folded into two running values, against one reduction over all rows and the group's lanes.

  On the extended reals `min` and `max` are associative, commutative and idempotent, with neutral
  elements `⊤` and `⊥`. A fold of `min` from `b` over a finite family is therefore characterised by
  its lower bounds: `c` lies below the fold exactly when it lies below `b` and below every member. Two
  extended reals with the same lower bounds are equal, so every step is an equivalence between
  "c is a lower bound of …" statements, and the order in which the family is run through never
  matters. The maximum is the mirror image with upper bounds.
-/
import proofs.«128145_j1211180777498_1_alg».proof.Proof.Gen.ReferenceIdeal
import proofs.«128145_j1211180777498_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Mathlib.Data.Finset.Fold

noncomputable section

namespace Cert.KernelIdeal.MinMax

open Idealize.ShloMosaic Idealize.ShloMosaic.ValueIdx

/-! ## Reductions by their bounds -/

/-- The pattern of `+∞` denotes `⊤`. -/
theorem ofBits_posInf : Ideal.ofBits .f32 0x7F800000#32 = (⊤ : EReal) := by simp [Ideal.ofBits, Ideal.ieee]

/-- The pattern of `-∞` denotes `⊥`. -/
theorem ofBits_negInf : Ideal.ofBits .f32 0xFF800000#32 = (⊥ : EReal) := by simp [Ideal.ofBits, Ideal.ieee]

/-- Lower bounds of a `minimumf` reduction at a result index: those of the accumulator's value that are
    lower bounds of the source at every index dropping to it. -/
theorem le_multiReduction_min {s t : Shape} {axes : List (Fin s.rank)} (src : FVec Ideal s .f32)
    (acc : BitVec FTy.f32.bits) (h : s.Reduces axes t) (hφ : FKind.Formats .f32)
    (hacc : acc = FKind.minimumf.neutral .f32 hφ) (j : t.Idx) (c : EReal) :
    c ≤ multiReduction .minimumf axes t src acc h hφ hacc j
      ↔ c ≤ Ideal.ofBits .f32 acc ∧ ∀ i : s.Idx, h.drop i = j → c ≤ src i := by
  rw [multiReduction_minimumf_eq_fold]
  show c ≤ Finset.fold min (Ideal.ofBits .f32 acc) src _ ↔ _
  rw [Finset.le_fold_min]
  simp only [Finset.mem_filter, Finset.mem_univ, true_and]

/-- Upper bounds of a `maximumf` reduction at a result index. -/
theorem multiReduction_max_le {s t : Shape} {axes : List (Fin s.rank)} (src : FVec Ideal s .f32)
    (acc : BitVec FTy.f32.bits) (h : s.Reduces axes t) (hφ : FKind.Formats .f32)
    (hacc : acc = FKind.maximumf.neutral .f32 hφ) (j : t.Idx) (c : EReal) :
    multiReduction .maximumf axes t src acc h hφ hacc j ≤ c
      ↔ Ideal.ofBits .f32 acc ≤ c ∧ ∀ i : s.Idx, h.drop i = j → src i ≤ c := by
  rw [multiReduction_maximumf_eq_fold]
  show Finset.fold max (Ideal.ofBits .f32 acc) src _ ≤ c ↔ _
  rw [Finset.fold_max_le]
  simp only [Finset.mem_filter, Finset.mem_univ, true_and]

/-- Lower bounds of a host reduction with a `minimumf` body. -/
theorem le_hostReduce_min {s t u : Shape} {axes : List (Fin s.rank)} (x : s.Idx → EReal) (init : u.Idx → EReal)
    (h : s.ReducesTo axes t) (hu : 0 < u.numel) (j : t.Idx) (c : EReal) :
    c ≤ Host.reduce (FloatOps.minimumf (F := Ideal) (φ := .f32)) x init h hu j
      ↔ c ≤ init (Shape.Idx.first hu) ∧ ∀ i : s.Idx, h.drop i = j → c ≤ x i := by
  rw [Host.reduce_eq_fold]
  show c ≤ Finset.fold min _ x _ ↔ _
  rw [Finset.le_fold_min]
  simp only [Finset.mem_filter, Finset.mem_univ, true_and]

/-- Upper bounds of a host reduction with a `maximumf` body. -/
theorem hostReduce_max_le {s t u : Shape} {axes : List (Fin s.rank)} (x : s.Idx → EReal) (init : u.Idx → EReal)
    (h : s.ReducesTo axes t) (hu : 0 < u.numel) (j : t.Idx) (c : EReal) :
    Host.reduce (FloatOps.maximumf (F := Ideal) (φ := .f32)) x init h hu j ≤ c
      ↔ init (Shape.Idx.first hu) ≤ c ∧ ∀ i : s.Idx, h.drop i = j → x i ≤ c := by
  rw [Host.reduce_eq_fold]
  show Finset.fold max _ x _ ≤ c ↔ _
  rw [Finset.fold_max_le]
  simp only [Finset.mem_filter, Finset.mem_univ, true_and]

/-! ## The index sets, by coordinates -/

/-- The column of lane `l` of group `g`. -/
def col (g : Fin 32) (l : Fin 128) : Fin 4096 := ⟨128 * g.val + l.val, by omega⟩

theorem ix2_inj {n0 n1 : Nat} {a a' : Fin n0} {b b' : Fin n1} (h : ix2 a b = ix2 a' b') : a = a' ∧ b = b' :=
  ⟨congrFun h 0, congrFun h 1⟩

theorem ix1_inj {n : Nat} {a a' : Fin n} (h : ix1 a = ix1 a') : a = a' := congrFun h 0

/-- Dropping the lane axis of a block index keeps (row, group). -/
theorem drop_lane (h : S512x32x128.Reduces [2] S512x32) (p : Fin 512) (g : Fin 32) (l : Fin 128) :
    h.drop (ix3 p g l) = ix2 p g := by
  funext b
  match b with
  | ⟨0, _⟩ => exact Fin.ext (h.drop_apply_val_of_eq (ix3 p g l) 0 0)
  | ⟨1, _⟩ => exact Fin.ext (h.drop_apply_val_of_eq (ix3 p g l) 1 1)

/-- Dropping the row axis of a (row, group) index keeps the group. -/
theorem drop_row (h : S512x32.Reduces [0] S32) (p : Fin 512) (g : Fin 32) :
    h.drop (ix2 p g) = ix1 g := by
  funext b
  match b with
  | ⟨0, _⟩ => exact Fin.ext (h.drop_apply_val_of_eq (ix2 p g) 0 1)

/-- Dropping the row and lane axes of the whole array's 3-D view keeps the group. -/
theorem drop_row_lane (h : Cert.ReferenceIdeal.S16384x32x128.ReducesTo [0, 2] Cert.ReferenceIdeal.S32)
    (r : Fin 16384) (g : Fin 32) (l : Fin 128) : h.drop (ix3 r g l) = ix1 g := by
  funext b
  match b with
  | ⟨0, _⟩ => exact Fin.ext (h.drop_apply_val_of_eq (ix3 r g l) 0 1)

/-- A block seen as 512 × 32 × 128: entry (p, g, l) is entry (p, 128 g + l) of the block. -/
theorem pay3_apply (v3 : Vec Ideal S512x4096 .f32) (p : Fin 512) (g : Fin 32) (l : Fin 128) :
    Gen.k0_pay3 v3 (ix3 p g l) = v3 (ix2 p (col g l)) := by
  unfold Gen.k0_pay3
  rw [shapeCast_self]
  refine shapeCast_apply v3 _ _ _ ?_
  rw [Shape.rowMajor_val_two, Shape.rowMajor_val_three]
  show p.val * 4096 + (128 * g.val + l.val) = (p.val * 32 + g.val) * 128 + l.val
  omega

/-- The whole array seen as 16384 × 32 × 128: entry (r, g, l) is entry (r, 128 g + l). -/
theorem view_apply (X : FVec Ideal Cert.ReferenceIdeal.S16384x4096 .f32)
    (hc : Cert.ReferenceIdeal.S16384x4096.ShapeCasts Cert.ReferenceIdeal.S16384x32x128)
    (r : Fin 16384) (g : Fin 32) (l : Fin 128) :
    shapeCast Cert.ReferenceIdeal.S16384x32x128 X hc (ix3 r g l) = X (ix2 r (col g l)) := by
  refine shapeCast_apply X _ _ _ ?_
  rw [Shape.rowMajor_val_two, Shape.rowMajor_val_three]
  show r.val * 4096 + (128 * g.val + l.val) = (r.val * 32 + g.val) * 128 + l.val
  omega

/-! ## One block and one step: the minimum -/

/-- Lower bounds of a block's per-group minimum (first over the lanes of each row, then over the rows):
    the lower bounds of the block over all its rows and the group's lanes. -/
theorem le_blockMin (v3 : Vec Ideal S512x4096 .f32) (h2 : S512x32x128.Reduces [2] S512x32)
    (h0 : S512x32.Reduces [0] S32) (hφ hφ' : FKind.Formats .f32)
    (hacc : (0x7F800000#32 : BitVec FTy.f32.bits) = FKind.minimumf.neutral .f32 hφ)
    (hacc' : (0x7F800000#32 : BitVec FTy.f32.bits) = FKind.minimumf.neutral .f32 hφ') (g : Fin 32) (c : EReal) :
    c ≤ multiReduction .minimumf [0] S32
          (multiReduction .minimumf [2] S512x32 (Gen.k0_pay3 v3) 0x7F800000#32 h2 hφ hacc) 0x7F800000#32 h0 hφ' hacc' (ix1 g)
      ↔ ∀ (p : Fin 512) (l : Fin 128), c ≤ v3 (ix2 p (col g l)) := by
  rw [le_multiReduction_min, ofBits_posInf]
  constructor
  · rintro ⟨-, H⟩ p l
    have h1 := (le_multiReduction_min _ _ _ _ _ _ c).mp (H (ix2 p g) (drop_row h0 p g))
    have h3 := h1.2 (ix3 p g l) (drop_lane h2 p g l)
    rwa [pay3_apply] at h3
  · intro H
    refine ⟨le_top, fun i hi => ?_⟩
    obtain ⟨p, g', rfl⟩ : ∃ p g', i = ix2 p g' := ⟨_, _, eq_ix2 i⟩
    rw [drop_row] at hi
    obtain rfl := ix1_inj hi
    rw [le_multiReduction_min, ofBits_posInf]
    refine ⟨le_top, fun i' hi' => ?_⟩
    obtain ⟨p', g'', l, rfl⟩ : ∃ p' g'' l, i' = ix3 p' g'' l := ⟨_, _, _, eq_ix3 i'⟩
    rw [drop_lane] at hi'
    obtain ⟨rfl, rfl⟩ := ix2_inj hi'
    rw [pay3_apply]
    exact H _ _

/-- Lower bounds of the running minimum after a step: lower bounds of the running minimum before it that
    are lower bounds of the step's block over the group's lanes. -/
theorem le_pay4 (v3 : Vec Ideal S512x4096 .f32) (v12 : Vec Ideal S1x32 .f32) (g : Fin 32) (c : EReal) :
    c ≤ Gen.k0_pay4 v3 v12 (ix2 (0 : Fin 1) g)
      ↔ c ≤ v12 (ix2 (0 : Fin 1) g) ∧ ∀ (p : Fin 512) (l : Fin 128), c ≤ v3 (ix2 p (col g l)) := by
  unfold Gen.k0_pay4
  rw [shapeCast_self, minimumf_apply, le_min_iff, shapeCast_a_1a_apply]
  exact and_congr_right' (le_blockMin v3 _ _ _ _ _ _ g c)

/-- The running minimum starts at `⊤`. -/
theorem pay1_apply (g : Fin 32) : (Gen.k0_pay1 (F := Ideal)) (ix2 (0 : Fin 1) g) = (⊤ : EReal) := by
  unfold Gen.k0_pay1
  rw [shapeCast_self, broadcast_apply]
  exact ofBits_posInf

/-! ## The blocks tile the rows -/

/-- A bound over the rows below `512 n` together with a bound over block `n` (rows `512 n … 512 n + 511`) is
    a bound over the rows below `512 (n + 1)`. Stated for any predicate of (row, column) entries so that it
    serves lower and upper bounds alike. -/
theorem rows_step (X : FVec Ideal Cert.ReferenceIdeal.S16384x4096 .f32) (Bn : Vec Ideal S512x4096 .f32) (n : ℕ)
    (hn : n < 32)
    (hB : ∀ (p : Fin 512) (q : Fin 4096) (hr : 512 * n + p.val < 16384), Bn (ix2 p q) = X (ix2 ⟨512 * n + p.val, hr⟩ q))
    (g : Fin 32) (P : EReal → Prop) :
    ((∀ (r : Fin 16384) (l : Fin 128), r.val < 512 * n → P (X (ix2 r (col g l))))
        ∧ ∀ (p : Fin 512) (l : Fin 128), P (Bn (ix2 p (col g l))))
      ↔ ∀ (r : Fin 16384) (l : Fin 128), r.val < 512 * (n + 1) → P (X (ix2 r (col g l))) := by
  constructor
  · rintro ⟨H1, H2⟩ r l hr
    by_cases h : r.val < 512 * n
    · exact H1 r l h
    · have hp : r.val - 512 * n < 512 := by omega
      have key : Bn (ix2 ⟨r.val - 512 * n, hp⟩ (col g l)) = X (ix2 r (col g l)) :=
        (hB ⟨r.val - 512 * n, hp⟩ (col g l) (by show 512 * n + (r.val - 512 * n) < 16384; omega)).trans
          (congrArg (fun t => X (ix2 t (col g l)))
            (Fin.ext (by show 512 * n + (r.val - 512 * n) = r.val; omega)))
      rw [← key]
      exact H2 _ l
  · intro H
    refine ⟨fun r l hr => H r l (by omega), fun p l => ?_⟩
    have hr : 512 * n + p.val < 16384 := by omega
    rw [hB p _ hr]
    exact H _ l (by show 512 * n + p.val < 512 * (n + 1); omega)

/-! ## The running minimum after `n + 1` steps -/

/-- After steps `0 … n` the running minimum of group `g` has as lower bounds exactly the lower bounds of the
    array over the rows below `512 (n + 1)` and the group's lanes. -/
theorem le_acc_min (X : FVec Ideal Cert.ReferenceIdeal.S16384x4096 .f32) (B : ℕ → Vec Ideal S512x4096 .f32)
    (hB : ∀ n, n < 32 → ∀ (p : Fin 512) (q : Fin 4096) (hr : 512 * n + p.val < 16384),
      B n (ix2 p q) = X (ix2 ⟨512 * n + p.val, hr⟩ q))
    (a : ℕ → Vec Ideal S1x32 .f32)
    (h0 : a 0 = Gen.k0_pay4 (B 0) (Gen.k0_pay1 (F := Ideal)))
    (hs : ∀ n, n + 1 < 32 → a (n + 1) = Gen.k0_pay4 (B (n + 1)) (a n))
    (g : Fin 32) : ∀ n, n < 32 → ∀ c : EReal,
      c ≤ a n (ix2 (0 : Fin 1) g)
        ↔ ∀ (r : Fin 16384) (l : Fin 128), r.val < 512 * (n + 1) → c ≤ X (ix2 r (col g l)) := by
  intro n
  induction n with
  | zero =>
    intro _ c
    rw [h0, le_pay4, pay1_apply, ← rows_step X (B 0) 0 (by omega) (hB 0 (by omega)) g (c ≤ ·)]
    constructor
    · rintro ⟨-, H⟩
      exact ⟨fun r l hr => absurd hr (by omega), H⟩
    · rintro ⟨-, H⟩
      exact ⟨le_top, H⟩
  | succ n ih =>
    intro hn c
    rw [hs n hn, le_pay4, ih (by omega) c, rows_step X (B (n + 1)) (n + 1) hn (hB (n + 1) hn) g (c ≤ ·)]

/-! ## The one reduction over all rows and lanes -/

/-- Lower bounds of the reduction over the row and lane axes of the 16384 × 32 × 128 view, from `+∞`: the
    lower bounds of the array over all rows and the group's lanes. -/
theorem le_ref_min (X : FVec Ideal Cert.ReferenceIdeal.S16384x4096 .f32)
    (hc : Cert.ReferenceIdeal.S16384x4096.ShapeCasts Cert.ReferenceIdeal.S16384x32x128)
    (hr : Cert.ReferenceIdeal.S16384x32x128.ReducesTo [0, 2] Cert.ReferenceIdeal.S32)
    (hu : 0 < Cert.ReferenceIdeal.S_.numel) (g : Fin 32) (c : EReal) :
    c ≤ Host.reduce FloatOps.minimumf (shapeCast Cert.ReferenceIdeal.S16384x32x128 X hc)
          (constant Cert.ReferenceIdeal.S_ .f32 0x7F800000#32) hr hu (ix1 g)
      ↔ ∀ (r : Fin 16384) (l : Fin 128), c ≤ X (ix2 r (col g l)) := by
  rw [le_hostReduce_min]
  constructor
  · rintro ⟨-, H⟩ r l
    have h1 := H (ix3 r g l) (drop_row_lane hr r g l)
    rwa [view_apply] at h1
  · intro H
    refine ⟨?_, fun i hi => ?_⟩
    · rw [constant_apply, ofBits_posInf]
      exact le_top
    · obtain ⟨r, g', l, rfl⟩ : ∃ r g' l, i = ix3 r g' l := ⟨_, _, _, eq_ix3 i⟩
      rw [drop_row_lane] at hi
      obtain rfl := ix1_inj hi
      rw [view_apply]
      exact H _ _

/-! ## The maximum: the mirror image, with upper bounds -/

/-- Upper bounds of a block's per-group maximum: the upper bounds of the block over all its rows and the
    group's lanes. -/
theorem blockMax_le (v3 : Vec Ideal S512x4096 .f32) (h2 : S512x32x128.Reduces [2] S512x32)
    (h0 : S512x32.Reduces [0] S32) (hφ hφ' : FKind.Formats .f32)
    (hacc : (0xFF800000#32 : BitVec FTy.f32.bits) = FKind.maximumf.neutral .f32 hφ)
    (hacc' : (0xFF800000#32 : BitVec FTy.f32.bits) = FKind.maximumf.neutral .f32 hφ') (g : Fin 32) (c : EReal) :
    multiReduction .maximumf [0] S32
          (multiReduction .maximumf [2] S512x32 (Gen.k0_pay3 v3) 0xFF800000#32 h2 hφ hacc) 0xFF800000#32 h0 hφ' hacc' (ix1 g) ≤ c
      ↔ ∀ (p : Fin 512) (l : Fin 128), v3 (ix2 p (col g l)) ≤ c := by
  rw [multiReduction_max_le, ofBits_negInf]
  constructor
  · rintro ⟨-, H⟩ p l
    have h1 := (multiReduction_max_le _ _ _ _ _ _ c).mp (H (ix2 p g) (drop_row h0 p g))
    have h3 := h1.2 (ix3 p g l) (drop_lane h2 p g l)
    rwa [pay3_apply] at h3
  · intro H
    refine ⟨bot_le, fun i hi => ?_⟩
    obtain ⟨p, g', rfl⟩ : ∃ p g', i = ix2 p g' := ⟨_, _, eq_ix2 i⟩
    rw [drop_row] at hi
    obtain rfl := ix1_inj hi
    rw [multiReduction_max_le, ofBits_negInf]
    refine ⟨bot_le, fun i' hi' => ?_⟩
    obtain ⟨p', g'', l, rfl⟩ : ∃ p' g'' l, i' = ix3 p' g'' l := ⟨_, _, _, eq_ix3 i'⟩
    rw [drop_lane] at hi'
    obtain ⟨rfl, rfl⟩ := ix2_inj hi'
    rw [pay3_apply]
    exact H _ _

/-- Upper bounds of the running maximum after a step. -/
theorem pay5_le (v3 : Vec Ideal S512x4096 .f32) (v17 : Vec Ideal S1x32 .f32) (g : Fin 32) (c : EReal) :
    Gen.k0_pay5 v3 v17 (ix2 (0 : Fin 1) g) ≤ c
      ↔ v17 (ix2 (0 : Fin 1) g) ≤ c ∧ ∀ (p : Fin 512) (l : Fin 128), v3 (ix2 p (col g l)) ≤ c := by
  unfold Gen.k0_pay5
  rw [shapeCast_self, maximumf_apply, max_le_iff, shapeCast_a_1a_apply]
  exact and_congr_right' (blockMax_le v3 _ _ _ _ _ _ g c)

/-- The running maximum starts at `⊥`. -/
theorem pay2_apply (g : Fin 32) : (Gen.k0_pay2 (F := Ideal)) (ix2 (0 : Fin 1) g) = (⊥ : EReal) := by
  unfold Gen.k0_pay2
  rw [shapeCast_self, broadcast_apply]
  exact ofBits_negInf

/-- After steps `0 … n` the running maximum of group `g` has as upper bounds exactly the upper bounds of the
    array over the rows below `512 (n + 1)` and the group's lanes. -/
theorem acc_max_le (X : FVec Ideal Cert.ReferenceIdeal.S16384x4096 .f32) (B : ℕ → Vec Ideal S512x4096 .f32)
    (hB : ∀ n, n < 32 → ∀ (p : Fin 512) (q : Fin 4096) (hr : 512 * n + p.val < 16384),
      B n (ix2 p q) = X (ix2 ⟨512 * n + p.val, hr⟩ q))
    (a : ℕ → Vec Ideal S1x32 .f32)
    (h0 : a 0 = Gen.k0_pay5 (B 0) (Gen.k0_pay2 (F := Ideal)))
    (hs : ∀ n, n + 1 < 32 → a (n + 1) = Gen.k0_pay5 (B (n + 1)) (a n))
    (g : Fin 32) : ∀ n, n < 32 → ∀ c : EReal,
      a n (ix2 (0 : Fin 1) g) ≤ c
        ↔ ∀ (r : Fin 16384) (l : Fin 128), r.val < 512 * (n + 1) → X (ix2 r (col g l)) ≤ c := by
  intro n
  induction n with
  | zero =>
    intro _ c
    rw [h0, pay5_le, pay2_apply, ← rows_step X (B 0) 0 (by omega) (hB 0 (by omega)) g (· ≤ c)]
    constructor
    · rintro ⟨-, H⟩
      exact ⟨fun r l hr => absurd hr (by omega), H⟩
    · rintro ⟨-, H⟩
      exact ⟨bot_le, H⟩
  | succ n ih =>
    intro hn c
    rw [hs n hn, pay5_le, ih (by omega) c, rows_step X (B (n + 1)) (n + 1) hn (hB (n + 1) hn) g (· ≤ c)]

/-- Upper bounds of the reduction over the row and lane axes of the 16384 × 32 × 128 view, from `-∞`. -/
theorem ref_max_le (X : FVec Ideal Cert.ReferenceIdeal.S16384x4096 .f32)
    (hc : Cert.ReferenceIdeal.S16384x4096.ShapeCasts Cert.ReferenceIdeal.S16384x32x128)
    (hr : Cert.ReferenceIdeal.S16384x32x128.ReducesTo [0, 2] Cert.ReferenceIdeal.S32)
    (hu : 0 < Cert.ReferenceIdeal.S_.numel) (g : Fin 32) (c : EReal) :
    Host.reduce FloatOps.maximumf (shapeCast Cert.ReferenceIdeal.S16384x32x128 X hc)
          (constant Cert.ReferenceIdeal.S_ .f32 0xFF800000#32) hr hu (ix1 g) ≤ c
      ↔ ∀ (r : Fin 16384) (l : Fin 128), X (ix2 r (col g l)) ≤ c := by
  rw [hostReduce_max_le]
  constructor
  · rintro ⟨-, H⟩ r l
    have h1 := H (ix3 r g l) (drop_row_lane hr r g l)
    rwa [view_apply] at h1
  · intro H
    refine ⟨?_, fun i hi => ?_⟩
    · rw [constant_apply, ofBits_negInf]
      exact bot_le
    · obtain ⟨r, g', l, rfl⟩ : ∃ r g' l, i = ix3 r g' l := ⟨_, _, _, eq_ix3 i⟩
      rw [drop_row_lane] at hi
      obtain rfl := ix1_inj hi
      rw [view_apply]
      exact H _ _

/-! ## The two agree -/

/-- Thirty-two steps, each folding one block of 512 rows into the running minimum and maximum of every
    group of 128 columns, give the minimum and the maximum of the whole array over all rows and the
    group's lanes: both sides have the same lower (upper) bounds. -/
theorem fold_min_max
    (X : FVec Ideal Cert.ReferenceIdeal.S16384x4096 .f32)
    (B : ℕ → Vec Ideal Cert.KernelIdeal.S512x4096 .f32)
    (hB : ∀ n, n < 32 → ∀ (p : Fin 512) (q : Fin 4096) (hr : 512 * n + p.val < 16384),
      B n (ix2 p q) = X (ix2 ⟨512 * n + p.val, hr⟩ q))
    (acc : ℕ → Vec Ideal Cert.KernelIdeal.S1x32 .f32 × Vec Ideal Cert.KernelIdeal.S1x32 .f32)
    (h0 : acc 0 = (Cert.KernelIdeal.Gen.k0_pay4 (B 0) (Cert.KernelIdeal.Gen.k0_pay1 (F := Ideal)),
      Cert.KernelIdeal.Gen.k0_pay5 (B 0) (Cert.KernelIdeal.Gen.k0_pay2 (F := Ideal))))
    (hs : ∀ n, n + 1 < 32 → acc (n + 1)
      = (Cert.KernelIdeal.Gen.k0_pay4 (B (n + 1)) (acc n).1, Cert.KernelIdeal.Gen.k0_pay5 (B (n + 1)) (acc n).2))
    (g : Fin 32) :
    (acc 31).1 (ix2 (0 : Fin 1) g)
        = Host.reduce FloatOps.minimumf
            (shapeCast Cert.ReferenceIdeal.S16384x32x128 X Cert.ReferenceIdeal.Gen.shapeCasts_S16384x4096_S16384x32x128)
            (constant Cert.ReferenceIdeal.S_ .f32 0x7F800000#32)
            Cert.ReferenceIdeal.Gen.reducesTo_S16384x32x128_S32_d0_2 Cert.ReferenceIdeal.Gen.h_S_ (ix1 g)
    ∧ (acc 31).2 (ix2 (0 : Fin 1) g)
        = Host.reduce FloatOps.maximumf
            (shapeCast Cert.ReferenceIdeal.S16384x32x128 X Cert.ReferenceIdeal.Gen.shapeCasts_S16384x4096_S16384x32x128)
            (constant Cert.ReferenceIdeal.S_ .f32 0xFF800000#32)
            Cert.ReferenceIdeal.Gen.reducesTo_S16384x32x128_S32_d0_2 Cert.ReferenceIdeal.Gen.h_S_ (ix1 g) := by
  constructor
  · have h0a : (acc 0).1 = Gen.k0_pay4 (B 0) (Gen.k0_pay1 (F := Ideal)) := by rw [h0]
    have hsa : ∀ n, n + 1 < 32 → (acc (n + 1)).1 = Gen.k0_pay4 (B (n + 1)) (acc n).1 := fun n hn => by rw [hs n hn]
    refine eq_of_forall_le_iff fun c => ?_
    have h := le_acc_min X B hB (fun n => (acc n).1) h0a hsa g 31 (by omega) c
    refine (h.trans ⟨fun H r l => H r l ?_, fun H r l _ => H r l⟩).trans (le_ref_min X _ _ _ g c).symm
    have := r.isLt
    omega
  · have h0a : (acc 0).2 = Gen.k0_pay5 (B 0) (Gen.k0_pay2 (F := Ideal)) := by rw [h0]
    have hsa : ∀ n, n + 1 < 32 → (acc (n + 1)).2 = Gen.k0_pay5 (B (n + 1)) (acc n).2 := fun n hn => by rw [hs n hn]
    refine eq_of_forall_ge_iff fun c => ?_
    have h := acc_max_le X B hB (fun n => (acc n).2) h0a hsa g 31 (by omega) c
    refine (h.trans ⟨fun H r l => H r l ?_, fun H r l _ => H r l⟩).trans (ref_max_le X _ _ _ g c).symm
    have := r.isLt
    omega

/-- The same for the second input's steps, whose bodies are the first's under other names. -/
theorem fold_min_max2
    (X : FVec Ideal Cert.ReferenceIdeal.S16384x4096 .f32)
    (B : ℕ → Vec Ideal Cert.KernelIdeal.S512x4096 .f32)
    (hB : ∀ n, n < 32 → ∀ (p : Fin 512) (q : Fin 4096) (hr : 512 * n + p.val < 16384),
      B n (ix2 p q) = X (ix2 ⟨512 * n + p.val, hr⟩ q))
    (acc : ℕ → Vec Ideal Cert.KernelIdeal.S1x32 .f32 × Vec Ideal Cert.KernelIdeal.S1x32 .f32)
    (h0 : acc 0 = (Cert.KernelIdeal.Gen.k2_pay4 (B 0) (Cert.KernelIdeal.Gen.k2_pay1 (F := Ideal)),
      Cert.KernelIdeal.Gen.k2_pay5 (B 0) (Cert.KernelIdeal.Gen.k2_pay2 (F := Ideal))))
    (hs : ∀ n, n + 1 < 32 → acc (n + 1)
      = (Cert.KernelIdeal.Gen.k2_pay4 (B (n + 1)) (acc n).1, Cert.KernelIdeal.Gen.k2_pay5 (B (n + 1)) (acc n).2))
    (g : Fin 32) :
    (acc 31).1 (ix2 (0 : Fin 1) g)
        = Host.reduce FloatOps.minimumf
            (shapeCast Cert.ReferenceIdeal.S16384x32x128 X Cert.ReferenceIdeal.Gen.shapeCasts_S16384x4096_S16384x32x128)
            (constant Cert.ReferenceIdeal.S_ .f32 0x7F800000#32)
            Cert.ReferenceIdeal.Gen.reducesTo_S16384x32x128_S32_d0_2 Cert.ReferenceIdeal.Gen.h_S_ (ix1 g)
    ∧ (acc 31).2 (ix2 (0 : Fin 1) g)
        = Host.reduce FloatOps.maximumf
            (shapeCast Cert.ReferenceIdeal.S16384x32x128 X Cert.ReferenceIdeal.Gen.shapeCasts_S16384x4096_S16384x32x128)
            (constant Cert.ReferenceIdeal.S_ .f32 0xFF800000#32)
            Cert.ReferenceIdeal.Gen.reducesTo_S16384x32x128_S32_d0_2 Cert.ReferenceIdeal.Gen.h_S_ (ix1 g) :=
  fold_min_max X B hB acc h0 hs g

end Cert.KernelIdeal.MinMax

end
-- ==== Proof.KI.Val0.lean ====
/-
  Region 0 of the quantizer, read off its arrays.  The region keeps, per group of 128 columns, a running minimum and a
  running maximum over all rows in two accumulators, and copies them after every point into two 1 × 32 output blocks that
  are the same block of their arrays at every point; those blocks are written back once, after the last of the 32 points.
  So each output array ends holding its accumulator after point 31: the one write-back's block is the whole array, read
  through zero offsets.  Besides, block n of the input is rows 512 n … 512 n + 511 of the input array.
  Everything holds at any float instance.
-/
import proofs.«128145_j1211180777498_1_alg».proof.Proof.KI.R0
import Idealize.ShloMosaic.Lib.Pipeline.Value
import Idealize.ShloMosaic.Lib.ValueIdx

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The last point of region 0's grid. -/
theorem last0 : 31 < cfg0.N := by rw [show cfg0.N = 32 from N_0]; omega

/-- The block indices over the grid: the input moves one block of rows per point, the two outputs stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Block n of the input is rows 512 n … 512 n + 511 of the input array. -/
theorem iblk0_at (c : Dev nD) (n : ℕ) (hn : n < cfg0.N) (p : Fin 512) (q : Fin 4096) (hr : 512 * n + p.val < 16384) :
    iblk0 V c 0 ⟨n, hn⟩ (ix2 p q) = V c (Pipeline.arrRef spec0 0) (ix2 (⟨512 * n + p.val, hr⟩ : Fin 16384) q) := by
  obtain ⟨e0, e1, -⟩ := idx0 ⟨n, hn⟩
  unfold iblk0
  rw [View.read_apply]
  show V c (Pipeline.arrRef spec0 0) _ = V c (Pipeline.arrRef spec0 0) _
  congr 1
  funext a
  apply Fin.ext
  match a with
  | ⟨0, _⟩ => show win0_0.index ⟨n, hn⟩ (0 : Fin 2) * 512 + 1 * p.val = 512 * n + p.val; rw [e0]; show n * 512 + 1 * p.val = _; omega
  | ⟨1, _⟩ => show win0_0.index ⟨n, hn⟩ (1 : Fin 2) * 4096 + 1 * q.val = q.val; rw [e1]; omega

/-- The first output's block at any point, cut out of a staging buffer's contents, is those contents read through the
    block: the block is the whole 1 × 32 array at zero offsets. -/
theorem cut0_1_eq_read (X : Vec F S1x32 .f32) (t : Fin cfg0.N) :
    (cfg0.win 1).cut (grid0.coords t) X = ((cfg0.win 1).blk t).view.read (Elt F) X := by
  obtain ⟨-, -, e0, e1, -⟩ := idx0 t
  funext j
  have hj0 : (j 0).val < 1 := (j 0).isLt
  show X ((cfg0.win 1).xinj (grid0.coords t) j) = X (((cfg0.win 1).blk t).view.emb j)
  refine congrArg X (funext fun a => Fin.ext ?_)
  match a with
  | ⟨0, _⟩ => show (j 0).val = win0_1.index t (0 : Fin 2) * 1 + 1 * (j 0).val; rw [e0]; omega
  | ⟨1, _⟩ => show (j 1).val = win0_1.index t (1 : Fin 2) * 32 + 1 * (j 1).val; rw [e1]; omega

/-- The same for the second output. -/
theorem cut0_2_eq_read (X : Vec F S1x32 .f32) (t : Fin cfg0.N) :
    (cfg0.win 2).cut (grid0.coords t) X = ((cfg0.win 2).blk t).view.read (Elt F) X := by
  obtain ⟨-, -, -, -, e0, e1⟩ := idx0 t
  funext j
  have hj0 : (j 0).val < 1 := (j 0).isLt
  show X ((cfg0.win 2).xinj (grid0.coords t) j) = X (((cfg0.win 2).blk t).view.emb j)
  refine congrArg X (funext fun a => Fin.ext ?_)
  match a with
  | ⟨0, _⟩ => show (j 0).val = win0_2.index t (0 : Fin 2) * 1 + 1 * (j 0).val; rw [e0]; omega
  | ⟨1, _⟩ => show (j 1).val = win0_2.index t (1 : Fin 2) * 32 + 1 * (j 1).val; rw [e1]; omega

/-- The one point that writes the outputs back is the last. -/
theorem flush0_1_last (t : Fin cfg0.N) (hf : (cfg0.win 1).flush t = true) : t = ⟨31, last0⟩ := by
  have hN : cfg0.N = 32 := N_0
  have h := (flush0_1 t).mp hf
  have hlt := t.isLt
  exact Fin.ext (by show t.val = 31; omega)
theorem flush0_2_last (t : Fin cfg0.N) (hf : (cfg0.win 2).flush t = true) : t = ⟨31, last0⟩ := by
  have hN : cfg0.N = 32 := N_0
  have h := (flush0_2 t).mp hf
  have hlt := t.isLt
  exact Fin.ext (by show t.val = 31; omega)

/-- What the write-back of the first output writes: the minimum accumulator after the last point, as a block. -/
theorem flushed0_1_eq (c : Dev nD) (t : Fin cfg0.N) (hf : (cfg0.win 1).flush t = true) :
    (dat0 V c).flushed 1 t = ((cfg0.win 1).blk t).view.read (Elt F) (accAt0 V c 31 last0).1 := by
  obtain rfl := flush0_1_last t hf
  show (cfg0.win 1).cut (grid0.coords ⟨31, last0⟩) ((dat0 V c).after 1 ⟨31, last0⟩) = _
  rw [after0_1]
  exact cut0_1_eq_read (accAt0 V c 31 last0).1 ⟨31, last0⟩

/-- What the write-back of the second output writes: the maximum accumulator after the last point, as a block. -/
theorem flushed0_2_eq (c : Dev nD) (t : Fin cfg0.N) (hf : (cfg0.win 2).flush t = true) :
    (dat0 V c).flushed 2 t = ((cfg0.win 2).blk t).view.read (Elt F) (accAt0 V c 31 last0).2 := by
  obtain rfl := flush0_2_last t hf
  show (cfg0.win 2).cut (grid0.coords ⟨31, last0⟩) ((dat0 V c).after 2 ⟨31, last0⟩) = _
  rw [after0_2]
  exact cut0_2_eq_read (accAt0 V c 31 last0).2 ⟨31, last0⟩

/-- Every index of the first output array is in the last point's block. -/
theorem covered0_1 (i : S1x32.Idx) :
    ∃ t : Fin cfg0.N, (cfg0.win 1).flush t = true ∧ i ∈ ((cfg0.win 1).blk t).view.set := by
  obtain ⟨-, -, e0, e1, -⟩ := idx0 ⟨31, last0⟩
  have hi0 : (i 0).val < 1 := (i 0).isLt
  have hi1 : (i 1).val < 32 := (i 1).isLt
  refine ⟨⟨31, last0⟩, (flush0_1 _).mpr rfl, ?_⟩
  show i ∈ ((View.whole (Pipeline.arrRef spec0 1)).slice (win0_1.rect ⟨31, last0⟩)).set
  rw [View.set_slice_whole, Rect.mem_set_unit]
  intro a
  match a with
  | ⟨0, _⟩ =>
    show win0_1.index ⟨31, last0⟩ (0 : Fin 2) * 1 ≤ (i 0).val ∧ (i 0).val < win0_1.index ⟨31, last0⟩ (0 : Fin 2) * 1 + 1
    rw [e0]; omega
  | ⟨1, _⟩ =>
    show win0_1.index ⟨31, last0⟩ (1 : Fin 2) * 32 ≤ (i 1).val ∧ (i 1).val < win0_1.index ⟨31, last0⟩ (1 : Fin 2) * 32 + 32
    rw [e1]; omega

/-- Every index of the second output array is in the last point's block. -/
theorem covered0_2 (i : S1x32.Idx) :
    ∃ t : Fin cfg0.N, (cfg0.win 2).flush t = true ∧ i ∈ ((cfg0.win 2).blk t).view.set := by
  obtain ⟨-, -, -, -, e0, e1⟩ := idx0 ⟨31, last0⟩
  have hi0 : (i 0).val < 1 := (i 0).isLt
  have hi1 : (i 1).val < 32 := (i 1).isLt
  refine ⟨⟨31, last0⟩, (flush0_2 _).mpr rfl, ?_⟩
  show i ∈ ((View.whole (Pipeline.arrRef spec0 2)).slice (win0_2.rect ⟨31, last0⟩)).set
  rw [View.set_slice_whole, Rect.mem_set_unit]
  intro a
  match a with
  | ⟨0, _⟩ =>
    show win0_2.index ⟨31, last0⟩ (0 : Fin 2) * 1 ≤ (i 0).val ∧ (i 0).val < win0_2.index ⟨31, last0⟩ (0 : Fin 2) * 1 + 1
    rw [e0]; omega
  | ⟨1, _⟩ =>
    show win0_2.index ⟨31, last0⟩ (1 : Fin 2) * 32 ≤ (i 1).val ∧ (i 1).val < win0_2.index ⟨31, last0⟩ (1 : Fin 2) * 32 + 32
    rw [e1]; omega

/-- THE FIRST OUTPUT ARRAY after region 0: the minimum accumulator after the last point. -/
theorem arrAt0_1 (c : Dev nD) : (dat0 V c).arrAt 1 cfg0.N = (accAt0 V c 31 last0).1 :=
  (dat0 V c).arrAt_eq_of_cover 1 (accAt0 V c 31 last0).1 (flushed0_1_eq V c) covered0_1

/-- THE SECOND OUTPUT ARRAY after region 0: the maximum accumulator after the last point. -/
theorem arrAt0_2 (c : Dev nD) : (dat0 V c).arrAt 2 cfg0.N = (accAt0 V c 31 last0).2 :=
  (dat0 V c).arrAt_eq_of_cover 2 (accAt0 V c 31 last0).2 (flushed0_2_eq V c) covered0_2

end Cert.KernelIdeal.Val

end
-- ==== Proof.KI.ValCommon.lean ====
/-
  The quantizer's arithmetic and layout, free of any one region.
  The input is a 16384 × 4096 array whose columns fall into 32 groups of 128; each group has a scale and a zero point
  (two 1 × 32 arrays).  An entry x of a column of group g is sent to
      (min(255, max(0, roundeven(x / s[g] + z[g]))) − z[g]) · s[g],
  with floats the extended reals.  A block of 256 rows is also seen as 256 × 32 × 128: entry (p, q) of the flat block is
  entry (p, q / 128, q % 128) of that view, and a 1 × 32 row of parameters, seen as 1 × 32 × 1 and broadcast along rows and
  lanes, is read at the group.
-/
import proofs.«128145_j1211180777498_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val

open Idealize.ShloMosaic Idealize.ShloMosaic.ValueIdx
open Cert.KernelIdeal Cert.KernelIdeal.Gen

/-! ## The specification -/

/-- one entry quantized and dequantized at scale s and zero point z -/
def qdq (x s z : Ideal .f32) : Ideal .f32 :=
  (min (Ideal.ofBits .f32 0x437F0000#32) (max (Ideal.ofBits .f32 0x00000000#32) (Ideal.liftRound Ideal.roundHalfEven (Ideal.div x s + z))) - z) * s

/-- the group of a column -/
def grp (q : Fin 4096) : Fin 32 := ⟨q.val / 128, by omega⟩

/-- The whole array quantized and dequantized: every entry at the scale and zero point of its column's group. -/
def G1 (X : FVec Ideal S16384x4096 .f32) (s z : FVec Ideal S1x32 .f32) : FVec Ideal S16384x4096 .f32 :=
  fun i => qdq (X i) (s (ix2 (0 : Fin 1) (grp (i 1)))) (z (ix2 (0 : Fin 1) (grp (i 1))))

/-- `G1` at an index whose column is named. -/
theorem G1_at (X : FVec Ideal S16384x4096 .f32) (s z : FVec Ideal S1x32 .f32) (i : S16384x4096.Idx) (q : Fin 4096)
    (hq : (i 1).val = q.val) :
    G1 X s z i = qdq (X i) (s (ix2 (0 : Fin 1) (grp q))) (z (ix2 (0 : Fin 1) (grp q))) := by
  have e : (i 1 : Fin 4096) = q := Fin.ext hq
  unfold G1
  rw [e]

/-! ## The layout operations, read at an index -/

/-- The flat 256 × 4096 view of a 256 × 32 × 128 block: column q is group q / 128, lane q % 128. -/
theorem cast_3d_2d {α : Type} (v : S256x32x128.Idx → α) (p : Fin 256) (q : Fin 4096) :
    shapeCast S256x4096 v shapeCasts_S256x32x128_S256x4096 (ix2 p q)
      = v (ix3 p (grp q) (⟨q.val % 128, Nat.mod_lt _ (by omega)⟩ : Fin 128)) :=
  shapeCast_apply v _ _ _ (by
    rw [Shape.rowMajor_val_three, Shape.rowMajor_val_two]
    show (p.val * 32 + q.val / 128) * 128 + q.val % 128 = p.val * 4096 + q.val
    omega)

/-- The 256 × 32 × 128 view of a flat block: group g, lane l is column 128 g + l. -/
theorem cast_2d_3d {α : Type} (v : S256x4096.Idx → α) (p : Fin 256) (g : Fin 32) (l : Fin 128) :
    shapeCast S256x32x128 v shapeCasts_S256x4096_S256x32x128 (ix3 p g l)
      = v (ix2 p (⟨g.val * 128 + l.val, by omega⟩ : Fin 4096)) :=
  shapeCast_apply v _ _ _ (by
    rw [Shape.rowMajor_val_three, Shape.rowMajor_val_two]
    show p.val * 4096 + (g.val * 128 + l.val) = (p.val * 32 + g.val) * 128 + l.val
    omega)

/-- A 1 × 32 row seen as 1 × 32 × 1 keeps its entries. -/
theorem cast_g_g1 {α : Type} (v : S1x32.Idx → α) (u : Fin 1) (g : Fin 32) (w : Fin 1) :
    shapeCast S1x32x1 v shapeCasts_S1x32_S1x32x1 (ix3 u g w) = v (ix2 (0 : Fin 1) g) :=
  shapeCast_apply v _ _ _ (by
    rw [Shape.rowMajor_val_three, Shape.rowMajor_val_two]
    have := u.isLt; have := w.isLt
    show 0 * 32 + g.val = (u.val * 32 + g.val) * 1 + w.val
    omega)

/-- A 1 × 32 × 1 array broadcast along rows and lanes is read at its group. -/
theorem bcast_g1 {α : Type} (v : S1x32x1.Idx → α) (p : Fin 256) (g : Fin 32) (l : Fin 128) :
    broadcastTo S256x32x128 v broadcasts_S1x32x1_S256x32x128 (ix3 p g l) = v (ix3 (0 : Fin 1) g (0 : Fin 1)) :=
  broadcastTo_apply v _ _ _ (fun a => by
    match a with
    | ⟨0, _⟩ => rfl
    | ⟨1, _⟩ => rfl
    | ⟨2, _⟩ => rfl)

/-- A column is 128 times its group plus its lane. -/
theorem col_of_grp (q : Fin 4096) (h : (grp q).val * 128 + q.val % 128 < 4096) :
    (⟨(grp q).val * 128 + q.val % 128, h⟩ : Fin 4096) = q :=
  Fin.ext (by show q.val / 128 * 128 + q.val % 128 = q.val; omega)

/-- Rounding to the nearest integer, ties to even, acts entry by entry. -/
theorem roundeven_at {s : Shape} {φ : FTy} (x : FVec Ideal s φ) (i : s.Idx) :
    roundeven x i = Ideal.liftRound Ideal.roundHalfEven (x i) := rfl

/-- The origin of a 256 × 4096 block and of a 1 × 32 row, as constant functions. -/
theorem hz_x256 : (![0, 0] : Fin S256x4096.rank → Nat) = fun _ => 0 :=
  funext fun a => by match a with | ⟨0, _⟩ => rfl | ⟨1, _⟩ => rfl
theorem hz_g32 : (![0, 0] : Fin S1x32.rank → Nat) = fun _ => 0 :=
  funext fun a => by match a with | ⟨0, _⟩ => rfl | ⟨1, _⟩ => rfl

end Cert.KernelIdeal.Val

end
-- ==== Proof.KI.Val1.lean ====
/-
  Region 1 of the quantizer, read as one function of whole arrays, with floats the extended reals.
  The region leaves in its output array, at row r and column q with g = q / 128,
      (min(255, max(0, roundeven(x[r, q] / s[g] + z[g]))) − z[g]) · s[g]
  of its input x, scale s and zero point z.  The proof goes from one entry of one block to the whole array.  First the
  body's arithmetic at an entry: the block is seen as 256 × 32 × 128, and the scale and the zero point, broadcast along rows
  and lanes, are read at the group q / 128.  Then the blocks: block t of the input is rows 256 t … 256 t + 255, the scale and
  the zero point are one block at every point, and what point t writes back is block t of the function above.  Last the
  cover: row r lies in the block of point r / 256, so the blocks fill the array.
-/
import proofs.«128145_j1211180777498_1_alg».proof.Proof.KI.R1
import proofs.«128145_j1211180777498_1_alg».proof.Proof.KI.ValCommon
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

/-! ## The body's arithmetic at an entry -/

/-- The body's arithmetic at row p, column q of a block: the entry quantized and dequantized at the scale and the zero
    point of the column's group. -/
theorem pay1_at (x0 : Vec Ideal S256x4096 .f32) (x1 x2 : Vec Ideal S1x32 .f32) (p : Fin 256) (q : Fin 4096) :
    k1_pay1 x0 x1 x2 (ix2 p q) = qdq (x0 (ix2 p q)) (x1 (ix2 (0 : Fin 1) (grp q))) (x2 (ix2 (0 : Fin 1) (grp q))) := by
  unfold k1_pay1
  refine (cast_3d_2d _ p q).trans ?_
  have eA : shapeCast S256x32x128 (shapeCast S256x4096 x0 shapeCasts_S256x4096_S256x4096) shapeCasts_S256x4096_S256x32x128
      (ix3 p (grp q) (⟨q.val % 128, Nat.mod_lt _ (by omega)⟩ : Fin 128)) = x0 (ix2 p q) :=
    (cast_2d_3d _ p (grp q) _).trans ((congrFun (shapeCast_self x0 _) _).trans (congrArg (fun c => x0 (ix2 p c)) (col_of_grp q _)))
  have eS : broadcastTo S256x32x128 (shapeCast S1x32x1 (shapeCast S1x32 x1 shapeCasts_S1x32_S1x32) shapeCasts_S1x32_S1x32x1) broadcasts_S1x32x1_S256x32x128
      (ix3 p (grp q) (⟨q.val % 128, Nat.mod_lt _ (by omega)⟩ : Fin 128)) = x1 (ix2 (0 : Fin 1) (grp q)) :=
    (bcast_g1 _ p (grp q) _).trans ((cast_g_g1 _ 0 (grp q) 0).trans (congrFun (shapeCast_self x1 _) _))
  have eZ : broadcastTo S256x32x128 (shapeCast S1x32x1 (shapeCast S1x32 x2 shapeCasts_S1x32_S1x32) shapeCasts_S1x32_S1x32x1) broadcasts_S1x32x1_S256x32x128
      (ix3 p (grp q) (⟨q.val % 128, Nat.mod_lt _ (by omega)⟩ : Fin 128)) = x2 (ix2 (0 : Fin 1) (grp q)) :=
    (bcast_g1 _ p (grp q) _).trans ((cast_g_g1 _ 0 (grp q) 0).trans (congrFun (shapeCast_self x2 _) _))
  unfold qdq
  simp only [mulf_apply, subf_apply, minimumf_apply, maximumf_apply, roundeven_at, addf_apply, divf_apply, broadcast_apply,
    Ideal.ofBits_def]
  rw [eA, eS, eZ]

/-- What the body leaves in the output block at (p, q): its one store covers the block and its loads read whole blocks. -/
theorem out1_3_at (x0 : Vec Ideal S256x4096 .f32) (x1 x2 : Vec Ideal S1x32 .f32) (p : Fin 256) (q : Fin 4096) :
    out1_3 x0 x1 x2 (ix2 p q) = qdq (x0 (ix2 p q)) (x1 (ix2 (0 : Fin 1) (grp q))) (x2 (ix2 (0 : Fin 1) (grp q))) := by
  unfold out1_3
  rw [View.canon_unit_zero hz_x256]
  simp only [View.ld_unit_zero (S := S256x4096) hz_x256, View.ld_unit_zero (S := S1x32) hz_g32]
  exact pay1_at x0 x1 x2 p q

/-- One point against the whole array: if the input block's entry (p, q) is the array's entry i, whose column is q, and the
    two parameter blocks are the parameter arrays at q's group, the body's result at (p, q) is `G1` at i. -/
theorem point1_eq (X : FVec Ideal S16384x4096 .f32) (s z : FVec Ideal S1x32 .f32)
    (x0 : Vec Ideal S256x4096 .f32) (x1 x2 : Vec Ideal S1x32 .f32) (p : Fin 256) (q : Fin 4096) (i : S16384x4096.Idx)
    (hq : (i 1).val = q.val) (h0 : x0 (ix2 p q) = X i)
    (h1 : x1 (ix2 (0 : Fin 1) (grp q)) = s (ix2 (0 : Fin 1) (grp q)))
    (h2 : x2 (ix2 (0 : Fin 1) (grp q)) = z (ix2 (0 : Fin 1) (grp q))) :
    out1_3 x0 x1 x2 (ix2 p q) = G1 X s z i := by
  rw [out1_3_at, G1_at X s z i q hq, h0, h1, h2]

/-! ## From blocks to the array -/

variable (V : (c : Dev nD) → (b : Ref sig .tc) → Buf (Elt Ideal) ((c : Thread nD τ).loc b))

/-- The block indices over the grid: the input and the output move one block of rows per point, the scale and the zero
    point stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the input is rows 256 t … 256 t + 255 of the input array. -/
theorem iblk1_0_at (c : Dev nD) (t : Fin cfg1.N) (p : Fin 256) (q : Fin 4096) (i : S16384x4096.Idx)
    (h0 : (i 0).val = 256 * t.val + p.val) (h1 : (i 1).val = q.val) :
    iblk1 V c 0 t (ix2 p q) = V c (Pipeline.arrRef spec1 0) i := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 256 + 1 * p.val = (i 0).val; rw [e0, h0]; omega
  | ⟨1, _⟩ => show win1_0.index t (1 : Fin 2) * 4096 + 1 * q.val = (i 1).val; rw [e1, h1]; omega

/-- The scale's block at every point is the scale array. -/
theorem iblk1_1_at (c : Dev nD) (t : Fin cfg1.N) (g : Fin 32) :
    iblk1 V c 1 t (ix2 (0 : Fin 1) g) = V c (Pipeline.arrRef spec1 1) (ix2 (0 : Fin 1) g) := by
  obtain ⟨-, -, e0, e1, -⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; rw [e0]
  | ⟨1, _⟩ => show win1_1.index t (1 : Fin 2) * 32 + 1 * g.val = g.val; rw [e1]; omega

/-- The zero point's block at every point is the zero-point array. -/
theorem iblk1_2_at (c : Dev nD) (t : Fin cfg1.N) (g : Fin 32) :
    iblk1 V c 2 t (ix2 (0 : Fin 1) g) = V c (Pipeline.arrRef spec1 2) (ix2 (0 : Fin 1) g) := by
  obtain ⟨-, -, -, -, e0, e1, -⟩ := idx1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; rw [e0]
  | ⟨1, _⟩ => show win1_2.index t (1 : Fin 2) * 32 + 1 * g.val = g.val; rw [e1]; omega

/-- What point t writes back is block t of `G1` of the arrays as the region finds them. -/
theorem flushed1_3_eq (c : Dev nD) (t : Fin cfg1.N) :
    (dat1 (F := Ideal) V c).flushed 3 t
      = ((cfg1.win 3).blk t).view.read (Elt Ideal)
          (G1 (V c (Pipeline.arrRef spec1 0)) (V c (Pipeline.arrRef spec1 1)) (V c (Pipeline.arrRef spec1 2))) := by
  show (cfg1.win 3).cut (grid1.coords t) ((dat1 V c).after 3 t) = _
  rw [after1_3]
  obtain ⟨-, -, -, -, -, -, e0, e1⟩ := idx1 t
  funext j
  have hj0 : (j 0).val < 256 := (j 0).isLt
  have hj1 : (j 1).val < 4096 := (j 1).isLt
  have hx : (cfg1.win 3).xinj (grid1.coords t) j = ix2 (⟨(j 0).val, hj0⟩ : Fin 256) (⟨(j 1).val, hj1⟩ : Fin 4096) :=
    funext fun a => by match a with | ⟨0, _⟩ => rfl | ⟨1, _⟩ => rfl
  show out1_3 (iblk1 V c 0 t) (iblk1 V c 1 t) (iblk1 V c 2 t) ((cfg1.win 3).xinj (grid1.coords t) j)
    = G1 (V c (Pipeline.arrRef spec1 0)) (V c (Pipeline.arrRef spec1 1)) (V c (Pipeline.arrRef spec1 2))
        (((cfg1.win 3).blk t).view.emb j)
  refine (congrArg (out1_3 (iblk1 V c 0 t) (iblk1 V c 1 t) (iblk1 V c 2 t)) hx).trans ?_
  have k0 : ((((cfg1.win 3).blk t).view.emb j) 0).val = 256 * t.val + (j 0).val := by
    show win1_3.index t (0 : Fin 2) * 256 + 1 * (j 0).val = _; rw [e0]; omega
  have k1 : ((((cfg1.win 3).blk t).view.emb j) 1).val = (j 1).val := by
    show win1_3.index t (1 : Fin 2) * 4096 + 1 * (j 1).val = _; rw [e1]; omega
  exact point1_eq (V c (Pipeline.arrRef spec1 0)) (V c (Pipeline.arrRef spec1 1)) (V c (Pipeline.arrRef spec1 2))
    (iblk1 V c 0 t) (iblk1 V c 1 t) (iblk1 V c 2 t)
    ⟨(j 0).val, hj0⟩ ⟨(j 1).val, hj1⟩ (((cfg1.win 3).blk t).view.emb j) k1
    (iblk1_0_at V c t _ _ _ k0 k1) (iblk1_1_at V c t _) (iblk1_2_at V c t _)

/-- An index of the output array is in point t's block iff each coordinate is in the block's range on its axis. -/
theorem mem_blk1_3 (t : Fin cfg1.N) (i : S16384x4096.Idx) :
    i ∈ ((cfg1.win 3).blk t).view.set ↔ ∀ a : Fin 2, win1_3.index t a * S256x4096.size a ≤ (i a).val
      ∧ (i a).val < win1_3.index t a * S256x4096.size a + S256x4096.size a := by
  show i ∈ ((View.whole (Pipeline.arrRef spec1 3)).slice (win1_3.rect t)).set ↔ _
  rw [View.set_slice_whole, Rect.mem_set_unit]
  exact Iff.rfl

/-- Every index of the output array is in some point's block: row r is in the block of point r / 256. -/
theorem covered1_3 (i : S16384x4096.Idx) :
    ∃ t : Fin cfg1.N, (cfg1.win 3).flush t = true ∧ i ∈ ((cfg1.win 3).blk t).view.set := by
  have hN : cfg1.N = 64 := N_1
  have hi0 : (i 0).val < 16384 := (i 0).isLt
  have hi1 : (i 1).val < 4096 := (i 1).isLt
  have ht : (i 0).val / 256 < cfg1.N := by rw [hN]; omega
  obtain ⟨-, -, -, -, -, -, e0, e1⟩ := idx1 ⟨(i 0).val / 256, ht⟩
  refine ⟨⟨(i 0).val / 256, ht⟩, flush1_3 _, ?_⟩
  rw [mem_blk1_3]
  intro a
  match a with
  | ⟨0, _⟩ =>
    show win1_3.index ⟨(i 0).val / 256, ht⟩ (0 : Fin 2) * 256 ≤ (i 0).val
      ∧ (i 0).val < win1_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_3.index ⟨(i 0).val / 256, ht⟩ (1 : Fin 2) * 4096 ≤ (i 1).val
      ∧ (i 1).val < win1_3.index ⟨(i 0).val / 256, ht⟩ (1 : Fin 2) * 4096 + 4096
    rw [e1]; omega

/-- THE OUTPUT ARRAY after region 1: `G1` of the input, the scale and the zero point as the region finds them. -/
theorem arrAt1_3 (c : Dev nD) :
    (dat1 (F := Ideal) V c).arrAt 3 cfg1.N
      = G1 (V c (Pipeline.arrRef spec1 0)) (V c (Pipeline.arrRef spec1 1)) (V c (Pipeline.arrRef spec1 2)) :=
  (dat1 (F := Ideal) V c).arrAt_eq_of_cover 3
    (G1 (V c (Pipeline.arrRef spec1 0)) (V c (Pipeline.arrRef spec1 1)) (V c (Pipeline.arrRef spec1 2)))
    (fun t _ => flushed1_3_eq V c t) covered1_3

end Cert.KernelIdeal.Val

end
-- ==== Proof.KI.Val2.lean ====
/-
  Region 2 of the quantizer, read off its arrays.  The region keeps, per group of 128 columns, a running minimum and a
  running maximum over all rows in two accumulators, and copies them after every point into two 1 × 32 output blocks that
  are the same block of their arrays at every point; those blocks are written back once, after the last of the 32 points.
  So each output array ends holding its accumulator after point 31: the one write-back's block is the whole array, read
  through zero offsets.  Besides, block n of the input is rows 512 n … 512 n + 511 of the input array.
  Everything holds at any float instance.
-/
import proofs.«128145_j1211180777498_1_alg».proof.Proof.KI.R2
import Idealize.ShloMosaic.Lib.Pipeline.Value
import Idealize.ShloMosaic.Lib.ValueIdx

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The last point of region 2's grid. -/
theorem last2 : 31 < cfg2.N := by rw [show cfg2.N = 32 from N_2]; omega

/-- The block indices over the grid: the input moves one block of rows per point, the two outputs stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Block n of the input is rows 512 n … 512 n + 511 of the input array. -/
theorem iblk2_at (c : Dev nD) (n : ℕ) (hn : n < cfg2.N) (p : Fin 512) (q : Fin 4096) (hr : 512 * n + p.val < 16384) :
    iblk2 V c 0 ⟨n, hn⟩ (ix2 p q) = V c (Pipeline.arrRef spec2 0) (ix2 (⟨512 * n + p.val, hr⟩ : Fin 16384) q) := by
  obtain ⟨e0, e1, -⟩ := idx2 ⟨n, hn⟩
  unfold iblk2
  rw [View.read_apply]
  show V c (Pipeline.arrRef spec2 0) _ = V c (Pipeline.arrRef spec2 0) _
  congr 1
  funext a
  apply Fin.ext
  match a with
  | ⟨0, _⟩ => show win2_0.index ⟨n, hn⟩ (0 : Fin 2) * 512 + 1 * p.val = 512 * n + p.val; rw [e0]; show n * 512 + 1 * p.val = _; omega
  | ⟨1, _⟩ => show win2_0.index ⟨n, hn⟩ (1 : Fin 2) * 4096 + 1 * q.val = q.val; rw [e1]; omega

/-- The first output's block at any point, cut out of a staging buffer's contents, is those contents read through the
    block: the block is the whole 1 × 32 array at zero offsets. -/
theorem cut2_1_eq_read (X : Vec F S1x32 .f32) (t : Fin cfg2.N) :
    (cfg2.win 1).cut (grid2.coords t) X = ((cfg2.win 1).blk t).view.read (Elt F) X := by
  obtain ⟨-, -, e0, e1, -⟩ := idx2 t
  funext j
  have hj0 : (j 0).val < 1 := (j 0).isLt
  show X ((cfg2.win 1).xinj (grid2.coords t) j) = X (((cfg2.win 1).blk t).view.emb j)
  refine congrArg X (funext fun a => Fin.ext ?_)
  match a with
  | ⟨0, _⟩ => show (j 0).val = win2_1.index t (0 : Fin 2) * 1 + 1 * (j 0).val; rw [e0]; omega
  | ⟨1, _⟩ => show (j 1).val = win2_1.index t (1 : Fin 2) * 32 + 1 * (j 1).val; rw [e1]; omega

/-- The same for the second output. -/
theorem cut2_2_eq_read (X : Vec F S1x32 .f32) (t : Fin cfg2.N) :
    (cfg2.win 2).cut (grid2.coords t) X = ((cfg2.win 2).blk t).view.read (Elt F) X := by
  obtain ⟨-, -, -, -, e0, e1⟩ := idx2 t
  funext j
  have hj0 : (j 0).val < 1 := (j 0).isLt
  show X ((cfg2.win 2).xinj (grid2.coords t) j) = X (((cfg2.win 2).blk t).view.emb j)
  refine congrArg X (funext fun a => Fin.ext ?_)
  match a with
  | ⟨0, _⟩ => show (j 0).val = win2_2.index t (0 : Fin 2) * 1 + 1 * (j 0).val; rw [e0]; omega
  | ⟨1, _⟩ => show (j 1).val = win2_2.index t (1 : Fin 2) * 32 + 1 * (j 1).val; rw [e1]; omega

/-- The one point that writes the outputs back is the last. -/
theorem flush2_1_last (t : Fin cfg2.N) (hf : (cfg2.win 1).flush t = true) : t = ⟨31, last2⟩ := by
  have hN : cfg2.N = 32 := N_2
  have h := (flush2_1 t).mp hf
  have hlt := t.isLt
  exact Fin.ext (by show t.val = 31; omega)
theorem flush2_2_last (t : Fin cfg2.N) (hf : (cfg2.win 2).flush t = true) : t = ⟨31, last2⟩ := by
  have hN : cfg2.N = 32 := N_2
  have h := (flush2_2 t).mp hf
  have hlt := t.isLt
  exact Fin.ext (by show t.val = 31; omega)

/-- What the write-back of the first output writes: the minimum accumulator after the last point, as a block. -/
theorem flushed2_1_eq (c : Dev nD) (t : Fin cfg2.N) (hf : (cfg2.win 1).flush t = true) :
    (dat2 V c).flushed 1 t = ((cfg2.win 1).blk t).view.read (Elt F) (accAt2 V c 31 last2).1 := by
  obtain rfl := flush2_1_last t hf
  show (cfg2.win 1).cut (grid2.coords ⟨31, last2⟩) ((dat2 V c).after 1 ⟨31, last2⟩) = _
  rw [after2_1]
  exact cut2_1_eq_read (accAt2 V c 31 last2).1 ⟨31, last2⟩

/-- What the write-back of the second output writes: the maximum accumulator after the last point, as a block. -/
theorem flushed2_2_eq (c : Dev nD) (t : Fin cfg2.N) (hf : (cfg2.win 2).flush t = true) :
    (dat2 V c).flushed 2 t = ((cfg2.win 2).blk t).view.read (Elt F) (accAt2 V c 31 last2).2 := by
  obtain rfl := flush2_2_last t hf
  show (cfg2.win 2).cut (grid2.coords ⟨31, last2⟩) ((dat2 V c).after 2 ⟨31, last2⟩) = _
  rw [after2_2]
  exact cut2_2_eq_read (accAt2 V c 31 last2).2 ⟨31, last2⟩

/-- Every index of the first output array is in the last point's block. -/
theorem covered2_1 (i : S1x32.Idx) :
    ∃ t : Fin cfg2.N, (cfg2.win 1).flush t = true ∧ i ∈ ((cfg2.win 1).blk t).view.set := by
  obtain ⟨-, -, e0, e1, -⟩ := idx2 ⟨31, last2⟩
  have hi0 : (i 0).val < 1 := (i 0).isLt
  have hi1 : (i 1).val < 32 := (i 1).isLt
  refine ⟨⟨31, last2⟩, (flush2_1 _).mpr rfl, ?_⟩
  show i ∈ ((View.whole (Pipeline.arrRef spec2 1)).slice (win2_1.rect ⟨31, last2⟩)).set
  rw [View.set_slice_whole, Rect.mem_set_unit]
  intro a
  match a with
  | ⟨0, _⟩ =>
    show win2_1.index ⟨31, last2⟩ (0 : Fin 2) * 1 ≤ (i 0).val ∧ (i 0).val < win2_1.index ⟨31, last2⟩ (0 : Fin 2) * 1 + 1
    rw [e0]; omega
  | ⟨1, _⟩ =>
    show win2_1.index ⟨31, last2⟩ (1 : Fin 2) * 32 ≤ (i 1).val ∧ (i 1).val < win2_1.index ⟨31, last2⟩ (1 : Fin 2) * 32 + 32
    rw [e1]; omega

/-- Every index of the second output array is in the last point's block. -/
theorem covered2_2 (i : S1x32.Idx) :
    ∃ t : Fin cfg2.N, (cfg2.win 2).flush t = true ∧ i ∈ ((cfg2.win 2).blk t).view.set := by
  obtain ⟨-, -, -, -, e0, e1⟩ := idx2 ⟨31, last2⟩
  have hi0 : (i 0).val < 1 := (i 0).isLt
  have hi1 : (i 1).val < 32 := (i 1).isLt
  refine ⟨⟨31, last2⟩, (flush2_2 _).mpr rfl, ?_⟩
  show i ∈ ((View.whole (Pipeline.arrRef spec2 2)).slice (win2_2.rect ⟨31, last2⟩)).set
  rw [View.set_slice_whole, Rect.mem_set_unit]
  intro a
  match a with
  | ⟨0, _⟩ =>
    show win2_2.index ⟨31, last2⟩ (0 : Fin 2) * 1 ≤ (i 0).val ∧ (i 0).val < win2_2.index ⟨31, last2⟩ (0 : Fin 2) * 1 + 1
    rw [e0]; omega
  | ⟨1, _⟩ =>
    show win2_2.index ⟨31, last2⟩ (1 : Fin 2) * 32 ≤ (i 1).val ∧ (i 1).val < win2_2.index ⟨31, last2⟩ (1 : Fin 2) * 32 + 32
    rw [e1]; omega

/-- THE FIRST OUTPUT ARRAY after region 2: the minimum accumulator after the last point. -/
theorem arrAt2_1 (c : Dev nD) : (dat2 V c).arrAt 1 cfg2.N = (accAt2 V c 31 last2).1 :=
  (dat2 V c).arrAt_eq_of_cover 1 (accAt2 V c 31 last2).1 (flushed2_1_eq V c) covered2_1

/-- THE SECOND OUTPUT ARRAY after region 2: the maximum accumulator after the last point. -/
theorem arrAt2_2 (c : Dev nD) : (dat2 V c).arrAt 2 cfg2.N = (accAt2 V c 31 last2).2 :=
  (dat2 V c).arrAt_eq_of_cover 2 (accAt2 V c 31 last2).2 (flushed2_2_eq V c) covered2_2

end Cert.KernelIdeal.Val

end
-- ==== Proof.KI.Val3.lean ====
/-
  Region 3 of the quantizer, read as one function of whole arrays, with floats the extended reals.
  The region leaves in its output array, at row r and column q with g = q / 128,
      (min(255, max(0, roundeven(x[r, q] / s[g] + z[g]))) − z[g]) · s[g]
  of its input x, scale s and zero point z.  The proof goes from one entry of one block to the whole array.  First the
  body's arithmetic at an entry: the block is seen as 256 × 32 × 128, and the scale and the zero point, broadcast along rows
  and lanes, are read at the group q / 128.  Then the blocks: block t of the input is rows 256 t … 256 t + 255, the scale and
  the zero point are one block at every point, and what point t writes back is block t of the function above.  Last the
  cover: row r lies in the block of point r / 256, so the blocks fill the array.
-/
import proofs.«128145_j1211180777498_1_alg».proof.Proof.KI.R3
import proofs.«128145_j1211180777498_1_alg».proof.Proof.KI.ValCommon
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

/-! ## The body's arithmetic at an entry -/

/-- The body's arithmetic at row p, column q of a block: the entry quantized and dequantized at the scale and the zero
    point of the column's group. -/
theorem pay3_at (x0 : Vec Ideal S256x4096 .f32) (x1 x2 : Vec Ideal S1x32 .f32) (p : Fin 256) (q : Fin 4096) :
    k3_pay1 x0 x1 x2 (ix2 p q) = qdq (x0 (ix2 p q)) (x1 (ix2 (0 : Fin 1) (grp q))) (x2 (ix2 (0 : Fin 1) (grp q))) := by
  unfold k3_pay1
  refine (cast_3d_2d _ p q).trans ?_
  have eA : shapeCast S256x32x128 (shapeCast S256x4096 x0 shapeCasts_S256x4096_S256x4096) shapeCasts_S256x4096_S256x32x128
      (ix3 p (grp q) (⟨q.val % 128, Nat.mod_lt _ (by omega)⟩ : Fin 128)) = x0 (ix2 p q) :=
    (cast_2d_3d _ p (grp q) _).trans ((congrFun (shapeCast_self x0 _) _).trans (congrArg (fun c => x0 (ix2 p c)) (col_of_grp q _)))
  have eS : broadcastTo S256x32x128 (shapeCast S1x32x1 (shapeCast S1x32 x1 shapeCasts_S1x32_S1x32) shapeCasts_S1x32_S1x32x1) broadcasts_S1x32x1_S256x32x128
      (ix3 p (grp q) (⟨q.val % 128, Nat.mod_lt _ (by omega)⟩ : Fin 128)) = x1 (ix2 (0 : Fin 1) (grp q)) :=
    (bcast_g1 _ p (grp q) _).trans ((cast_g_g1 _ 0 (grp q) 0).trans (congrFun (shapeCast_self x1 _) _))
  have eZ : broadcastTo S256x32x128 (shapeCast S1x32x1 (shapeCast S1x32 x2 shapeCasts_S1x32_S1x32) shapeCasts_S1x32_S1x32x1) broadcasts_S1x32x1_S256x32x128
      (ix3 p (grp q) (⟨q.val % 128, Nat.mod_lt _ (by omega)⟩ : Fin 128)) = x2 (ix2 (0 : Fin 1) (grp q)) :=
    (bcast_g1 _ p (grp q) _).trans ((cast_g_g1 _ 0 (grp q) 0).trans (congrFun (shapeCast_self x2 _) _))
  unfold qdq
  simp only [mulf_apply, subf_apply, minimumf_apply, maximumf_apply, roundeven_at, addf_apply, divf_apply, broadcast_apply,
    Ideal.ofBits_def]
  rw [eA, eS, eZ]

/-- What the body leaves in the output block at (p, q): its one store covers the block and its loads read whole blocks. -/
theorem out3_3_at (x0 : Vec Ideal S256x4096 .f32) (x1 x2 : Vec Ideal S1x32 .f32) (p : Fin 256) (q : Fin 4096) :
    out3_3 x0 x1 x2 (ix2 p q) = qdq (x0 (ix2 p q)) (x1 (ix2 (0 : Fin 1) (grp q))) (x2 (ix2 (0 : Fin 1) (grp q))) := by
  unfold out3_3
  rw [View.canon_unit_zero hz_x256]
  simp only [View.ld_unit_zero (S := S256x4096) hz_x256, View.ld_unit_zero (S := S1x32) hz_g32]
  exact pay3_at x0 x1 x2 p q

/-- One point against the whole array: if the input block's entry (p, q) is the array's entry i, whose column is q, and the
    two parameter blocks are the parameter arrays at q's group, the body's result at (p, q) is `G1` at i. -/
theorem point3_eq (X : FVec Ideal S16384x4096 .f32) (s z : FVec Ideal S1x32 .f32)
    (x0 : Vec Ideal S256x4096 .f32) (x1 x2 : Vec Ideal S1x32 .f32) (p : Fin 256) (q : Fin 4096) (i : S16384x4096.Idx)
    (hq : (i 1).val = q.val) (h0 : x0 (ix2 p q) = X i)
    (h1 : x1 (ix2 (0 : Fin 1) (grp q)) = s (ix2 (0 : Fin 1) (grp q)))
    (h2 : x2 (ix2 (0 : Fin 1) (grp q)) = z (ix2 (0 : Fin 1) (grp q))) :
    out3_3 x0 x1 x2 (ix2 p q) = G1 X s z i := by
  rw [out3_3_at, G1_at X s z i q hq, h0, h1, h2]

/-! ## From blocks to the array -/

variable (V : (c : Dev nD) → (b : Ref sig .tc) → Buf (Elt Ideal) ((c : Thread nD τ).loc b))

/-- The block indices over the grid: the input and the output move one block of rows per point, the scale and the zero
    point stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block t of the input is rows 256 t … 256 t + 255 of the input array. -/
theorem iblk3_0_at (c : Dev nD) (t : Fin cfg3.N) (p : Fin 256) (q : Fin 4096) (i : S16384x4096.Idx)
    (h0 : (i 0).val = 256 * t.val + p.val) (h1 : (i 1).val = q.val) :
    iblk3 V c 0 t (ix2 p q) = V c (Pipeline.arrRef spec3 0) i := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 256 + 1 * p.val = (i 0).val; rw [e0, h0]; omega
  | ⟨1, _⟩ => show win3_0.index t (1 : Fin 2) * 4096 + 1 * q.val = (i 1).val; rw [e1, h1]; omega

/-- The scale's block at every point is the scale array. -/
theorem iblk3_1_at (c : Dev nD) (t : Fin cfg3.N) (g : Fin 32) :
    iblk3 V c 1 t (ix2 (0 : Fin 1) g) = V c (Pipeline.arrRef spec3 1) (ix2 (0 : Fin 1) g) := by
  obtain ⟨-, -, e0, e1, -⟩ := idx3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; rw [e0]
  | ⟨1, _⟩ => show win3_1.index t (1 : Fin 2) * 32 + 1 * g.val = g.val; rw [e1]; omega

/-- The zero point's block at every point is the zero-point array. -/
theorem iblk3_2_at (c : Dev nD) (t : Fin cfg3.N) (g : Fin 32) :
    iblk3 V c 2 t (ix2 (0 : Fin 1) g) = V c (Pipeline.arrRef spec3 2) (ix2 (0 : Fin 1) g) := by
  obtain ⟨-, -, -, -, e0, e1, -⟩ := idx3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 32 + 1 * g.val = g.val; rw [e1]; omega

/-- What point t writes back is block t of `G1` of the arrays as the region finds them. -/
theorem flushed3_3_eq (c : Dev nD) (t : Fin cfg3.N) :
    (dat3 (F := Ideal) V c).flushed 3 t
      = ((cfg3.win 3).blk t).view.read (Elt Ideal)
          (G1 (V c (Pipeline.arrRef spec3 0)) (V c (Pipeline.arrRef spec3 1)) (V c (Pipeline.arrRef spec3 2))) := by
  show (cfg3.win 3).cut (grid3.coords t) ((dat3 V c).after 3 t) = _
  rw [after3_3]
  obtain ⟨-, -, -, -, -, -, e0, e1⟩ := idx3 t
  funext j
  have hj0 : (j 0).val < 256 := (j 0).isLt
  have hj1 : (j 1).val < 4096 := (j 1).isLt
  have hx : (cfg3.win 3).xinj (grid3.coords t) j = ix2 (⟨(j 0).val, hj0⟩ : Fin 256) (⟨(j 1).val, hj1⟩ : Fin 4096) :=
    funext fun a => by match a with | ⟨0, _⟩ => rfl | ⟨1, _⟩ => rfl
  show out3_3 (iblk3 V c 0 t) (iblk3 V c 1 t) (iblk3 V c 2 t) ((cfg3.win 3).xinj (grid3.coords t) j)
    = G1 (V c (Pipeline.arrRef spec3 0)) (V c (Pipeline.arrRef spec3 1)) (V c (Pipeline.arrRef spec3 2))
        (((cfg3.win 3).blk t).view.emb j)
  refine (congrArg (out3_3 (iblk3 V c 0 t) (iblk3 V c 1 t) (iblk3 V c 2 t)) hx).trans ?_
  have k0 : ((((cfg3.win 3).blk t).view.emb j) 0).val = 256 * t.val + (j 0).val := by
    show win3_3.index t (0 : Fin 2) * 256 + 1 * (j 0).val = _; rw [e0]; omega
  have k3 : ((((cfg3.win 3).blk t).view.emb j) 1).val = (j 1).val := by
    show win3_3.index t (1 : Fin 2) * 4096 + 1 * (j 1).val = _; rw [e1]; omega
  exact point3_eq (V c (Pipeline.arrRef spec3 0)) (V c (Pipeline.arrRef spec3 1)) (V c (Pipeline.arrRef spec3 2))
    (iblk3 V c 0 t) (iblk3 V c 1 t) (iblk3 V c 2 t)
    ⟨(j 0).val, hj0⟩ ⟨(j 1).val, hj1⟩ (((cfg3.win 3).blk t).view.emb j) k3
    (iblk3_0_at V c t _ _ _ k0 k3) (iblk3_1_at V c t _) (iblk3_2_at V c t _)

/-- An index of the output array is in point t's block iff each coordinate is in the block's range on its axis. -/
theorem mem_blk3_3 (t : Fin cfg3.N) (i : S16384x4096.Idx) :
    i ∈ ((cfg3.win 3).blk t).view.set ↔ ∀ a : Fin 2, win3_3.index t a * S256x4096.size a ≤ (i a).val
      ∧ (i a).val < win3_3.index t a * S256x4096.size a + S256x4096.size a := by
  show i ∈ ((View.whole (Pipeline.arrRef spec3 3)).slice (win3_3.rect t)).set ↔ _
  rw [View.set_slice_whole, Rect.mem_set_unit]
  exact Iff.rfl

/-- Every index of the output array is in some point's block: row r is in the block of point r / 256. -/
theorem covered3_3 (i : S16384x4096.Idx) :
    ∃ t : Fin cfg3.N, (cfg3.win 3).flush t = true ∧ i ∈ ((cfg3.win 3).blk t).view.set := by
  have hN : cfg3.N = 64 := N_3
  have hi0 : (i 0).val < 16384 := (i 0).isLt
  have hi1 : (i 1).val < 4096 := (i 1).isLt
  have ht : (i 0).val / 256 < cfg3.N := by rw [hN]; omega
  obtain ⟨-, -, -, -, -, -, e0, e1⟩ := idx3 ⟨(i 0).val / 256, ht⟩
  refine ⟨⟨(i 0).val / 256, ht⟩, flush3_3 _, ?_⟩
  rw [mem_blk3_3]
  intro a
  match a with
  | ⟨0, _⟩ =>
    show win3_3.index ⟨(i 0).val / 256, ht⟩ (0 : Fin 2) * 256 ≤ (i 0).val
      ∧ (i 0).val < win3_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win3_3.index ⟨(i 0).val / 256, ht⟩ (1 : Fin 2) * 4096 ≤ (i 1).val
      ∧ (i 1).val < win3_3.index ⟨(i 0).val / 256, ht⟩ (1 : Fin 2) * 4096 + 4096
    rw [e1]; omega

/-- THE OUTPUT ARRAY after region 3: `G1` of the input, the scale and the zero point as the region finds them. -/
theorem arrAt3_3 (c : Dev nD) :
    (dat3 (F := Ideal) V c).arrAt 3 cfg3.N
      = G1 (V c (Pipeline.arrRef spec3 0)) (V c (Pipeline.arrRef spec3 1)) (V c (Pipeline.arrRef spec3 2)) :=
  (dat3 (F := Ideal) V c).arrAt_eq_of_cover 3
    (G1 (V c (Pipeline.arrRef spec3 0)) (V c (Pipeline.arrRef spec3 1)) (V c (Pipeline.arrRef spec3 2)))
    (fun t _ => flushed3_3_eq V c t) covered3_3

end Cert.KernelIdeal.Val

end
-- ==== Proof.RefSide.lean ====
/-
  The reference side of the value claim, entry by entry.  Per input the reference takes each group's minimum and maximum
  over all rows and the group's 128 columns, turns them into a scale  (max' − min) / 255  (max' = min + ε where max = min)
  and a zero point  0 − roundeven(min / scale),  and maps every entry x of the group to
  (min(255, max(0, roundeven(x / scale + zero))) − zero) · scale.  Here the stages of its run are read at an index down
  to those three scalar functions of the group's minimum and maximum; the two reshapes on the way undo each other.
-/
import proofs.«128145_j1211180777498_1_alg».proof.Proof.RefRead
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

variable {F : FTy → Type} [FloatOps F]

/-- A group's scale from its minimum and maximum, -/
def scS (mn mx : F .f32) : F .f32 :=
  FloatOps.hostDivf (FloatOps.subf (Scalar.select (FloatOps.cmpf .oeq mx mn) (FloatOps.addf mn (FloatOps.ofBits .f32 0x3727C5AC#32)) mx) mn) (FloatOps.ofBits .f32 0x437F0000#32)
/-- its zero point, -/
def zpS (mn mx : F .f32) : F .f32 :=
  FloatOps.subf (FloatOps.ofBits .f32 0x00000000#32) (FloatOps.hostUnary .roundeven (FloatOps.hostDivf mn (scS mn mx)))
/-- and one entry quantized and dequantized at a scale and a zero point. -/
def qdqS (x s z : F .f32) : F .f32 :=
  FloatOps.mulf (FloatOps.subf (FloatOps.minimumf (FloatOps.ofBits .f32 0x437F0000#32) (FloatOps.maximumf (FloatOps.ofBits .f32 0x00000000#32)
    (FloatOps.hostUnary .roundeven (FloatOps.addf (FloatOps.hostDivf x s) z)))) z) s

/-- The group of a column. -/
def grpR (q : Fin 4096) : Fin 32 := ⟨q.val / 128, by omega⟩

/-! ## Input 0 -/

/-- The reference's scale of group `g` is the scalar scale of that group's minimum and maximum, -/
theorem ref_scale0_at (a : (⟨S4x4096x4096, .f32⟩ : BufTy).Contents (Elt F)) (g : Fin 32) :
    val_main_v10 (F := F) a (ix1 g) = scS (val_main_v2 (F := F) a (ix1 g)) (val_main_v3 (F := F) a (ix1 g)) := by
  simp only [val_main_v10_apply, val_main_v8_apply, val_main_v7_apply, val_main_v4_apply, val_main_v6_apply, val_main_v5_apply,
    val_main_v9_apply, val_main_cst_1_apply, val_main_cst_2_apply]
  rfl

/-- and its zero point the scalar zero point. -/
theorem ref_zp0_at (a : (⟨S4x4096x4096, .f32⟩ : BufTy).Contents (Elt F)) (g : Fin 32) :
    val_main_v14 (F := F) a (ix1 g) = zpS (val_main_v2 (F := F) a (ix1 g)) (val_main_v3 (F := F) a (ix1 g)) := by
  simp only [val_main_v14_apply, val_main_v13_apply, val_main_cst_3_apply, val_main_v12_apply, val_main_v11_apply, ref_scale0_at]
  rfl

/-- Entry (r, q) of the 16384 × 32 × 128 view is entry (r, q) of the 16384 × 4096 array: the two reshapes undo each other. -/
theorem idx0_x (r : Fin 16384) (q : Fin 4096) : idx_main_v1 (idx_main_v27 (ix2 r q)) = ix2 r q := by
  funext d
  match d with
  | ⟨0, _⟩ => exact Fin.ext (by
      show (((r.val * 4096 + q.val) / 4096 * 32 + (r.val * 4096 + q.val) / 128 % 32) * 128 + (r.val * 4096 + q.val) % 128) / 4096 = r.val
      have := r.isLt; have := q.isLt; omega)
  | ⟨1, _⟩ => exact Fin.ext (by
      show (((r.val * 4096 + q.val) / 4096 * 32 + (r.val * 4096 + q.val) / 128 % 32) * 128 + (r.val * 4096 + q.val) % 128) % 4096 = q.val
      have := r.isLt; have := q.isLt; omega)

/-- The group coordinate of entry (r, q) in that view is q / 128, through each of the four broadcasts that read it. -/
theorem idx0_g17 (r : Fin 16384) (q : Fin 4096) : idx_main_v15 (idx_main_v17 (idx_main_v27 (ix2 r q))) = ix1 (grpR q) := by
  funext d
  match d with
  | ⟨0, _⟩ => exact Fin.ext (by show (r.val * 4096 + q.val) / 128 % 32 = q.val / 128; have := r.isLt; have := q.isLt; omega)
theorem idx0_g19 (r : Fin 16384) (q : Fin 4096) : idx_main_v16 (idx_main_v19 (idx_main_v27 (ix2 r q))) = ix1 (grpR q) := by
  funext d
  match d with
  | ⟨0, _⟩ => exact Fin.ext (by show (r.val * 4096 + q.val) / 128 % 32 = q.val / 128; have := r.isLt; have := q.isLt; omega)
theorem idx0_g23 (r : Fin 16384) (q : Fin 4096) : idx_main_v16 (idx_main_v23 (idx_main_v27 (ix2 r q))) = ix1 (grpR q) := by
  funext d
  match d with
  | ⟨0, _⟩ => exact Fin.ext (by show (r.val * 4096 + q.val) / 128 % 32 = q.val / 128; have := r.isLt; have := q.isLt; omega)
theorem idx0_g25 (r : Fin 16384) (q : Fin 4096) : idx_main_v15 (idx_main_v25 (idx_main_v27 (ix2 r q))) = ix1 (grpR q) := by
  funext d
  match d with
  | ⟨0, _⟩ => exact Fin.ext (by show (r.val * 4096 + q.val) / 128 % 32 = q.val / 128; have := r.isLt; have := q.isLt; omega)

/-- Entry (r, q) of the reference's 16384 × 4096 result: the entry of the reshaped input quantized and dequantized at
    its group's scale and zero point. -/
theorem ref_out0_at (a : (⟨S4x4096x4096, .f32⟩ : BufTy).Contents (Elt F)) (r : Fin 16384) (q : Fin 4096) :
    val_main_v27 (F := F) a (ix2 r q)
      = qdqS (val_main_v0 (F := F) a (ix2 r q)) (val_main_v10 (F := F) a (ix1 (grpR q))) (val_main_v14 (F := F) a (ix1 (grpR q))) := by
  simp only [val_main_v27_apply, val_main_v26_apply, val_main_v24_apply, val_main_v22_apply, val_main_call3_v4_apply, val_main_call3_v3_apply,
    val_main_cst_5_apply, val_main_call3_v2_apply, val_main_call3_v1_apply, val_main_call3_v0_apply, val_main_cst_4_apply, val_main_v21_apply,
    val_main_v20_apply, val_main_v18_apply, val_main_v17_apply, val_main_v15_apply, val_main_v19_apply, val_main_v16_apply,
    val_main_v23_apply, val_main_v25_apply, val_main_v1_apply, idx0_x, idx0_g17, idx0_g19, idx0_g23, idx0_g25]
  rfl

/-! ## Input 1 -/

/-- The reference's scale of group `g` is the scalar scale of that group's minimum and maximum, -/
theorem ref_scale1_at (a : (⟨S4x4096x4096, .f32⟩ : BufTy).Contents (Elt F)) (g : Fin 32) :
    val_main_v39 (F := F) a (ix1 g) = scS (val_main_v31 (F := F) a (ix1 g)) (val_main_v32 (F := F) a (ix1 g)) := by
  simp only [val_main_v39_apply, val_main_v37_apply, val_main_v36_apply, val_main_v33_apply, val_main_v35_apply, val_main_v34_apply,
    val_main_v38_apply, val_main_cst_8_apply, val_main_cst_9_apply]
  rfl

/-- and its zero point the scalar zero point. -/
theorem ref_zp1_at (a : (⟨S4x4096x4096, .f32⟩ : BufTy).Contents (Elt F)) (g : Fin 32) :
    val_main_v43 (F := F) a (ix1 g) = zpS (val_main_v31 (F := F) a (ix1 g)) (val_main_v32 (F := F) a (ix1 g)) := by
  simp only [val_main_v43_apply, val_main_v42_apply, val_main_cst_10_apply, val_main_v41_apply, val_main_v40_apply, ref_scale1_at]
  rfl

/-- Entry (r, q) of the 16384 × 32 × 128 view is entry (r, q) of the 16384 × 4096 array: the two reshapes undo each other. -/
theorem idx1_x (r : Fin 16384) (q : Fin 4096) : idx_main_v30 (idx_main_v56 (ix2 r q)) = ix2 r q := by
  funext d
  match d with
  | ⟨0, _⟩ => exact Fin.ext (by
      show (((r.val * 4096 + q.val) / 4096 * 32 + (r.val * 4096 + q.val) / 128 % 32) * 128 + (r.val * 4096 + q.val) % 128) / 4096 = r.val
      have := r.isLt; have := q.isLt; omega)
  | ⟨1, _⟩ => exact Fin.ext (by
      show (((r.val * 4096 + q.val) / 4096 * 32 + (r.val * 4096 + q.val) / 128 % 32) * 128 + (r.val * 4096 + q.val) % 128) % 4096 = q.val
      have := r.isLt; have := q.isLt; omega)

/-- The group coordinate of entry (r, q) in that view is q / 128, through each of the four broadcasts that read it. -/
theorem idx1_g17 (r : Fin 16384) (q : Fin 4096) : idx_main_v44 (idx_main_v46 (idx_main_v56 (ix2 r q))) = ix1 (grpR q) := by
  funext d
  match d with
  | ⟨0, _⟩ => exact Fin.ext (by show (r.val * 4096 + q.val) / 128 % 32 = q.val / 128; have := r.isLt; have := q.isLt; omega)
theorem idx1_g19 (r : Fin 16384) (q : Fin 4096) : idx_main_v45 (idx_main_v48 (idx_main_v56 (ix2 r q))) = ix1 (grpR q) := by
  funext d
  match d with
  | ⟨0, _⟩ => exact Fin.ext (by show (r.val * 4096 + q.val) / 128 % 32 = q.val / 128; have := r.isLt; have := q.isLt; omega)
theorem idx1_g23 (r : Fin 16384) (q : Fin 4096) : idx_main_v45 (idx_main_v52 (idx_main_v56 (ix2 r q))) = ix1 (grpR q) := by
  funext d
  match d with
  | ⟨0, _⟩ => exact Fin.ext (by show (r.val * 4096 + q.val) / 128 % 32 = q.val / 128; have := r.isLt; have := q.isLt; omega)
theorem idx1_g25 (r : Fin 16384) (q : Fin 4096) : idx_main_v44 (idx_main_v54 (idx_main_v56 (ix2 r q))) = ix1 (grpR q) := by
  funext d
  match d with
  | ⟨0, _⟩ => exact Fin.ext (by show (r.val * 4096 + q.val) / 128 % 32 = q.val / 128; have := r.isLt; have := q.isLt; omega)

/-- Entry (r, q) of the reference's 16384 × 4096 result: the entry of the reshaped input quantized and dequantized at
    its group's scale and zero point. -/
theorem ref_out1_at (a : (⟨S4x4096x4096, .f32⟩ : BufTy).Contents (Elt F)) (r : Fin 16384) (q : Fin 4096) :
    val_main_v56 (F := F) a (ix2 r q)
      = qdqS (val_main_v29 (F := F) a (ix2 r q)) (val_main_v39 (F := F) a (ix1 (grpR q))) (val_main_v43 (F := F) a (ix1 (grpR q))) := by
  simp only [val_main_v56_apply, val_main_v55_apply, val_main_v53_apply, val_main_v51_apply, val_main_call7_v4_apply, val_main_call7_v3_apply,
    val_main_cst_12_apply, val_main_call7_v2_apply, val_main_call7_v1_apply, val_main_call7_v0_apply, val_main_cst_11_apply, val_main_v50_apply,
    val_main_v49_apply, val_main_v47_apply, val_main_v46_apply, val_main_v44_apply, val_main_v48_apply, val_main_v45_apply,
    val_main_v52_apply, val_main_v54_apply, val_main_v30_apply, idx1_x, idx1_g17, idx1_g19, idx1_g23, idx1_g25]
  rfl

end Cert.ReferenceIdeal.RefValue

end
-- ==== Proof.KI.Value.lean ====
/-
  The value claim's kernel side, joined to the reference's.  At the ideal instance (floats are extended reals) the
  kernel's first result is: the first input reshaped to 16384 × 4096; each group of 128 columns' minimum and maximum over
  all rows (the min/max region's accumulators after its last point, which equal the reference's two reduces because
  min and max are associative, commutative and idempotent with neutral +∞ / −∞); from those the scale and zero point;
  every entry mapped by  x ↦ (min(255, max(0, roundeven(x / s + z))) − z) · s  at its group's s and z (the quantize
  region, block by block); reshaped back.  The reference computes the same numbers with one reduce per extremum and
  one host expression over the whole array, so the two results agree entry by entry with no use of finiteness; likewise
  for the second input.
-/
import proofs.«128145_j1211180777498_1_alg».proof.Proof.KI.Host
import proofs.«128145_j1211180777498_1_alg».proof.Proof.KI.MinMax
import proofs.«128145_j1211180777498_1_alg».proof.Proof.KI.Val0
import proofs.«128145_j1211180777498_1_alg».proof.Proof.KI.Val1
import proofs.«128145_j1211180777498_1_alg».proof.Proof.KI.Val2
import proofs.«128145_j1211180777498_1_alg».proof.Proof.KI.Val3
import proofs.«128145_j1211180777498_1_alg».proof.Proof.RefSide

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.KernelIdeal.Run
open Cert.ReferenceIdeal.RefValue (scS zpS qdqS grpR)

variable (m : (ℓ : Loc nD τ sig) → Buf (Elt Ideal) ℓ) (c : Dev nD)

/-- Entry by entry the host's scale and zero point are the scalar ones, and the quantize map is the reference's. -/
theorem scaleOf_at (mn mx : FVec Ideal S1x32 .f32) (g : Fin 32) :
    scaleOf mn mx (ix2 (0 : Fin 1) g) = scS (F := Ideal) (mn (ix2 (0 : Fin 1) g)) (mx (ix2 (0 : Fin 1) g)) := rfl
theorem zpOf_at (mn mx : FVec Ideal S1x32 .f32) (g : Fin 32) :
    zpOf mn mx (ix2 (0 : Fin 1) g) = zpS (F := Ideal) (mn (ix2 (0 : Fin 1) g)) (mx (ix2 (0 : Fin 1) g)) := rfl
theorem qdq_eq (x s z : Ideal .f32) : qdq x s z = qdqS (F := Ideal) x s z := rfl

/-! ## Input 0 -/

/-- What the min/max region leaves for group `g` is the reference's two reduces of the reshaped input at `g`: the
    region's blocks are 512 consecutive rows each, and its accumulators fold them in from +∞ and −∞. -/
theorem minmax0_at (g : Fin 32) :
    W2 m c (Proc.devRef .tc main_v1_0) (ix2 (0 : Fin 1) g)
        = Cert.ReferenceIdeal.ReadP.val_main_v2 (F := Ideal) (m ((c : Thread nD τ).loc main_arg0)) (ix1 g)
    ∧ W2 m c (Proc.devRef .tc main_v1_1) (ix2 (0 : Fin 1) g)
        = Cert.ReferenceIdeal.ReadP.val_main_v3 (F := Ideal) (m ((c : Thread nD τ).loc main_arg0)) (ix1 g) := by
  have hN : cfg0.N = 32 := N_0
  have hX : Run.V1 m c main_v0 = Cert.ReferenceIdeal.ReadP.val_main_v0 (F := Ideal) (m ((c : Thread nD τ).loc main_arg0)) := (W1_main_v0 m c).trans rfl
  rw [show W2 m c (Proc.devRef .tc main_v1_0) = (dat0 (Run.V1 m) c).arrAt 1 cfg0.N from W2_arr m c 1,
    show W2 m c (Proc.devRef .tc main_v1_1) = (dat0 (Run.V1 m) c).arrAt 2 cfg0.N from W2_arr m c 2, arrAt0_1, arrAt0_2]
  exact Cert.KernelIdeal.MinMax.fold_min_max (Cert.ReferenceIdeal.ReadP.val_main_v0 (F := Ideal) (m ((c : Thread nD τ).loc main_arg0)))
    (fun n => if h : n < cfg0.N then iblk0 (Run.V1 m) c 0 ⟨n, h⟩ else iblk0 (Run.V1 m) c 0 ⟨0, by omega⟩)
    (fun n hn p q hr => by rw [dif_pos (show n < cfg0.N by omega), iblk0_at (Run.V1 m) c n _ p q hr, hX])
    (fun n => if h : n < cfg0.N then accAt0 (Run.V1 m) c n h else accAt0 (Run.V1 m) c 0 (by omega))
    (by rw [dif_pos (show 0 < cfg0.N by omega), dif_pos (show 0 < cfg0.N by omega)]; rfl)
    (fun n hn => by
      rw [dif_pos (show n + 1 < cfg0.N by omega), dif_pos (show n + 1 < cfg0.N by omega), dif_pos (show n < cfg0.N by omega)]; rfl)
    g

/-- The quantize region's output array is the reference's 16384 × 4096 result, entry by entry: the same scalar map at the
    same scale and zero point, which are the same scalar functions of the group's minimum and maximum. -/
theorem out0_eq :
    W8 m c (Proc.devRef .tc main_v13) = Cert.ReferenceIdeal.ReadP.val_main_v27 (F := Ideal) (m ((c : Thread nD τ).loc main_arg0)) := by
  funext j
  obtain ⟨r, q, rfl⟩ : ∃ (r : Fin 16384) (q : Fin 4096), j = ix2 r q := ⟨j 0, j 1, eq_ix2 j⟩
  have hW : W8 m c (Proc.devRef .tc main_v13) = G1 (Run.V7 m c main_v0) (Run.V7 m c main_v8) (Run.V7 m c main_v12) :=
    (W8_arr m c 3).trans (arrAt1_3 (Run.V7 m) c)
  rw [hW, G1_at _ _ _ (ix2 r q) q rfl]
  show qdq (W7 m c (Proc.devRef .tc main_v0) (ix2 r q)) (W7 m c (Proc.devRef .tc main_v8) (ix2 (0 : Fin 1) (grp q)))
      (W7 m c (Proc.devRef .tc main_v12) (ix2 (0 : Fin 1) (grp q))) = _
  rw [W7_main_v0, W2_main_v0, W1_main_v0, W7_main_v8, W7_main_v12, scaleOf_at, zpOf_at, (minmax0_at m c (grp q)).1, (minmax0_at m c (grp q)).2,
    Cert.ReferenceIdeal.RefValue.ref_out0_at, Cert.ReferenceIdeal.RefValue.ref_scale0_at, Cert.ReferenceIdeal.RefValue.ref_zp0_at]
  rfl

/-- The result is that array reshaped, on both sides. -/
theorem res0_eq :
    W17 m c (Proc.devRef .tc main_v14) = Cert.ReferenceIdeal.ReadP.val_main_v28 (F := Ideal) (m ((c : Thread nD τ).loc main_arg0)) := by
  rw [W17_main_v14, W9_main_v14, out0_eq]
  rfl

/-! ## Input 1 -/

/-- What the min/max region leaves for group `g` is the reference's two reduces of the reshaped input at `g`: the
    region's blocks are 512 consecutive rows each, and its accumulators fold them in from +∞ and −∞. -/
theorem minmax1_at (g : Fin 32) :
    W10 m c (Proc.devRef .tc main_v16_0) (ix2 (0 : Fin 1) g)
        = Cert.ReferenceIdeal.ReadP.val_main_v31 (F := Ideal) (m ((c : Thread nD τ).loc main_arg1)) (ix1 g)
    ∧ W10 m c (Proc.devRef .tc main_v16_1) (ix2 (0 : Fin 1) g)
        = Cert.ReferenceIdeal.ReadP.val_main_v32 (F := Ideal) (m ((c : Thread nD τ).loc main_arg1)) (ix1 g) := by
  have hN : cfg2.N = 32 := N_2
  have hX : Run.V9 m c main_v15 = Cert.ReferenceIdeal.ReadP.val_main_v29 (F := Ideal) (m ((c : Thread nD τ).loc main_arg1)) := (W9_main_v15 m c).trans rfl
  rw [show W10 m c (Proc.devRef .tc main_v16_0) = (dat2 (Run.V9 m) c).arrAt 1 cfg2.N from W10_arr m c 1,
    show W10 m c (Proc.devRef .tc main_v16_1) = (dat2 (Run.V9 m) c).arrAt 2 cfg2.N from W10_arr m c 2, arrAt2_1, arrAt2_2]
  exact Cert.KernelIdeal.MinMax.fold_min_max2 (Cert.ReferenceIdeal.ReadP.val_main_v29 (F := Ideal) (m ((c : Thread nD τ).loc main_arg1)))
    (fun n => if h : n < cfg2.N then iblk2 (Run.V9 m) c 0 ⟨n, h⟩ else iblk2 (Run.V9 m) c 0 ⟨0, by omega⟩)
    (fun n hn p q hr => by rw [dif_pos (show n < cfg2.N by omega), iblk2_at (Run.V9 m) c n _ p q hr, hX])
    (fun n => if h : n < cfg2.N then accAt2 (Run.V9 m) c n h else accAt2 (Run.V9 m) c 0 (by omega))
    (by rw [dif_pos (show 0 < cfg2.N by omega), dif_pos (show 0 < cfg2.N by omega)]; rfl)
    (fun n hn => by
      rw [dif_pos (show n + 1 < cfg2.N by omega), dif_pos (show n + 1 < cfg2.N by omega), dif_pos (show n < cfg2.N by omega)]; rfl)
    g

/-- The quantize region's output array is the reference's 16384 × 4096 result, entry by entry: the same scalar map at the
    same scale and zero point, which are the same scalar functions of the group's minimum and maximum. -/
theorem out1_eq :
    W16 m c (Proc.devRef .tc main_v28) = Cert.ReferenceIdeal.ReadP.val_main_v56 (F := Ideal) (m ((c : Thread nD τ).loc main_arg1)) := by
  funext j
  obtain ⟨r, q, rfl⟩ : ∃ (r : Fin 16384) (q : Fin 4096), j = ix2 r q := ⟨j 0, j 1, eq_ix2 j⟩
  have hW : W16 m c (Proc.devRef .tc main_v28) = G1 (Run.V15 m c main_v15) (Run.V15 m c main_v23) (Run.V15 m c main_v27) :=
    (W16_arr m c 3).trans (arrAt3_3 (Run.V15 m) c)
  rw [hW, G1_at _ _ _ (ix2 r q) q rfl]
  show qdq (W15 m c (Proc.devRef .tc main_v15) (ix2 r q)) (W15 m c (Proc.devRef .tc main_v23) (ix2 (0 : Fin 1) (grp q)))
      (W15 m c (Proc.devRef .tc main_v27) (ix2 (0 : Fin 1) (grp q))) = _
  rw [W15_main_v15, W10_main_v15, W9_main_v15, W15_main_v23, W15_main_v27, scaleOf_at, zpOf_at, (minmax1_at m c (grp q)).1, (minmax1_at m c (grp q)).2,
    Cert.ReferenceIdeal.RefValue.ref_out1_at, Cert.ReferenceIdeal.RefValue.ref_scale1_at, Cert.ReferenceIdeal.RefValue.ref_zp1_at]
  rfl

/-- The result is that array reshaped, on both sides. -/
theorem res1_eq :
    W17 m c (Proc.devRef .tc main_v29) = Cert.ReferenceIdeal.ReadP.val_main_v57 (F := Ideal) (m ((c : Thread nD τ).loc main_arg1)) := by
  rw [W17_main_v29, out1_eq]
  rfl

end Cert.KernelIdeal.Val

end
-- ==== Proof.RefStages.lean ====
/-
  The reference's run, stretch by stretch.  Its @main is 82 host operations in a row; they are taken in six consecutive
  stretches — per input: reshape and the two reduces; the scale and zero point; the quantize–dequantize map and the
  reshape back — and the buffers' contents after each stretch are read off the contents before it, which stay a
  variable, so that no term ever holds more than one stretch.  Each value a later stretch reads is the matching stage of
  the reference read at an index elsewhere (`val_main_vN`), and the run's results are `val_main_v28` of the first
  argument and `val_main_v57` of the second, the arguments unchanged.
-/
import proofs.«128145_j1211180777498_1_alg».proof.Proof.RefRun
import proofs.«128145_j1211180777498_1_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lists of operations in a row are the contents after the second from those after the first. -/
theorem after_app (l₁ l₂ : List (HloOp τ sig (Elt F))) (V : Valuation τ sig (Elt F)) : after (l₁ ++ l₂) V = after l₂ (after l₁ V) := by
  induction l₁ generalizing V with
  | nil => rfl
  | cons op l ih => exact ih _

variable (V : Valuation τ sig (Elt F))

/-! ## Stretch 1: the first input reshaped, and its two reduces -/

theorem s1_v1 : after ops_1 V (Proc.devRef .tc main_v1) = val_main_v1 (F := F) (V (Proc.devRef .tc main_arg0)) := by
  after_results
  rfl
theorem s1_v2 : after ops_1 V (Proc.devRef .tc main_v2) = val_main_v2 (F := F) (V (Proc.devRef .tc main_arg0)) := by
  after_results
  rfl
theorem s1_v3 : after ops_1 V (Proc.devRef .tc main_v3) = val_main_v3 (F := F) (V (Proc.devRef .tc main_arg0)) := by
  after_results
  rfl
theorem s1_keep_arg0 : after ops_1 V (Proc.devRef .tc main_arg0) = V (Proc.devRef .tc main_arg0) := by
  after_results
theorem s1_keep_arg1 : after ops_1 V (Proc.devRef .tc main_arg1) = V (Proc.devRef .tc main_arg1) := by
  after_results

/-! ## Stretch 2: the scale and the zero point of every group -/

theorem s2_v10 (a : (⟨S4x4096x4096, .f32⟩ : BufTy).Contents (Elt F)) (h_v2 : V (Proc.devRef .tc main_v2) = val_main_v2 (F := F) a) (h_v3 : V (Proc.devRef .tc main_v3) = val_main_v3 (F := F) a) :
    after ops_2 V (Proc.devRef .tc main_v10) = val_main_v10 (F := F) a := by
  after_results
  (try simp only [TRef.ofBuf, TRef.toBuf, cast_eq])
  rw [h_v2, h_v3]
  rfl
theorem s2_v14 (a : (⟨S4x4096x4096, .f32⟩ : BufTy).Contents (Elt F)) (h_v2 : V (Proc.devRef .tc main_v2) = val_main_v2 (F := F) a) (h_v3 : V (Proc.devRef .tc main_v3) = val_main_v3 (F := F) a) :
    after ops_2 V (Proc.devRef .tc main_v14) = val_main_v14 (F := F) a := by
  after_results
  (try simp only [TRef.ofBuf, TRef.toBuf, cast_eq])
  rw [h_v2, h_v3]
  rfl
theorem s2_keep_v1 : after ops_2 V (Proc.devRef .tc main_v1) = V (Proc.devRef .tc main_v1) := by
  after_results
theorem s2_keep_arg0 : after ops_2 V (Proc.devRef .tc main_arg0) = V (Proc.devRef .tc main_arg0) := by
  after_results
theorem s2_keep_arg1 : after ops_2 V (Proc.devRef .tc main_arg1) = V (Proc.devRef .tc main_arg1) := by
  after_results

/-! ## Stretch 3: every entry quantized and dequantized, and the reshape back -/

set_option maxHeartbeats 4000000 in
theorem s3_v28 (a : (⟨S4x4096x4096, .f32⟩ : BufTy).Contents (Elt F)) (h_v1 : V (Proc.devRef .tc main_v1) = val_main_v1 (F := F) a) (h_v10 : V (Proc.devRef .tc main_v10) = val_main_v10 (F := F) a) (h_v14 : V (Proc.devRef .tc main_v14) = val_main_v14 (F := F) a) :
    after ops_3 V (Proc.devRef .tc main_v28) = val_main_v28 (F := F) a := by
  after_results
  (try simp only [TRef.ofBuf, TRef.toBuf, cast_eq])
  rw [h_v1, h_v10, h_v14]
  unfold val_main_v28 val_main_v27 val_main_v26 val_main_v24 val_main_v25 val_main_v22 val_main_v23 val_main_call3_v4 val_main_call3_v3 val_main_cst_5 val_main_call3_v2 val_main_call3_v1 val_main_call3_v0 val_main_cst_4 val_main_v21 val_main_v20 val_main_v18 val_main_v19 val_main_v17 val_main_v16 val_main_v15
  rfl
theorem s3_keep_arg0 : after ops_3 V (Proc.devRef .tc main_arg0) = V (Proc.devRef .tc main_arg0) := by
  after_results
theorem s3_keep_arg1 : after ops_3 V (Proc.devRef .tc main_arg1) = V (Proc.devRef .tc main_arg1) := by
  after_results

/-! ## Stretches 4 to 6: the same for the second input -/

theorem s4_v30 : after ops_4 V (Proc.devRef .tc main_v30) = val_main_v30 (F := F) (V (Proc.devRef .tc main_arg1)) := by
  after_results
  rfl
theorem s4_v31 : after ops_4 V (Proc.devRef .tc main_v31) = val_main_v31 (F := F) (V (Proc.devRef .tc main_arg1)) := by
  after_results
  rfl
theorem s4_v32 : after ops_4 V (Proc.devRef .tc main_v32) = val_main_v32 (F := F) (V (Proc.devRef .tc main_arg1)) := by
  after_results
  rfl
theorem s4_keep_v28 : after ops_4 V (Proc.devRef .tc main_v28) = V (Proc.devRef .tc main_v28) := by
  after_results
theorem s4_keep_arg0 : after ops_4 V (Proc.devRef .tc main_arg0) = V (Proc.devRef .tc main_arg0) := by
  after_results
theorem s4_keep_arg1 : after ops_4 V (Proc.devRef .tc main_arg1) = V (Proc.devRef .tc main_arg1) := by
  after_results

theorem s5_v39 (b : (⟨S4x4096x4096, .f32⟩ : BufTy).Contents (Elt F)) (h_v31 : V (Proc.devRef .tc main_v31) = val_main_v31 (F := F) b) (h_v32 : V (Proc.devRef .tc main_v32) = val_main_v32 (F := F) b) :
    after ops_5 V (Proc.devRef .tc main_v39) = val_main_v39 (F := F) b := by
  after_results
  (try simp only [TRef.ofBuf, TRef.toBuf, cast_eq])
  rw [h_v31, h_v32]
  rfl
theorem s5_v43 (b : (⟨S4x4096x4096, .f32⟩ : BufTy).Contents (Elt F)) (h_v31 : V (Proc.devRef .tc main_v31) = val_main_v31 (F := F) b) (h_v32 : V (Proc.devRef .tc main_v32) = val_main_v32 (F := F) b) :
    after ops_5 V (Proc.devRef .tc main_v43) = val_main_v43 (F := F) b := by
  after_results
  (try simp only [TRef.ofBuf, TRef.toBuf, cast_eq])
  rw [h_v31, h_v32]
  rfl
theorem s5_keep_v30 : after ops_5 V (Proc.devRef .tc main_v30) = V (Proc.devRef .tc main_v30) := by
  after_results
theorem s5_keep_v28 : after ops_5 V (Proc.devRef .tc main_v28) = V (Proc.devRef .tc main_v28) := by
  after_results
theorem s5_keep_arg0 : after ops_5 V (Proc.devRef .tc main_arg0) = V (Proc.devRef .tc main_arg0) := by
  after_results
theorem s5_keep_arg1 : after ops_5 V (Proc.devRef .tc main_arg1) = V (Proc.devRef .tc main_arg1) := by
  after_results

set_option maxHeartbeats 4000000 in
theorem s6_v57 (b : (⟨S4x4096x4096, .f32⟩ : BufTy).Contents (Elt F)) (h_v30 : V (Proc.devRef .tc main_v30) = val_main_v30 (F := F) b) (h_v39 : V (Proc.devRef .tc main_v39) = val_main_v39 (F := F) b) (h_v43 : V (Proc.devRef .tc main_v43) = val_main_v43 (F := F) b) :
    after ops_6 V (Proc.devRef .tc main_v57) = val_main_v57 (F := F) b := by
  after_results
  (try simp only [TRef.ofBuf, TRef.toBuf, cast_eq])
  rw [h_v30, h_v39, h_v43]
  unfold val_main_v57 val_main_v56 val_main_v55 val_main_v53 val_main_v54 val_main_v51 val_main_v52 val_main_call7_v4 val_main_call7_v3 val_main_cst_12 val_main_call7_v2 val_main_call7_v1 val_main_call7_v0 val_main_cst_11 val_main_v50 val_main_v49 val_main_v47 val_main_v48 val_main_v46 val_main_v45 val_main_v44
  rfl
theorem s6_keep_v28 : after ops_6 V (Proc.devRef .tc main_v28) = V (Proc.devRef .tc main_v28) := by
  after_results
theorem s6_keep_arg0 : after ops_6 V (Proc.devRef .tc main_arg0) = V (Proc.devRef .tc main_arg0) := by
  after_results
theorem s6_keep_arg1 : after ops_6 V (Proc.devRef .tc main_arg1) = V (Proc.devRef .tc main_arg1) := by
  after_results

/-! ## The six stretches in a row -/

/-- After all 82 operations from contents `V`: the two results are the reference's stages of the two arguments, and the
    arguments are as they were. -/
theorem after_ops :
    after (ops : List (HloOp τ sig (Elt F))) V (Proc.devRef .tc main_v28) = val_main_v28 (F := F) (V (Proc.devRef .tc main_arg0))
    ∧ after (ops : List (HloOp τ sig (Elt F))) V (Proc.devRef .tc main_v57) = val_main_v57 (F := F) (V (Proc.devRef .tc main_arg1))
    ∧ after (ops : List (HloOp τ sig (Elt F))) V (Proc.devRef .tc main_arg0) = V (Proc.devRef .tc main_arg0)
    ∧ after (ops : List (HloOp τ sig (Elt F))) V (Proc.devRef .tc main_arg1) = V (Proc.devRef .tc main_arg1) := by
  rw [ops_pieces, after_app, after_app, after_app, after_app, after_app]
  -- the contents after each stretch, as variables with what is known of them
  have a1_0 := s1_keep_arg0 V; have a1_1 := s1_keep_arg1 V
  have h1_1 := s1_v1 V; have h1_2 := s1_v2 V; have h1_3 := s1_v3 V
  generalize after ops_1 V = V1 at *
  have a2_0 := (s2_keep_arg0 V1).trans a1_0; have a2_1 := (s2_keep_arg1 V1).trans a1_1
  have h2_1 := (s2_keep_v1 V1).trans h1_1
  have h2_10 := s2_v10 V1 _ h1_2 h1_3; have h2_14 := s2_v14 V1 _ h1_2 h1_3
  generalize after ops_2 V1 = V2 at *
  have a3_0 := (s3_keep_arg0 V2).trans a2_0; have a3_1 := (s3_keep_arg1 V2).trans a2_1
  have h3_28 := s3_v28 V2 _ h2_1 h2_10 h2_14
  generalize after ops_3 V2 = V3 at *
  have a4_0 := (s4_keep_arg0 V3).trans a3_0; have a4_1 := (s4_keep_arg1 V3).trans a3_1
  have h4_28 := (s4_keep_v28 V3).trans h3_28
  have h4_30 := (s4_v30 V3).trans (congrArg _ a3_1); have h4_31 := (s4_v31 V3).trans (congrArg _ a3_1); have h4_32 := (s4_v32 V3).trans (congrArg _ a3_1)
  generalize after ops_4 V3 = V4 at *
  have a5_0 := (s5_keep_arg0 V4).trans a4_0; have a5_1 := (s5_keep_arg1 V4).trans a4_1
  have h5_28 := (s5_keep_v28 V4).trans h4_28; have h5_30 := (s5_keep_v30 V4).trans h4_30
  have h5_39 := s5_v39 V4 _ h4_31 h4_32; have h5_43 := s5_v43 V4 _ h4_31 h4_32
  generalize after ops_5 V4 = V5 at *
  exact ⟨(s6_keep_v28 V5).trans h5_28, s6_v57 V5 _ h5_30 h5_39 h5_43, (s6_keep_arg0 V5).trans a5_0, (s6_keep_arg1 V5).trans a5_1⟩

/-- THE RUN: on every device, from any memory with zero counters, every weakly fair execution of the reference's @main
    terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = val_main_v28 (F := F) (m ((c.tc : Thread nD τ).loc main_arg0))
      ∧ r.2.mem ((c.tc : Thread nD τ).loc main_v57) = val_main_v57 (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v28).trans (after_ops (fun b => m (c, b))).1, (h c main_v57).trans (after_ops (fun b => m (c, b))).2.1,
     (h c main_arg0).trans (after_ops (fun b => m (c, b))).2.2.1, (h c main_arg1).trans (after_ops (fun b => m (c, b))).2.2.2⟩)
    (run_seq scopedRefs_eq scopedSems_eq defs main (fun _ => ops) main_eq (fun _ => ops_sub) m ρ)

end Cert.ReferenceIdeal.Stages

end
-- ==== Proof.lean ====
/-
  A per-group dynamic quantizer, applied to two inputs of shape 4 × 4096 × 4096 (each read as 16384 rows × 4096 columns,
  the columns in 32 groups of 128).  For each input: every group's minimum and maximum over ALL rows and the group's 128
  columns; from them a scale  s = (max' − min) / 255  (max' = min + ε where max = min) and a zero point
  z = 0 − roundeven(min / s);  then every entry x of the group becomes  (min(255, max(0, roundeven(x / s + z))) − z) · s.

  The kernel does this in two regions per input.  The first walks the rows in 32 blocks of 512, keeping the running minimum
  and maximum of every group in two scratch buffers that it carries from block to block (set to +∞ and −∞ at the first
  block) and copies into its two outputs, written back after the last block.  The host turns those into s and z.  The second
  region walks the rows in 64 blocks of 256 and maps every entry.  The reference takes each extremum by one reduce over the
  rows and lanes and maps the whole array in one expression.

  The frames (each program runs to the end, faults nowhere, leaves its two arguments unchanged) are proved against the
  several-regions launch, the min/max regions' invariant naming the carried accumulators point by point; the same run gives
  every unscoped buffer's final contents, from which the value claim reads the two results.  On the extended reals the two
  programs agree entry by entry: the folded block extrema equal the one reduce because min and max are associative,
  commutative and idempotent with neutral +∞ and −∞, the scale and zero point are the same scalar functions of the same
  extrema, and the entry map is the same scalar map; the reshapes on both sides undo each other.  No step needs the inputs
  to be finite, so the precondition is never opened.  The idealization rewrote nothing, so it is preserved trivially.
-/
import proofs.«128145_j1211180777498_1_alg».proof.Defs
import proofs.«128145_j1211180777498_1_alg».proof.Proof.Gen.Kernel
import proofs.«128145_j1211180777498_1_alg».proof.Proof.Gen.KernelIdeal
import proofs.«128145_j1211180777498_1_alg».proof.Proof.Gen.ReferenceIdeal
import proofs.«128145_j1211180777498_1_alg».proof.Proof.Gen.Pre_finite_inputs
import proofs.«128145_j1211180777498_1_alg».proof.Proof.K.Run
import proofs.«128145_j1211180777498_1_alg».proof.Proof.KI.Run
import proofs.«128145_j1211180777498_1_alg».proof.Proof.KI.Value
import proofs.«128145_j1211180777498_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel :=
  fun m ρ _ => Cert.Kernel.Run.frame (F := Bits) m ρ

/-- So does the idealized kernel. -/
theorem frame_ki : Cert.frame_KernelIdeal :=
  fun m ρ _ => Cert.KernelIdeal.Run.frame (F := Ideal) m ρ

/-- The reference is host operations only: its run, with the results dropped. -/
theorem frame_ri : Cert.frame_ReferenceIdeal :=
  fun m ρ _ => (θ_run Cert.ReferenceIdeal.defs _ _).mono (fun _ h c => (h c).2.2) (Cert.ReferenceIdeal.Stages.run (F := Ideal) m ρ)

/-- From memories that agree on the two arguments both programs end with the same two results: the kernel's run names
    every unscoped buffer's final contents, the reference's run its two results as stages of its arguments, and the two
    are equal entry by entry. -/
theorem algebraic : Cert.algebraic_KernelIdeal_ReferenceIdeal := by
  intro m ρ m' ρ' _ hagree
  refine ⟨fun c => Cert.KernelIdeal.Run.W17 m c (Proc.devRef .tc Cert.KernelIdeal.main_v14),
    fun c => Cert.KernelIdeal.Run.W17 m c (Proc.devRef .tc Cert.KernelIdeal.main_v29), ?_, ?_⟩
  · exact (θ_run Cert.KernelIdeal.defs _ _).mono (fun r h c =>
      ⟨h c _ (Cert.KernelIdeal.Run.mem_uc Cert.KernelIdeal.main_v14 (by decide)),
       h c _ (Cert.KernelIdeal.Run.mem_uc Cert.KernelIdeal.main_v29 (by decide)),
       (h c _ (Cert.KernelIdeal.Run.mem_uc Cert.KernelIdeal.main_arg0 (by decide))).trans (Cert.KernelIdeal.Run.W17_main_arg0 m c),
       (h c _ (Cert.KernelIdeal.Run.mem_uc Cert.KernelIdeal.main_arg1 (by decide))).trans (Cert.KernelIdeal.Run.W17_main_arg1 m c)⟩)
      (Cert.KernelIdeal.Run.run_all (F := Ideal) m ρ)
  · refine (θ_run Cert.ReferenceIdeal.defs _ _).mono (fun r h c => ⟨(h c).1.trans ?_, (h c).2.1.trans ?_, (h c).2.2.1, (h c).2.2.2⟩)
      (Cert.ReferenceIdeal.Stages.run (F := Ideal) m' ρ')
    · rw [(hagree c).1]; exact (Cert.KernelIdeal.Val.res0_eq m c).symm
    · rw [(hagree c).2]; exact (Cert.KernelIdeal.Val.res1_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
